-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v2)) (v3 : (c : Dev Cert.KernelIdeal.nD) → Buf (Elt Ideal) ((c.tc : Thread Cert.KernelIdeal.nD Cert.KernelIdeal.τ).loc Cert.KernelIdeal.main_v1)) (v4 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v2) = v2 c
          ∧ r.2.mem ((c.tc : Thread Cert.KernelIdeal.nD Cert.KernelIdeal.τ).loc Cert.KernelIdeal.main_v1) = v3 c
          ∧ r.2.mem ((c.tc : Thread Cert.KernelIdeal.nD Cert.KernelIdeal.τ).loc Cert.KernelIdeal.main_v0_2) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_v23) = v2 c
          ∧ r.2.mem ((c.tc : Thread Cert.ReferenceIdeal.nD Cert.ReferenceIdeal.τ).loc Cert.ReferenceIdeal.main_v15) = v3 c
          ∧ r.2.mem ((c.tc : Thread Cert.ReferenceIdeal.nD Cert.ReferenceIdeal.τ).loc Cert.ReferenceIdeal.main_v18) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x4096 : Shape := ⟨2, ![512, 4096]⟩
abbrev S4096x4096 : Shape := ⟨2, ![4096, 4096]⟩
abbrev S_ : Shape := ⟨0, ![]⟩

class Facts : Prop where
  bcast_S_S512x4096 : S_.BroadcastsInDim S512x4096 (![] : Fin 0 → Fin S512x4096.rank)
  reducesTo_S512x4096_S_d0_1 : S512x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn_part1 {F : FTy → Type} [FloatOps F] (main_arg4 : FVec F S512x4096 .f32) (main_v13 : IVec S_ 1) (main_v16 : IVec S512x4096 1) : IVec S_ 1 :=
  let main_c_5 : IVec S_ 1 := constantI S_ 1 1#1
  let main_v17 : IVec S_ 1 := (fun x v => Host.reduce IntOp.andi x v reducesTo_S512x4096_S_d0_1 h_S_) main_v16 main_c_5
  let main_v18 : IVec S_ 1 := andi main_v13 main_v17
  let main_v19 : FVec F S512x4096 .f32 := Host.absf main_arg4
  let main_cst_6 : FVec F S_ .f32 := constant S_ .f32 0x7F800000#32
  let main_v20 : FVec F S512x4096 .f32 := broadcastInDim S512x4096 ![] bcast_S_S512x4096 main_cst_6
  let main_v21 : IVec S512x4096 1 := cmpf .olt main_v19 main_v20
  let main_c_7 : IVec S_ 1 := constantI S_ 1 1#1
  let main_v22 : IVec S_ 1 := (fun x v => Host.reduce IntOp.andi x v reducesTo_S512x4096_S_d0_1 h_S_) main_v21 main_c_7
  let main_v23 : IVec S_ 1 := andi main_v18 main_v22
  main_v23

def fn {F : FTy → Type} [FloatOps F] (main_arg0 : FVec F S512x4096 .f32) (main_arg1 : FVec F S4096x4096 .f32) (main_arg2 : FVec F S512x4096 .f32) (main_arg3 : FVec F S512x4096 .f32) (main_arg4 : FVec F S512x4096 .f32) : IVec S_ 1 :=
  let main_v0 : FVec F S512x4096 .f32 := Host.absf main_arg0
  let main_cst : FVec F S_ .f32 := constant S_ .f32 0x7F800000#32
  let main_v1 : FVec F S512x4096 .f32 := broadcastInDim S512x4096 ![] bcast_S_S512x4096 main_cst
  let main_v2 : IVec S512x4096 1 := cmpf .olt main_v0 main_v1
  let main_c : IVec S_ 1 := constantI S_ 1 1#1
  let main_v3 : IVec S_ 1 := (fun x v => Host.reduce IntOp.andi x v reducesTo_S512x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S512x4096 .f32 := Host.absf main_arg2
  let main_cst_2 : FVec F S_ .f32 := constant S_ .f32 0x7F800000#32
  let main_v10 : FVec F S512x4096 .f32 := broadcastInDim S512x4096 ![] bcast_S_S512x4096 main_cst_2
  let main_v11 : IVec S512x4096 1 := cmpf .olt main_v9 main_v10
  let main_c_3 : IVec S_ 1 := constantI S_ 1 1#1
  let main_v12 : IVec S_ 1 := (fun x v => Host.reduce IntOp.andi x v reducesTo_S512x4096_S_d0_1 h_S_) main_v11 main_c_3
  let main_v13 : IVec S_ 1 := andi main_v8 main_v12
  let main_v14 : FVec F S512x4096 .f32 := Host.absf main_arg3
  let main_cst_4 : FVec F S_ .f32 := constant S_ .f32 0x7F800000#32
  let main_v15 : FVec F S512x4096 .f32 := broadcastInDim S512x4096 ![] bcast_S_S512x4096 main_cst_4
  let main_v16 : IVec S512x4096 1 := cmpf .olt main_v14 main_v15
  fn_part1 (F := F) main_arg4 main_v13 main_v16
-- ==== Kernel.lean ====
abbrev S512x4096 : Shape := ⟨2, ![512, 4096]⟩
abbrev S4096x4096 : Shape := ⟨2, ![4096, 4096]⟩
abbrev S512x1024 : Shape := ⟨2, ![512, 1024]⟩
abbrev S512x512 : Shape := ⟨2, ![512, 512]⟩
abbrev S1024x1024 : Shape := ⟨2, ![1024, 1024]⟩

abbrev nBuf : Space → Nat
  | .hbm => 10
  | .vmem => 29
  | .smem => 0
  | _ => 0

abbrev bufTy : (tb : Table) → Fin (tcTables nBuf tb) → BufTy
  | .hbm, ⟨0, _⟩ => ⟨S512x4096, .f32⟩
  | .hbm, ⟨1, _⟩ => ⟨S4096x4096, .f32⟩
  | .hbm, ⟨2, _⟩ => ⟨S512x4096, .f32⟩
  | .hbm, ⟨3, _⟩ => ⟨S512x4096, .f32⟩
  | .hbm, ⟨4, _⟩ => ⟨S512x4096, .f32⟩
  | .hbm, ⟨5, _⟩ => ⟨S512x4096, .f32⟩
  | .hbm, ⟨6, _⟩ => ⟨S512x4096, .f32⟩
  | .hbm, ⟨7, _⟩ => ⟨S512x4096, .f32⟩
  | .hbm, ⟨8, _⟩ => ⟨S512x4096, .f32⟩
  | .hbm, ⟨9, _⟩ => ⟨S4096x4096, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | .local _ .vmem, ⟨23, _⟩ => ⟨S512x1024, .f32⟩
  | .local _ .vmem, ⟨24, _⟩ => ⟨S512x1024, .f32⟩
  | .local _ .vmem, ⟨25, _⟩ => ⟨S1024x1024, .f32⟩
  | .local _ .vmem, ⟨26, _⟩ => ⟨S1024x1024, .f32⟩
  | .local _ .vmem, ⟨27, _⟩ => ⟨S1024x1024, .f32⟩
  | .local _ .vmem, ⟨28, _⟩ => ⟨S1024x1024, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg3_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem3_1 : DmaSem sig := 27

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![4, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S512x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

class Facts₀ : Prop where
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x1024_S512x1024_0_0 : ∀ a, (![0, 0] : Fin 2 → Nat) a + S512x1024.size a ≤ S512x1024.size a
  h_S512x1024 : 0 < S512x1024.numel
  bitsLt_bf16_f32 : FTy.bits .bf16 < FTy.bits .f32
  natLt_1_32 : 1 < 32
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  dot_S512x1024_S512x1024_S512x512_1_1_0_0_n_n_wf : DotDims.WF S512x1024 S512x1024 S512x512 [1] [1] [0] [0] [] []
  dot_S512x1024_S512x1024_S1024x1024_0_0_1_1_n_n_wf : DotDims.WF S512x1024 S512x1024 S1024x1024 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S512x4096.size a
  hwx0_0 : ∀ i : grid0.Coords, EltTy.bits .f32 = 32 ∨ (Rect.block (s := S512x4096) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .f32 = 32 ∨ (Rect.block (s := S4096x4096) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x4096.size a
  hwx0_2 : ∀ i : grid0.Coords, EltTy.bits .f32 = 32 ∨ (Rect.block (s := S512x4096) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x4096.size a
  hwx0_3 : ∀ i : grid0.Coords, EltTy.bits .f32 = 32 ∨ (Rect.block (s := S512x4096) S512x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x4096.size a
  hwx0_4 : ∀ i : grid0.Coords, EltTy.bits .f32 = 32 ∨ (Rect.block (s := S512x4096) S512x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x4096.size a
  hwx0_5 : ∀ i : grid0.Coords, EltTy.bits .f32 = 32 ∨ (Rect.block (s := S512x4096) S512x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S512x4096.size a
  hwx0_6 : ∀ i : grid0.Coords, EltTy.bits .f32 = 32 ∨ (Rect.block (s := S512x4096) S512x512.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S512x4096.size a
  hwx1_0 : ∀ i : grid1.Coords, EltTy.bits .f32 = 32 ∨ (Rect.block (s := S512x4096) S512x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S512x4096.size a
  hwx1_1 : ∀ i : grid1.Coords, EltTy.bits .f32 = 32 ∨ (Rect.block (s := S512x4096) S512x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1024.size a ≤ S512x4096.size a
  hwx1_2 : ∀ i : grid1.Coords, EltTy.bits .f32 = 32 ∨ (Rect.block (s := S512x4096) S512x1024.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S512x4096.size a
  hwx2_0 : ∀ i : grid2.Coords, EltTy.bits .f32 = 32 ∨ (Rect.block (s := S512x4096) S512x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x1024.size a ≤ S512x4096.size a
  hwx2_1 : ∀ i : grid2.Coords, EltTy.bits .f32 = 32 ∨ (Rect.block (s := S512x4096) S512x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1024.size a ≤ S4096x4096.size a
  hwx2_2 : ∀ i : grid2.Coords, EltTy.bits .f32 = 32 ∨ (Rect.block (s := S4096x4096) S1024x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S4096x4096.size a
  hwx2_3 : ∀ i : grid2.Coords, EltTy.bits .f32 = 32 ∨ (Rect.block (s := S4096x4096) S1024x1024.size (cc2_transform_3 i) (hinb2_3 i)).WholeWords (EltTy.packing .f32)

variable [Facts₀]

def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf
def dot_S512x1024_S512x1024_S1024x1024_0_0_1_1_n_n : DotDims S512x1024 S512x1024 S1024x1024 where
  lhsContracting := [0]
  rhsContracting := [0]
  lhsNonContracting := [1]
  rhsNonContracting := [1]
  lhsBatch := []
  rhsBatch := []
  wf := dot_S512x1024_S512x1024_S1024x1024_0_0_1_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S512x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S512x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S512x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_2) S512x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun i => !(k0_cond2 i == 1#1) | 5 => fun i => !(k0_cond2 i == 1#1) | 6 => fun i => !(k0_cond2 i == 1#1) | ⟨_ + 7, h⟩ => absurd h (Nat.not_lt.2 (Nat.le_add_left _ _))

abbrev win1_0 : Pipeline.Window sig grid1 :=
  Pipeline.Window.ofSpec (Memref.whole main_arg3) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S512x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v0_2) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S512x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg1) S1024x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v2) S1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S512x4096 : Shape := ⟨2, ![512, 4096]⟩
abbrev S4096x4096 : Shape := ⟨2, ![4096, 4096]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S512x4096, .f32⟩
  | .hbm, ⟨1, _⟩ => ⟨S4096x4096, .f32⟩
  | .hbm, ⟨2, _⟩ => ⟨S512x4096, .f32⟩
  | .hbm, ⟨3, _⟩ => ⟨S512x4096, .f32⟩
  | .hbm, ⟨4, _⟩ => ⟨S512x4096, .f32⟩
  | .hbm, ⟨5, _⟩ => ⟨S4096x4096, .f32⟩
  | .hbm, ⟨6, _⟩ => ⟨S512x4096, .f32⟩
  | .hbm, ⟨7, _⟩ => ⟨S_, .f32⟩
  | .hbm, ⟨8, _⟩ => ⟨S512x4096, .f32⟩
  | .hbm, ⟨9, _⟩ => ⟨S512x4096, .f32⟩
  | .hbm, ⟨10, _⟩ => ⟨S512x4096, .f32⟩
  | .hbm, ⟨11, _⟩ => ⟨S_, .f32⟩
  | .hbm, ⟨12, _⟩ => ⟨S512x4096, .f32⟩
  | .hbm, ⟨13, _⟩ => ⟨S512x4096, .i1⟩
  | .hbm, ⟨14, _⟩ => ⟨S512x4096, .f32⟩
  | .hbm, ⟨15, _⟩ => ⟨S_, .f32⟩
  | .hbm, ⟨16, _⟩ => ⟨S512x4096, .f32⟩
  | .hbm, ⟨17, _⟩ => ⟨S512x4096, .i1⟩
  | .hbm, ⟨18, _⟩ => ⟨S_, .f32⟩
  | .hbm, ⟨19, _⟩ => ⟨S512x4096, .f32⟩
  | .hbm, ⟨20, _⟩ => ⟨S512x4096, .f32⟩
  | .hbm, ⟨21, _⟩ => ⟨S512x4096, .f32⟩
  | .hbm, ⟨22, _⟩ => ⟨S_, .f32⟩
  | .hbm, ⟨23, _⟩ => ⟨S512x4096, .f32⟩
  | .hbm, ⟨24, _⟩ => ⟨S512x4096, .f32⟩
  | .hbm, ⟨25, _⟩ => ⟨S512x4096, .f32⟩
  | .hbm, ⟨26, _⟩ => ⟨S_, .f32⟩
  | .hbm, ⟨27, _⟩ => ⟨S512x4096, .f32⟩
  | .hbm, ⟨28, _⟩ => ⟨S512x4096, .f32⟩
  | .hbm, ⟨29, _⟩ => ⟨S512x4096, .f32⟩
  | .hbm, ⟨30, _⟩ => ⟨S4096x4096, .f32⟩
  | .hbm, ⟨31, _⟩ => ⟨S_, .f32⟩
  | .hbm, ⟨32, _⟩ => ⟨S4096x4096, .f32⟩
  | .hbm, ⟨33, _⟩ => ⟨S4096x4096, .f32⟩
  | .hbm, ⟨34, _⟩ => ⟨S4096x4096, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S4096x4096, .f32⟩
  | .hbm, ⟨39, _⟩ => ⟨S4096x4096, .f32⟩
  | .hbm, ⟨40, _⟩ => ⟨S_, .f32⟩
  | .hbm, ⟨41, _⟩ => ⟨S4096x4096, .f32⟩
  | .hbm, ⟨42, _⟩ => ⟨S4096x4096, .f32⟩
  | _, _ => ⟨S512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_6 : Ref sig .tc := ⟨.hbm, 35, rfl⟩
abbrev main_cst_7 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_v23 : Ref sig .tc := ⟨.hbm, 42, rfl⟩

abbrev nD : Nat := 1
abbrev τ : Topo := Topo.v7x

variable {F : FTy → Type} [FloatOps F]

class Facts₀ : Prop where
  transposes_S4096x4096_S4096x4096_1_0 : S4096x4096.Transposes [1, 0] S4096x4096
  bcast_S_S512x4096 : S_.BroadcastsInDim S512x4096 (![] : Fin 0 → Fin S512x4096.rank)
  bcast_S_S4096x4096 : S_.BroadcastsInDim S4096x4096 (![] : Fin 0 → Fin S4096x4096.rank)
  dot_S512x4096_S4096x4096_S512x4096_1_0_0_1_n_n_wf : DotDims.WF S512x4096 S4096x4096 S512x4096 [1] [0] [0] [1] [] []
  dot_S512x4096_S512x4096_S4096x4096_0_0_1_1_n_n_wf : DotDims.WF S512x4096 S512x4096 S4096x4096 [0] [0] [1] [1] [] []

variable [Facts₀]

def dot_S512x4096_S4096x4096_S512x4096_1_0_0_1_n_n : DotDims S512x4096 S4096x4096 S512x4096 where
  lhsContracting := [1]
  rhsContracting := [0]
  lhsNonContracting := [0]
  rhsNonContracting := [1]
  lhsBatch := []
  rhsBatch := []
  wf := dot_S512x4096_S4096x4096_S512x4096_1_0_0_1_n_n_wf
def dot_S512x4096_S512x4096_S4096x4096_0_0_1_1_n_n : DotDims S512x4096 S512x4096 S4096x4096 where
  lhsContracting := [0]
  rhsContracting := [0]
  lhsNonContracting := [1]
  rhsNonContracting := [1]
  lhsBatch := []
  rhsBatch := []
  wf := dot_S512x4096_S512x4096_S4096x4096_0_0_1_1_n_n_wf

class Facts : Prop extends Facts₀ where

variable [Facts]
-- ==== Proof.K.Region0Defs.lean ====
/-
  The first kernel region (the weighted input, the neuron update and the post-synaptic trace), its data. The grid is
  8 × 4: point t = 4·j + k works on output-neuron block j (512 neurons) and input block k (1024 inputs). A [512, 512]
  scratch carries the partial weighted input across the four k-steps of one j: at k = 0 it is first zeroed; every point
  adds the product of the point's in_spikes block and weight block (contracted over the 1024 inputs); at k = 3 the
  body also stores the three outputs' blocks, computed from the membrane block, the scratch and the trace block. At the
  other points the three outputs' buffers are left as found. Stated at a parameter V, the core's buffer contents when
  the region is entered.
-/
import proofs.«156583_j59219009077774_1_alg».proof.Proof.Gen.Kernel.Launch
import proofs.«156583_j59219009077774_1_alg».proof.Proof.Gen.Kernel.Skeleton
import proofs.«156583_j59219009077774_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The four input blocks at a point, at their literal types: in_spikes [512, 1024], weight [512, 1024] (512 output
    neurons by 1024 inputs), membrane [512, 512], trace_post [512, 512]. -/
abbrev xb0 (c : Dev nD) (t : Fin cfg0.N) : Vec F S512x1024 .f32 := iblk0 V c 0 t
abbrev wb0 (c : Dev nD) (t : Fin cfg0.N) : Vec F S512x1024 .f32 := iblk0 V c 1 t
abbrev mb0 (c : Dev nD) (t : Fin cfg0.N) : Vec F S512x512 .f32 := iblk0 V c 2 t
abbrev pb0 (c : Dev nD) (t : Fin cfg0.N) : Vec F S512x512 .f32 := iblk0 V c 3 t

/-! ## The scratch, point by point -/

/-- The scratch after the body at position `n`: at a first k-step the point's product added to zero, otherwise added
    to what the point before left. -/
def scAt0 (c : Dev nD) : (n : ℕ) → n < cfg0.N → Vec F S512x512 .f32
  | 0, hn => k0_pay2 (xb0 V c ⟨0, hn⟩) (wb0 V c ⟨0, hn⟩) (k0_pay1 (F := F))
  | n + 1, hn =>
    if (n + 1) % 4 = 0 then k0_pay2 (xb0 V c ⟨n + 1, hn⟩) (wb0 V c ⟨n + 1, hn⟩) (k0_pay1 (F := F))
    else k0_pay2 (xb0 V c ⟨n + 1, hn⟩) (wb0 V c ⟨n + 1, hn⟩) (scAt0 c n (Nat.lt_of_succ_lt hn))

/-- At a first k-step the scratch holds the point's product added to zero. -/
theorem scAt0_reset (c : Dev nD) (t : Fin cfg0.N) (h : t.val % 4 = 0) :
    scAt0 V c t.val t.isLt = k0_pay2 (xb0 V c t) (wb0 V c t) (k0_pay1 (F := F)) := by
  obtain ⟨n, hn⟩ := t
  cases n with
  | zero => rfl
  | succ n => exact if_pos h

/-- At any other point it holds the point's product added to what the point before left. -/
theorem scAt0_acc (c : Dev nD) (t : Fin cfg0.N) (h : ¬ t.val % 4 = 0) :
    scAt0 V c t.val t.isLt = k0_pay2 (xb0 V c t) (wb0 V c t) (scAt0 V c (t.val - 1) (Nat.lt_of_le_of_lt (Nat.sub_le _ _) t.isLt)) := by
  obtain ⟨n, hn⟩ := t
  cases n with
  | zero => exact absurd (Nat.zero_mod _) h
  | succ n => exact if_neg h

/-! ## The invariant that carries the scratch -/

/-- The scratch as a memref. -/
abbrev scM0 : Memref sig .tc .vmem S512x512 .f32 := Memref.whole cc0_scratch0

/-- The region invariant before position `n`: before the first point the class's (every scoped buffer that is no
    staging buffer of this region at anything, the generator register at some state); afterwards the scratch at what the
    point before left, the other such scoped buffers at anything, the generator register at some state. -/
def PhiS0 (c : Dev nD) : (n : ℕ) → n ≤ cfg0.N → sProp 𝕄
  | 0, _ => Pipeline.ΦA spec0 c
  | n + 1, hn => iprop(owns (c : Thread nD τ) scM0 fullShare (scAt0 V c n hn)
      ∗ Pipeline.scopedRestBut (Ix := Unit) (Name := ℕ) (U := UR sig nD τ) (Lvl := ℕ) (Val := Elt F) spec0 c [cc0_scratch0]
      ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(owns (c : Thread nD τ) scM0 fullShare (scAt0 V c n hn)
      ∗ Pipeline.scopedRestBut (Ix := Unit) (Name := ℕ) (U := UR sig nD τ) (Lvl := ℕ) (Val := Elt F) spec0 c [cc0_scratch0]
      ∗ (∃ r, prngReg c r)) := rfl

theorem PhiS0_pos (c : Dev nD) (n : ℕ) (h : n ≤ cfg0.N) (hz : n ≠ 0) :
    PhiS0 V c n h = iprop(owns (c : Thread nD τ) scM0 fullShare (scAt0 V c (n - 1) (by omega))
      ∗ Pipeline.scopedRestBut (Ix := Unit) (Name := ℕ) (U := UR sig nD τ) (Lvl := ℕ) (Val := Elt F) spec0 c [cc0_scratch0]
      ∗ (∃ r, prngReg c r)) := by
  cases n with
  | zero => exact absurd rfl hz
  | succ n => rfl

/-! ## The proof data -/

/-- The region's proof data on core `c`: the arrays as found; after the body each input's buffer at its block and each
    output's at its function of the membrane block, the scratch and the trace block (consulted only at the last k-step,
    where the body stores the outputs); the invariant carrying the scratch; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => k0_pay4 (mb0 V c t) (scAt0 V c t.val t.isLt)
    | ⟨5, _⟩ => k0_pay5 (mb0 V c t) (scAt0 V c t.val t.isLt)
    | ⟨6, _⟩ => k0_pay6 (mb0 V c t) (scAt0 V c t.val t.isLt) (pb0 V c t)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = k0_pay4 (mb0 V c t) (scAt0 V c t.val t.isLt) := by dsimp only [dat0]
theorem after0_5 (c : Dev nD) (t : Fin cfg0.N) :
    (dat0 V c).after 5 t = k0_pay5 (mb0 V c t) (scAt0 V c t.val t.isLt) := by dsimp only [dat0]
theorem after0_6 (c : Dev nD) (t : Fin cfg0.N) :
    (dat0 V c).after 6 t = k0_pay6 (mb0 V c t) (scAt0 V c t.val t.isLt) (pb0 V c t) := by dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

end Cert.Kernel.Hand

end
-- ==== Proof.K.Region0.lean ====
/-
  The first kernel region, its body obligation: at every grid point the body, handed the invariant's scratch and the
  windows' current buffers, leaves the scratch and the buffers as the proof data say.

  The body has two branches on the k-coordinate (zero the scratch at k = 0; store the three outputs at k = 3), so a
  point is in one of three cases. For each the body is run once on generic whole buffers, which finds the pieces its
  stores leave; each piece list is one whole-block store (at k = 0, the zeroing under the update), so what it leaves
  reads back as the stored payload. The obligation then follows point by point from the accumulation's two equations.
-/
import proofs.«156583_j59219009077774_1_alg».proof.Proof.K.Region0Defs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's two branch conditions, in closed form over the grid -/

/-- The first branch's condition (the k-coordinate is 0), as the body computes it. -/
abbrev cond0_0 (i : grid0.Coords) : Prop :=
  (Scalar.cmpi .ne (Scalar.extui (Scalar.cmpi .eq (BitVec.ofNat 32 (i 1).val) 0#32)) 0#32) = 1#1
/-- It holds exactly at the first k-step of each j. -/
theorem hcond0_0 : ∀ t : Fin cfg0.N, cond0_0 (grid0.coords t) ↔ t.val % 4 = 0 :=
  (by decide +kernel : ∀ t : Fin grid0.N, cond0_0 (grid0.coords t) ↔ t.val % 4 = 0)

/-- The second branch's condition (the k-coordinate is 3). -/
abbrev cond0_1 (i : grid0.Coords) : Prop := k0_cond2 i = 1#1
/-- It holds exactly at the last k-step of each j. -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl

/-- Off the last k-step the three outputs are idle, -/
theorem idleAt0_4 : ∀ t : Fin cfg0.N, ¬ t.val % 4 = 3 → cfg0.idle 4 (grid0.coords t) = true :=
  (by decide +kernel : ∀ t : Fin grid0.N, ¬ t.val % 4 = 3 → cfg0.idle 4 (grid0.coords t) = true)
theorem idleAt0_5 : ∀ t : Fin cfg0.N, ¬ t.val % 4 = 3 → cfg0.idle 5 (grid0.coords t) = true :=
  (by decide +kernel : ∀ t : Fin grid0.N, ¬ t.val % 4 = 3 → cfg0.idle 5 (grid0.coords t) = true)
theorem idleAt0_6 : ∀ t : Fin cfg0.N, ¬ t.val % 4 = 3 → cfg0.idle 6 (grid0.coords t) = true :=
  (by decide +kernel : ∀ t : Fin grid0.N, ¬ t.val % 4 = 3 → cfg0.idle 6 (grid0.coords t) = true)
/-- and not written back; -/
theorem noFlush0_4 (t : Fin cfg0.N) (h : ¬ t.val % 4 = 3) : (cfg0.win 4).flush t = false :=
  Bool.eq_false_iff.mpr fun hf => h ((flush0_4 t).mp hf)
theorem noFlush0_5 (t : Fin cfg0.N) (h : ¬ t.val % 4 = 3) : (cfg0.win 5).flush t = false :=
  Bool.eq_false_iff.mpr fun hf => h ((flush0_5 t).mp hf)
theorem noFlush0_6 (t : Fin cfg0.N) (h : ¬ t.val % 4 = 3) : (cfg0.win 6).flush t = false :=
  Bool.eq_false_iff.mpr fun hf => h ((flush0_6 t).mp hf)
/-- at the last k-step they are live. -/
theorem liveAt0_4 : ∀ t : Fin cfg0.N, t.val % 4 = 3 → cfg0.idle 4 (grid0.coords t) = false :=
  (by decide +kernel : ∀ t : Fin grid0.N, t.val % 4 = 3 → cfg0.idle 4 (grid0.coords t) = false)
theorem liveAt0_5 : ∀ t : Fin cfg0.N, t.val % 4 = 3 → cfg0.idle 5 (grid0.coords t) = false :=
  (by decide +kernel : ∀ t : Fin grid0.N, t.val % 4 = 3 → cfg0.idle 5 (grid0.coords t) = false)
theorem liveAt0_6 : ∀ t : Fin cfg0.N, t.val % 4 = 3 → cfg0.idle 6 (grid0.coords t) = false :=
  (by decide +kernel : ∀ t : Fin grid0.N, t.val % 4 = 3 → cfg0.idle 6 (grid0.coords t) = false)

/-! ## The class invariant, split at the scratch -/

/-- The class invariant is the scratch at some contents, the other scoped buffers that are no staging buffer of this
    region at anything, and the generator register at some state. -/
theorem PhiA0_split (c : Dev nD) :
    (Pipeline.ΦA spec0 c : sProp 𝕄)
      = iprop((∃ d, owns (c : Thread nD τ) scM0 fullShare d)
          ∗ Pipeline.scopedRestBut (Ix := Unit) (Name := ℕ) (U := UR sig nD τ) (Lvl := ℕ) (Val := Elt F) spec0 c [cc0_scratch0]
          ∗ (∃ r, prngReg c r)) := by
  unfold Pipeline.ΦA
  rw [Pipeline.scopedRest_split_of_list spec0 c [cc0_scratch0] (by decide) (by decide)]
  simp only [bigSepL_singleton, scM0, owns_whole]
  exact BI.equiv_iff.mp ⟨sep_assoc, sep_assoc'⟩

/-! ## What the body finds in the inputs' buffers -/

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)

/-! ## The whole-block rectangles' offsets are zero -/

theorem hz512 : (![0, 0] : Fin S512x512.rank → Nat) = fun _ => 0 := by
  funext a; match a with | ⟨0, _⟩ => rfl | ⟨1, _⟩ => rfl
theorem hz1024 : (![0, 0] : Fin S512x1024.rank → Nat) = fun _ => 0 := by
  funext a; match a with | ⟨0, _⟩ => rfl | ⟨1, _⟩ => rfl

/-! ## The body's run at a first k-step (the first branch taken) -/

set_option maxHeartbeats 1000000 in
/-- At a first k-step the body, handed the two product operands' buffers at `x0`, `x1` and the scratch at anything,
    runs to the continuation with the operands as they were and the scratch with two whole-block pieces written (the
    zeroing, then the update); the pieces are found by running the body. -/
noncomputable def kernelRun0_A (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole)
    (hc0 : cond0_0 i) (hc1 : ¬cond0_1 i) (x0 x1 : Vec F S512x1024 .f32) :
    { LS : List (View.Piece (Elt F) S512x512 .f32) //
      ∀ (E : Set ℕ) (K : PUnit → sProp 𝕄),
        iprop(owns (c : Thread nD τ) arg2 fullShare x0 ∗ owns (c : Thread nD τ) arg3 fullShare x1 ∗ (∃ d, owns (c : Thread nD τ) arg9 fullShare d)
            ∗ (iprop(owns (c : Thread nD τ) arg2 fullShare x0 ∗ owns (c : Thread nD τ) arg3 fullShare x1
                ∗ (∃ f, arg9.view.loc (c : Thread nD τ) ↦[arg9.view.set]{fullShare} arg9.view.writes (Elt F) f LS)) -∗ K ⟨⟩))
          ⊢ wp frame (wpE (defs₀ (F := F)) Variants.none c none) E (cc0__kernel_a i arg2 harg2 arg3 harg3 arg4 harg4 arg5 harg5 arg6 harg6 arg7 harg7 arg8 harg8 arg9 harg9) K } := by
  refine ⟨?_, fun E K => ?run⟩
  case run =>
    simp only [cc0__kernel_a_eq_skeleton]; unfold cc0__kernel_a_skel
    unfold owns
    iintro ⟨⟨%f0, %hf0, H0⟩, ⟨%f1, %hf1, H1⟩, ⟨%ds, %fs, -, HS⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

/-- Its pieces cover the scratch. -/
theorem scover0_A (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole)
    (hc0 : cond0_0 i) (hc1 : ¬cond0_1 i) (x0 x1 : Vec F S512x1024 .f32) (y : S512x512.Idx) :
    ∃ pc ∈ (kernelRun0_A c i arg2 harg2 arg3 harg3 arg4 harg4 arg5 harg5 arg6 harg6 arg7 harg7 arg8 harg8 arg9 harg9 hc0 hc1 x0 x1).1, y ∈ pc.1.set :=
  View.cover_of_tiledL (kernelRun0_A c i arg2 harg2 arg3 harg3 arg4 harg4 arg5 harg5 arg6 harg6 arg7 harg7 arg8 harg8 arg9 harg9 hc0 hc1 x0 x1).1 S512x512.size (by sl_kernel_rfl) y

/-- The later piece covers, and is the point's product added to the zeros the earlier piece left. -/
theorem scanon0_A (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole)
    (hc0 : cond0_0 i) (hc1 : ¬cond0_1 i) (x0 x1 : Vec F S512x1024 .f32) :
    View.canon (kernelRun0_A c i arg2 harg2 arg3 harg3 arg4 harg4 arg5 harg5 arg6 harg6 arg7 harg7 arg8 harg8 arg9 harg9 hc0 hc1 x0 x1).1 = k0_pay2 x0 x1 (k0_pay1 (F := F)) := by
  unfold kernelRun0_A; dsimp only; sl_unfold_words
  rw [View.canon_cons_unit_zero (S := S512x512) hz512, View.readCov_unit_zero (S := S512x512) _ hz512]
  simp only [View.readAt_eq_ld, harg2.read_unread, harg3.read_unread, View.ld_unit_zero (S := S512x1024) hz1024]

/-! ## The body's run at a middle k-step (neither branch taken) -/

set_option maxHeartbeats 1000000 in
/-- At a point where neither branch is taken the body, handed the two product operands' buffers at `x0`, `x1` and the
    scratch at `xs`, runs to the continuation with the operands as they were and the scratch with one whole-block piece
    written; the piece is found by running the body. -/
noncomputable def kernelRun0_B (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole)
    (hc0 : ¬cond0_0 i) (hc1 : ¬cond0_1 i) (x0 x1 : Vec F S512x1024 .f32) (xs : Vec F S512x512 .f32) :
    { LS : List (View.Piece (Elt F) S512x512 .f32) //
      ∀ (E : Set ℕ) (K : PUnit → sProp 𝕄),
        iprop(owns (c : Thread nD τ) arg2 fullShare x0 ∗ owns (c : Thread nD τ) arg3 fullShare x1 ∗ owns (c : Thread nD τ) arg9 fullShare xs
            ∗ (iprop(owns (c : Thread nD τ) arg2 fullShare x0 ∗ owns (c : Thread nD τ) arg3 fullShare x1
                ∗ (∃ f, arg9.view.loc (c : Thread nD τ) ↦[arg9.view.set]{fullShare} arg9.view.writes (Elt F) f LS)) -∗ K ⟨⟩))
          ⊢ wp frame (wpE (defs₀ (F := F)) Variants.none c none) E (cc0__kernel_a i arg2 harg2 arg3 harg3 arg4 harg4 arg5 harg5 arg6 harg6 arg7 harg7 arg8 harg8 arg9 harg9) K } := by
  refine ⟨?_, fun E K => ?run⟩
  case run =>
    simp only [cc0__kernel_a_eq_skeleton]; unfold cc0__kernel_a_skel
    unfold owns
    iintro ⟨⟨%f0, %hf0, H0⟩, ⟨%f1, %hf1, H1⟩, ⟨%fs, %hfs, HS⟩, Hk⟩
    obtain rfl := harg2.eq_unread hf0; obtain rfl := harg3.eq_unread hf1; obtain rfl := harg9.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

/-- Its piece covers the scratch. -/
theorem scover0_B (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole)
    (hc0 : ¬cond0_0 i) (hc1 : ¬cond0_1 i) (x0 x1 : Vec F S512x1024 .f32) (xs : Vec F S512x512 .f32) (y : S512x512.Idx) :
    ∃ pc ∈ (kernelRun0_B c i arg2 harg2 arg3 harg3 arg4 harg4 arg5 harg5 arg6 harg6 arg7 harg7 arg8 harg8 arg9 harg9 hc0 hc1 x0 x1 xs).1, y ∈ pc.1.set :=
  View.cover_of_tiledL (kernelRun0_B c i arg2 harg2 arg3 harg3 arg4 harg4 arg5 harg5 arg6 harg6 arg7 harg7 arg8 harg8 arg9 harg9 hc0 hc1 x0 x1 xs).1 S512x512.size (by sl_kernel_rfl) y

/-- The piece is the point's product added to what the scratch held. -/
theorem scanon0_B (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole)
    (hc0 : ¬cond0_0 i) (hc1 : ¬cond0_1 i) (x0 x1 : Vec F S512x1024 .f32) (xs : Vec F S512x512 .f32) :
    View.canon (kernelRun0_B c i arg2 harg2 arg3 harg3 arg4 harg4 arg5 harg5 arg6 harg6 arg7 harg7 arg8 harg8 arg9 harg9 hc0 hc1 x0 x1 xs).1 = k0_pay2 x0 x1 xs := by
  unfold kernelRun0_B; dsimp only; sl_unfold_words
  rw [View.canon_unit_zero hz512]
  simp only [View.readAt_eq_ld, harg2.read_unread, harg3.read_unread, harg9.read_unread,
    View.ld_unit_zero (S := S512x1024) hz1024, View.ld_unit_zero (S := S512x512) hz512]

/-! ## The body's run at a last k-step (the second branch taken) -/

set_option maxHeartbeats 1000000 in
/-- At a last k-step the body, handed the four inputs' buffers at `x0` … `x3`, the three outputs' at anything and the
    scratch at `xs`, runs to the continuation with the inputs as they were and each output and the scratch with one
    whole-block piece written; the pieces are found by running the body. -/
noncomputable def kernelRun0_C (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole)
    (hc0 : ¬cond0_0 i) (hc1 : cond0_1 i) (x0 x1 : Vec F S512x1024 .f32) (x2 x3 xs : Vec F S512x512 .f32) :
    Σ' (L4 L5 L6 : List (View.Piece (Elt F) S512x512 .f32)), { LS : List (View.Piece (Elt F) S512x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6)
                ∗ (∃ f, arg9.view.loc (c : Thread nD τ) ↦[arg9.view.set]{fullShare} arg9.view.writes (Elt F) f LS)) -∗ K ⟨⟩))
          ⊢ wp frame (wpE (defs₀ (F := F)) Variants.none c none) E (cc0__kernel_a i arg2 harg2 arg3 harg3 arg4 harg4 arg5 harg5 arg6 harg6 arg7 harg7 arg8 harg8 arg9 harg9) K } := by
  refine ⟨?_, ?_, ?_, ?_, fun E K => ?run⟩
  case run =>
    simp only [cc0__kernel_a_eq_skeleton]; unfold cc0__kernel_a_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs, %hfs, HS⟩, Hk⟩
    obtain rfl := harg2.eq_unread hf0; obtain rfl := harg3.eq_unread hf1; obtain rfl := harg4.eq_unread hf2
    obtain rfl := harg5.eq_unread hf3; obtain rfl := harg9.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    iexists _; iexact HS

/-- Each of its piece lists covers its buffer. -/
theorem cover0_C_4 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole)
    (hc0 : ¬cond0_0 i) (hc1 : cond0_1 i) (x0 x1 : Vec F S512x1024 .f32) (x2 x3 xs : Vec F S512x512 .f32) (y : S512x512.Idx) : ∃ pc ∈ (kernelRun0_C c i arg2 harg2 arg3 harg3 arg4 harg4 arg5 harg5 arg6 harg6 arg7 harg7 arg8 harg8 arg9 harg9 hc0 hc1 x0 x1 x2 x3 xs).1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs).1 S512x512.size (by sl_kernel_rfl) y
theorem cover0_C_5 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole)
    (hc0 : ¬cond0_0 i) (hc1 : cond0_1 i) (x0 x1 : Vec F S512x1024 .f32) (x2 x3 xs : Vec F S512x512 .f32) (y : S512x512.Idx) : ∃ pc ∈ (kernelRun0_C c i arg2 harg2 arg3 harg3 arg4 harg4 arg5 harg5 arg6 harg6 arg7 harg7 arg8 harg8 arg9 harg9 hc0 hc1 x0 x1 x2 x3 xs).2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs).2.1 S512x512.size (by sl_kernel_rfl) y
theorem cover0_C_6 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole)
    (hc0 : ¬cond0_0 i) (hc1 : cond0_1 i) (x0 x1 : Vec F S512x1024 .f32) (x2 x3 xs : Vec F S512x512 .f32) (y : S512x512.Idx) : ∃ pc ∈ (kernelRun0_C c i arg2 harg2 arg3 harg3 arg4 harg4 arg5 harg5 arg6 harg6 arg7 harg7 arg8 harg8 arg9 harg9 hc0 hc1 x0 x1 x2 x3 xs).2.2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs).2.2.1 S512x512.size (by sl_kernel_rfl) y
theorem scover0_C (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole)
    (hc0 : ¬cond0_0 i) (hc1 : cond0_1 i) (x0 x1 : Vec F S512x1024 .f32) (x2 x3 xs : Vec F S512x512 .f32) (y : S512x512.Idx) : ∃ pc ∈ (kernelRun0_C c i arg2 harg2 arg3 harg3 arg4 harg4 arg5 harg5 arg6 harg6 arg7 harg7 arg8 harg8 arg9 harg9 hc0 hc1 x0 x1 x2 x3 xs).2.2.2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs).2.2.2.1 S512x512.size (by sl_kernel_rfl) y

/-- The scratch's piece is the point's product added to what the scratch held. -/
theorem scanon0_C (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole)
    (hc0 : ¬cond0_0 i) (hc1 : cond0_1 i) (x0 x1 : Vec F S512x1024 .f32) (x2 x3 xs : Vec F S512x512 .f32) : View.canon (kernelRun0_C c i arg2 harg2 arg3 harg3 arg4 harg4 arg5 harg5 arg6 harg6 arg7 harg7 arg8 harg8 arg9 harg9 hc0 hc1 x0 x1 x2 x3 xs).2.2.2.1 = k0_pay2 x0 x1 xs := by
  unfold kernelRun0_C; dsimp only; sl_unfold_words
  rw [View.canon_unit_zero hz512]
  simp only [View.readAt_eq_ld, harg2.read_unread, harg3.read_unread, harg9.read_unread,
    View.ld_unit_zero (S := S512x1024) hz1024, View.ld_unit_zero (S := S512x512) hz512]

/-- Each output's piece is its function of the membrane block, the scratch read back after its store, and the trace
    block. -/
theorem canon0_C_4 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole)
    (hc0 : ¬cond0_0 i) (hc1 : cond0_1 i) (x0 x1 : Vec F S512x1024 .f32) (x2 x3 xs : Vec F S512x512 .f32) : View.canon (kernelRun0_C c i arg2 harg2 arg3 harg3 arg4 harg4 arg5 harg5 arg6 harg6 arg7 harg7 arg8 harg8 arg9 harg9 hc0 hc1 x0 x1 x2 x3 xs).1 = k0_pay4 x2 (k0_pay2 x0 x1 xs) := by
  unfold kernelRun0_C; dsimp only; sl_unfold_words
  rw [View.canon_unit_zero hz512]
  simp only [View.readAt_eq_ld, harg2.read_unread, harg3.read_unread, harg4.read_unread, harg5.read_unread, harg9.read_unread,
    View.readCov_unit_zero (S := S512x512) _ hz512,
    View.ld_unit_zero (S := S512x1024) hz1024, View.ld_unit_zero (S := S512x512) hz512]
theorem canon0_C_5 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole)
    (hc0 : ¬cond0_0 i) (hc1 : cond0_1 i) (x0 x1 : Vec F S512x1024 .f32) (x2 x3 xs : Vec F S512x512 .f32) : View.canon (kernelRun0_C c i arg2 harg2 arg3 harg3 arg4 harg4 arg5 harg5 arg6 harg6 arg7 harg7 arg8 harg8 arg9 harg9 hc0 hc1 x0 x1 x2 x3 xs).2.1 = k0_pay5 x2 (k0_pay2 x0 x1 xs) := by
  unfold kernelRun0_C; dsimp only; sl_unfold_words
  rw [View.canon_unit_zero hz512]
  simp only [View.readAt_eq_ld, harg2.read_unread, harg3.read_unread, harg4.read_unread, harg5.read_unread, harg9.read_unread,
    View.readCov_unit_zero (S := S512x512) _ hz512,
    View.ld_unit_zero (S := S512x1024) hz1024, View.ld_unit_zero (S := S512x512) hz512]
theorem canon0_C_6 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole)
    (hc0 : ¬cond0_0 i) (hc1 : cond0_1 i) (x0 x1 : Vec F S512x1024 .f32) (x2 x3 xs : Vec F S512x512 .f32) : View.canon (kernelRun0_C c i arg2 harg2 arg3 harg3 arg4 harg4 arg5 harg5 arg6 harg6 arg7 harg7 arg8 harg8 arg9 harg9 hc0 hc1 x0 x1 x2 x3 xs).2.2.1 = k0_pay6 x2 (k0_pay2 x0 x1 xs) x3 := by
  unfold kernelRun0_C; dsimp only; sl_unfold_words
  rw [View.canon_unit_zero hz512]
  simp only [View.readAt_eq_ld, harg2.read_unread, harg3.read_unread, harg4.read_unread, harg5.read_unread, harg9.read_unread,
    View.readCov_unit_zero (S := S512x512) _ hz512,
    View.ld_unit_zero (S := S512x1024) hz1024, View.ld_unit_zero (S := S512x512) hz512]

/-! ## The three runs over the payloads -/

/-- A first k-step: the scratch is left at the point's product added to zero. -/
theorem run0_A (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole)
    (hc0 : cond0_0 i) (hc1 : ¬cond0_1 i) (x0 x1 : Vec F S512x1024 .f32) (E : Set ℕ) (K : PUnit → sProp 𝕄) :
    iprop(owns (c : Thread nD τ) arg2 fullShare x0 ∗ owns (c : Thread nD τ) arg3 fullShare x1 ∗ (∃ d, owns (c : Thread nD τ) arg9 fullShare d)
        ∗ (iprop(owns (c : Thread nD τ) arg2 fullShare x0 ∗ owns (c : Thread nD τ) arg3 fullShare x1
            ∗ owns (c : Thread nD τ) arg9 fullShare (k0_pay2 x0 x1 (k0_pay1 (F := F)))) -∗ K ⟨⟩))
      ⊢ wp frame (wpE (defs₀ (F := F)) Variants.none c none) E (cc0__kernel_a i arg2 harg2 arg3 harg3 arg4 harg4 arg5 harg5 arg6 harg6 arg7 harg7 arg8 harg8 arg9 harg9) K := by
  iintro ⟨H0, H1, HS, Hk⟩
  iapply ((kernelRun0_A c i arg2 harg2 arg3 harg3 arg4 harg4 arg5 harg5 arg6 harg6 arg7 harg7 arg8 harg8 arg9 harg9 hc0 hc1 x0 x1).2 E K)
  isplitl [H0]; · iexact H0
  isplitl [H1]; · iexact H1
  isplitl [HS]; · iexact HS
  iintro ⟨H0, H1, ⟨%es, HS⟩⟩
  iapply Hk
  isplitl [H0]; · iexact H0
  isplitl [H1]; · iexact H1
  unfold owns; iexists _; isplitr
  swap; · iexact HS
  ipureintro
  exact (View.read_writes_eq_canon _ _ _ (scover0_A c i arg2 harg2 arg3 harg3 arg4 harg4 arg5 harg5 arg6 harg6 arg7 harg7 arg8 harg8 arg9 harg9 hc0 hc1 x0 x1)).trans
    (scanon0_A c i arg2 harg2 arg3 harg3 arg4 harg4 arg5 harg5 arg6 harg6 arg7 harg7 arg8 harg8 arg9 harg9 hc0 hc1 x0 x1)

/-- A middle k-step: the scratch is left at the point's product added to what it held. -/
theorem run0_B (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole)
    (hc0 : ¬cond0_0 i) (hc1 : ¬cond0_1 i) (x0 x1 : Vec F S512x1024 .f32) (xs : Vec F S512x512 .f32) (E : Set ℕ) (K : PUnit → sProp 𝕄) :
    iprop(owns (c : Thread nD τ) arg2 fullShare x0 ∗ owns (c : Thread nD τ) arg3 fullShare x1 ∗ owns (c : Thread nD τ) arg9 fullShare xs
        ∗ (iprop(owns (c : Thread nD τ) arg2 fullShare x0 ∗ owns (c : Thread nD τ) arg3 fullShare x1
            ∗ owns (c : Thread nD τ) arg9 fullShare (k0_pay2 x0 x1 xs)) -∗ K ⟨⟩))
      ⊢ wp frame (wpE (defs₀ (F := F)) Variants.none c none) E (cc0__kernel_a i arg2 harg2 arg3 harg3 arg4 harg4 arg5 harg5 arg6 harg6 arg7 harg7 arg8 harg8 arg9 harg9) K := by
  iintro ⟨H0, H1, HS, Hk⟩
  iapply ((kernelRun0_B c i arg2 harg2 arg3 harg3 arg4 harg4 arg5 harg5 arg6 harg6 arg7 harg7 arg8 harg8 arg9 harg9 hc0 hc1 x0 x1 xs).2 E K)
  isplitl [H0]; · iexact H0
  isplitl [H1]; · iexact H1
  isplitl [HS]; · iexact HS
  iintro ⟨H0, H1, ⟨%es, HS⟩⟩
  iapply Hk
  isplitl [H0]; · iexact H0
  isplitl [H1]; · iexact H1
  unfold owns; iexists _; isplitr
  swap; · iexact HS
  ipureintro
  exact (View.read_writes_eq_canon _ _ _ (scover0_B c i arg2 harg2 arg3 harg3 arg4 harg4 arg5 harg5 arg6 harg6 arg7 harg7 arg8 harg8 arg9 harg9 hc0 hc1 x0 x1 xs)).trans
    (scanon0_B c i arg2 harg2 arg3 harg3 arg4 harg4 arg5 harg5 arg6 harg6 arg7 harg7 arg8 harg8 arg9 harg9 hc0 hc1 x0 x1 xs)

/-- A last k-step: the scratch as at a middle one, and the three outputs at their functions of the membrane block, the
    scratch as just left and the trace block. -/
theorem run0_C (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole)
    (hc0 : ¬cond0_0 i) (hc1 : cond0_1 i) (x0 x1 : Vec F S512x1024 .f32) (x2 x3 xs : Vec F S512x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k0_pay4 x2 (k0_pay2 x0 x1 xs))
            ∗ owns (c : Thread nD τ) arg7 fullShare (k0_pay5 x2 (k0_pay2 x0 x1 xs))
            ∗ owns (c : Thread nD τ) arg8 fullShare (k0_pay6 x2 (k0_pay2 x0 x1 xs) x3)
            ∗ owns (c : Thread nD τ) arg9 fullShare (k0_pay2 x0 x1 xs)) -∗ K ⟨⟩))
      ⊢ wp frame (wpE (defs₀ (F := F)) Variants.none c none) E (cc0__kernel_a i arg2 harg2 arg3 harg3 arg4 harg4 arg5 harg5 arg6 harg6 arg7 harg7 arg8 harg8 arg9 harg9) K := by
  iintro ⟨H0, H1, H2, H3, H4, H5, H6, HS, Hk⟩
  iapply ((kernelRun0_C c i arg2 harg2 arg3 harg3 arg4 harg4 arg5 harg5 arg6 harg6 arg7 harg7 arg8 harg8 arg9 harg9 hc0 hc1 x0 x1 x2 x3 xs).2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS]; · iexact HS
  iintro ⟨H0, H1, H2, H3, ⟨%e4, H4⟩, ⟨%e5, H5⟩, ⟨%e6, H6⟩, ⟨%es, HS⟩⟩
  iapply Hk
  isplitl [H0]; · iexact H0
  isplitl [H1]; · iexact H1
  isplitl [H2]; · iexact H2
  isplitl [H3]; · iexact H3
  isplitl [H4]
  · unfold owns; iexists _; isplitr
    swap; · iexact H4
    ipureintro
    exact (View.read_writes_eq_canon _ _ _ (cover0_C_4 c i arg2 harg2 arg3 harg3 arg4 harg4 arg5 harg5 arg6 harg6 arg7 harg7 arg8 harg8 arg9 harg9 hc0 hc1 x0 x1 x2 x3 xs)).trans
      (canon0_C_4 c i arg2 harg2 arg3 harg3 arg4 harg4 arg5 harg5 arg6 harg6 arg7 harg7 arg8 harg8 arg9 harg9 hc0 hc1 x0 x1 x2 x3 xs)
  isplitl [H5]
  · unfold owns; iexists _; isplitr
    swap; · iexact H5
    ipureintro
    exact (View.read_writes_eq_canon _ _ _ (cover0_C_5 c i arg2 harg2 arg3 harg3 arg4 harg4 arg5 harg5 arg6 harg6 arg7 harg7 arg8 harg8 arg9 harg9 hc0 hc1 x0 x1 x2 x3 xs)).trans
      (canon0_C_5 c i arg2 harg2 arg3 harg3 arg4 harg4 arg5 harg5 arg6 harg6 arg7 harg7 arg8 harg8 arg9 harg9 hc0 hc1 x0 x1 x2 x3 xs)
  isplitl [H6]
  · unfold owns; iexists _; isplitr
    swap; · iexact H6
    ipureintro
    exact (View.read_writes_eq_canon _ _ _ (cover0_C_6 c i arg2 harg2 arg3 harg3 arg4 harg4 arg5 harg5 arg6 harg6 arg7 harg7 arg8 harg8 arg9 harg9 hc0 hc1 x0 x1 x2 x3 xs)).trans
      (canon0_C_6 c i arg2 harg2 arg3 harg3 arg4 harg4 arg5 harg5 arg6 harg6 arg7 harg7 arg8 harg8 arg9 harg9 hc0 hc1 x0 x1 x2 x3 xs)
  unfold owns; iexists _; isplitr
  swap; · iexact HS
  ipureintro
  exact (View.read_writes_eq_canon _ _ _ (scover0_C c i arg2 harg2 arg3 harg3 arg4 harg4 arg5 harg5 arg6 harg6 arg7 harg7 arg8 harg8 arg9 harg9 hc0 hc1 x0 x1 x2 x3 xs)).trans
    (scanon0_C c i arg2 harg2 arg3 harg3 arg4 harg4 arg5 harg5 arg6 harg6 arg7 harg7 arg8 harg8 arg9 harg9 hc0 hc1 x0 x1 x2 x3 xs)

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 4800000 in
/-- The body at any point. The inputs' buffers hold their blocks. By the point's k-step: at a last one the invariant
    hands the scratch at what the point before left, the run stores the scratch and the three outputs, and the contents
    are the proof data's by the accumulation's equation; at a first one the scratch is at anything (the class's at the
    very first point, the previous j's total afterwards), the run zeroes and updates it, and the outputs, idle and not
    written back, go back as found; at a middle one the same without the zeroing. The other scoped buffers, the
    generator register and what the core owes pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (st0_0 t) fullShare ((dat0 V c).after 0 t) from by
      unfold Dat.leavesExact; rw [liveAt0_0 t], after0_0]
  rw [show (dat0 V c).leavesExact 1 t = owns (c : Thread nD τ) (st0_1 t) fullShare ((dat0 V c).after 1 t) from by
      unfold Dat.leavesExact; rw [liveAt0_1 t], after0_1]
  rw [show (dat0 V c).leavesExact 2 t = owns (c : Thread nD τ) (st0_2 t) fullShare ((dat0 V c).after 2 t) from by
      unfold Dat.leavesExact; rw [liveAt0_2 t], after0_2]
  rw [show (dat0 V c).leavesExact 3 t = owns (c : Thread nD τ) (st0_3 t) fullShare ((dat0 V c).after 3 t) from by
      unfold Dat.leavesExact; rw [liveAt0_3 t], after0_3]
  have hN : t.val < 32 := lt_of_lt_of_eq t.isLt (show cfg0.N = 32 from N_0)
  by_cases h3 : t.val % 4 = 3
  · have h0 : ¬ t.val % 4 = 0 := by omega
    have hz : t.val ≠ 0 := by omega
    rw [show (dat0 V c).leavesExact 4 t = owns (c : Thread nD τ) (st0_4 t) fullShare ((dat0 V c).after 4 t) from by
      unfold Dat.leavesExact; rw [liveAt0_4 t h3], after0_4]
    rw [show (dat0 V c).leavesExact 5 t = owns (c : Thread nD τ) (st0_5 t) fullShare ((dat0 V c).after 5 t) from by
      unfold Dat.leavesExact; rw [liveAt0_5 t h3], after0_5]
    rw [show (dat0 V c).leavesExact 6 t = owns (c : Thread nD τ) (st0_6 t) fullShare ((dat0 V c).after 6 t) from by
      unfold Dat.leavesExact; rw [liveAt0_6 t h3], after0_6]
    rw [scAt0_acc V c t h0]
    rw [PhiS0_castSucc V c t, PhiS0_pos V c _ _ hz]
    iintro ⟨⟨HS, Hr, Hg⟩, Ho, ⟨%d0, H0⟩, ⟨%d1, H1⟩, ⟨%d2, H2⟩, ⟨%d3, H3⟩, ⟨%d4, H4⟩, ⟨%d5, H5⟩, ⟨%d6, H6⟩⟩
    iapply (run0_C c (grid0.coords t) _ _ _ _ _ _ _ _ _ _ _ _ _ _ _ _ (fun h => h0 ((hcond0_0 t).mp h)) ((hcond0_1 t).mpr h3)
      (xb0 V c t) (wb0 V c t) (mb0 V c t) (pb0 V c t) (scAt0 V c (t.val - 1) _) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS]; · iexact HS
    iintro ⟨H0, H1, H2, H3, H4, H5, H6, HS⟩
    isplitl [HS Hr Hg]
    · isplitl [HS]; · iexact HS
      isplitl [Hr]; · iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [Dat.leavesExact_idle (dat0 V c) 4 t (idleAt0_4 t h3) (noFlush0_4 t h3),
      Dat.leavesExact_idle (dat0 V c) 5 t (idleAt0_5 t h3) (noFlush0_5 t h3),
      Dat.leavesExact_idle (dat0 V c) 6 t (idleAt0_6 t h3) (noFlush0_6 t h3)]
    by_cases h0 : t.val % 4 = 0
    · rw [scAt0_reset V c t h0]
      by_cases hz : t.val = 0
      · rw [PhiS0_castSucc V c t, PhiS0_zero V c _ _ hz, PhiA0_split]
        iintro ⟨⟨HS, Hr, Hg⟩, Ho, ⟨%d0, H0⟩, ⟨%d1, H1⟩, ⟨%d2, H2⟩, ⟨%d3, H3⟩, ⟨%d4, H4⟩, ⟨%d5, H5⟩, ⟨%d6, H6⟩⟩
        iapply (run0_A c (grid0.coords t) _ _ _ _ _ _ _ _ _ _ _ _ _ _ _ _ ((hcond0_0 t).mpr h0) (fun h => h3 ((hcond0_1 t).mp h))
          (xb0 V c t) (wb0 V c t) Set.univ _)
        isplitl [H0]; · iexact H0
        isplitl [H1]; · iexact H1
        isplitl [HS]; · iexact HS
        iintro ⟨H0, H1, HS⟩
        isplitl [HS Hr Hg]
        · isplitl [HS]; · iexact HS
          isplitl [Hr]; · iexact Hr
          iexact Hg
        isplitl [Ho]; · iexact Ho
        isplitl [H0]; · iexact H0
        isplitl [H1]; · iexact H1
        isplitl [H2]; · iexact H2
        isplitl [H3]; · iexact H3
        isplitl [H4]; · iexists _; iexact H4
        isplitl [H5]; · iexists _; iexact H5
        iexists _; iexact H6
      · rw [PhiS0_castSucc V c t, PhiS0_pos V c _ _ hz]
        iintro ⟨⟨HS, Hr, Hg⟩, Ho, ⟨%d0, H0⟩, ⟨%d1, H1⟩, ⟨%d2, H2⟩, ⟨%d3, H3⟩, ⟨%d4, H4⟩, ⟨%d5, H5⟩, ⟨%d6, H6⟩⟩
        iapply (run0_A c (grid0.coords t) _ _ _ _ _ _ _ _ _ _ _ _ _ _ _ _ ((hcond0_0 t).mpr h0) (fun h => h3 ((hcond0_1 t).mp h))
          (xb0 V c t) (wb0 V c t) Set.univ _)
        isplitl [H0]; · iexact H0
        isplitl [H1]; · iexact H1
        isplitl [HS]; · iexists _; iexact HS
        iintro ⟨H0, H1, HS⟩
        isplitl [HS Hr Hg]
        · isplitl [HS]; · iexact HS
          isplitl [Hr]; · iexact Hr
          iexact Hg
        isplitl [Ho]; · iexact Ho
        isplitl [H0]; · iexact H0
        isplitl [H1]; · iexact H1
        isplitl [H2]; · iexact H2
        isplitl [H3]; · iexact H3
        isplitl [H4]; · iexists _; iexact H4
        isplitl [H5]; · iexists _; iexact H5
        iexists _; iexact H6
    · have hz : t.val ≠ 0 := by omega
      rw [scAt0_acc V c t h0]
      rw [PhiS0_castSucc V c t, PhiS0_pos V c _ _ hz]
      iintro ⟨⟨HS, Hr, Hg⟩, Ho, ⟨%d0, H0⟩, ⟨%d1, H1⟩, ⟨%d2, H2⟩, ⟨%d3, H3⟩, ⟨%d4, H4⟩, ⟨%d5, H5⟩, ⟨%d6, H6⟩⟩
      iapply (run0_B c (grid0.coords t) _ _ _ _ _ _ _ _ _ _ _ _ _ _ _ _ (fun h => h0 ((hcond0_0 t).mp h)) (fun h => h3 ((hcond0_1 t).mp h))
        (xb0 V c t) (wb0 V c t) (scAt0 V c (t.val - 1) _) Set.univ _)
      isplitl [H0]; · iexact H0
      isplitl [H1]; · iexact H1
      isplitl [HS]; · iexact HS
      iintro ⟨H0, H1, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexists _; iexact H4
      isplitl [H5]; · iexists _; iexact H5
      iexists _; iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]

/-- After the last point the invariant gives the class's back: the scratch's contents are forgotten. -/
theorem hout0 (c : Dev nD) : (dat0 V c).Φ (Fin.last cfg0.N) ⊢ Pipeline.ΦA spec0 c := by
  have hN : cfg0.N = 32 := N_0
  rw [show (dat0 V c).Φ (Fin.last cfg0.N) = PhiS0 V c (Fin.last cfg0.N).val (Nat.le_of_lt_succ (Fin.last cfg0.N).isLt) from rfl,
    PhiS0_pos V c _ _ (by rw [Fin.val_last]; omega), PhiA0_split]
  iintro ⟨HS, Hr, Hg⟩
  isplitl [HS]
  · iexists _; iexact HS
  isplitl [Hr]
  · iexact Hr
  iexact Hg

end Cert.Kernel.Hand

end
-- ==== Proof.K.Region1.lean ====
/-
  The second kernel region (the pre-synaptic trace): a grid of 4 points along the input axis; at point t the body
  reads the t-th [512, 1024] column block of trace_pre and of in_spikes and stores tpre · δ + x over the whole of the
  output's block. Nothing is carried between points. Stated at a parameter V, the core's buffer contents when the
  region is entered.
-/
import proofs.«156583_j59219009077774_1_alg».proof.Proof.Gen.Kernel.Launch
import proofs.«156583_j59219009077774_1_alg».proof.Proof.Gen.Kernel.Skeleton
import proofs.«156583_j59219009077774_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input's current staging buffer holds its block at every point, for any proof data over `V` whose body leaves
    the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What the body leaves in the output's buffer -/

/-- The whole block, as a rectangle. -/
abbrev rc1 : Rect S512x1024 := Rect.unit (s := S512x1024) ![0, 0] S512x1024.size inb_S512x1024_S512x1024_0_0

/-- The output's buffer after the body: its one store, of the trace update of the two input blocks. -/
def out1_2 (x0 x1 : Vec F S512x1024 .f32) : Vec F S512x1024 .f32 :=
  View.canon [⟨rc1, k1_pay1 (View.ld x0 rc1) (View.ld x1 rc1)⟩]

theorem cover1_2 (p0 : Vec F S512x1024 .f32) (y : S512x1024.Idx) :
    ∃ pc ∈ ([⟨rc1, p0⟩] : List (View.Piece (Elt F) S512x1024 .f32)), y ∈ pc.1.set :=
  View.cover_of_tiled [⟨rc1, p0⟩] S512x1024.size (by rfl) y

/-- The store covers the block from its origin, so the buffer holds the stored value itself. -/
theorem out1_2_eq (x0 x1 : Vec F S512x1024 .f32) : out1_2 x0 x1 = k1_pay1 x0 x1 := by
  have hz : (![0, 0] : Fin S512x1024.rank → Nat) = fun _ => 0 := by funext a; match a with | ⟨0, _⟩ => rfl | ⟨1, _⟩ => rfl
  unfold out1_2
  rw [View.canon_unit_zero hz]
  simp only [View.ld_unit_zero (S := S512x1024) hz]

/-! ## The body's triple -/

set_option maxHeartbeats 1000000 in
/-- The body on whole staging memrefs, the inputs at `x0`, `x1` and the output at anything, runs to the continuation
    with the inputs as they were and the output at `out1_2 x0 x1`. -/
theorem sound_kernel1 (c : Dev nD) (E : Set ℕ) (i : grid1.Coords) (arg1 : Memref sig .tc .vmem S512x1024 .f32) (harg1 : arg1.IsWhole)
    (arg2 : Memref sig .tc .vmem S512x1024 .f32) (harg2 : arg2.IsWhole) (arg3 : Memref sig .tc .vmem S512x1024 .f32) (harg3 : arg3.IsWhole)
    (x0 x1 : Vec F S512x1024 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__kernel_tp i arg1 harg1 arg2 harg2 arg3 harg3) K := by
  simp only [cc1__kernel_tp_eq_skeleton]; unfold cc1__kernel_tp_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The proof data -/

/-- The region's proof data on core `c`: the arrays as found; after the body each input's buffer at its block and the
    output's at the trace update of the two blocks; the class invariant (nothing carried); nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Region2.lean ====
/-
  The third kernel region (the weight update): a 4 × 4 grid over [1024, 1024] blocks of the weight matrix; at point
  (j, i) the body reads column block j of the post-synaptic trace, column block i of the pre-synaptic trace (each
  [512, 1024]) and block (j, i) of the weights, contracts the two traces over the batch axis, scales by the zero
  learning-rate difference, adds the weights and clamps, storing over the whole of the output's block. Nothing is
  carried between points. Stated at a parameter V, the core's buffer contents when the region is entered.
-/
import proofs.«156583_j59219009077774_1_alg».proof.Proof.Gen.Kernel.Launch
import proofs.«156583_j59219009077774_1_alg».proof.Proof.Gen.Kernel.Skeleton
import proofs.«156583_j59219009077774_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input's current staging buffer holds its block at every point, fetched there or not, for any proof data over
    `V` whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## What the body leaves in the output's buffer -/

/-- The whole blocks, as rectangles. -/
abbrev rc2t : Rect S512x1024 := Rect.unit (s := S512x1024) ![0, 0] S512x1024.size inb_S512x1024_S512x1024_0_0
abbrev rc2w : Rect S1024x1024 := Rect.unit (s := S1024x1024) ![0, 0] S1024x1024.size inb_S1024x1024_S1024x1024_0_0

/-- The output's buffer after the body: its one store, of the clamped update of the three input blocks. -/
def out2_3 (x0 x1 : Vec F S512x1024 .f32) (x2 : Vec F S1024x1024 .f32) : Vec F S1024x1024 .f32 :=
  View.canon [⟨rc2w, k2_pay1 (View.ld x0 rc2t) (View.ld x1 rc2t) (View.ld x2 rc2w)⟩]

theorem cover2_3 (p0 : Vec F S1024x1024 .f32) (y : S1024x1024.Idx) :
    ∃ pc ∈ ([⟨rc2w, p0⟩] : List (View.Piece (Elt F) S1024x1024 .f32)), y ∈ pc.1.set :=
  View.cover_of_tiled [⟨rc2w, p0⟩] S1024x1024.size (by rfl) y

/-- The store covers the block from its origin, so the buffer holds the stored value itself. -/
theorem out2_3_eq (x0 x1 : Vec F S512x1024 .f32) (x2 : Vec F S1024x1024 .f32) : out2_3 x0 x1 x2 = k2_pay1 x0 x1 x2 := by
  have hzt : (![0, 0] : Fin S512x1024.rank → Nat) = fun _ => 0 := by funext a; match a with | ⟨0, _⟩ => rfl | ⟨1, _⟩ => rfl
  have hzw : (![0, 0] : Fin S1024x1024.rank → Nat) = fun _ => 0 := by funext a; match a with | ⟨0, _⟩ => rfl | ⟨1, _⟩ => rfl
  unfold out2_3
  rw [View.canon_unit_zero hzw]
  simp only [View.ld_unit_zero (S := S512x1024) hzt, View.ld_unit_zero (S := S1024x1024) hzw]

/-! ## The body's triple -/

set_option maxHeartbeats 1000000 in
/-- The body on whole staging memrefs, the inputs at `x0`, `x1`, `x2` and the output at anything, runs to the
    continuation with the inputs as they were and the output at `out2_3 x0 x1 x2`. -/
theorem sound_kernel2 (c : Dev nD) (E : Set ℕ) (i : grid2.Coords) (arg2 : Memref sig .tc .vmem S512x1024 .f32) (harg2 : arg2.IsWhole)
    (arg3 : Memref sig .tc .vmem S512x1024 .f32) (harg3 : arg3.IsWhole) (arg4 : Memref sig .tc .vmem S1024x1024 .f32) (harg4 : arg4.IsWhole)
    (arg5 : Memref sig .tc .vmem S1024x1024 .f32) (harg5 : arg5.IsWhole)
    (x0 x1 : Vec F S512x1024 .f32) (x2 : Vec F S1024x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out2_3 x0 x1 x2)) -∗ K ⟨⟩))
      ⊢ wp frame (wpE (defs₀ (F := F)) Variants.none c none) E (cc2__kernel_b i arg2 harg2 arg3 harg3 arg4 harg4 arg5 harg5) K := by
  simp only [cc2__kernel_b_eq_skeleton]; unfold cc2__kernel_b_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The proof data -/

/-- The region's proof data on core `c`: the arrays as found; after the body each input's buffer at its block and the
    output's at the clamped update of the three blocks; the class invariant (nothing carried); nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Run.lean ====
/-
  The run of @main: three kernel regions in a row, no host operation between them. The core's unscoped buffers are
  followed from the launch memory through the regions: each region changes only its output windows' arrays, to what
  its write-backs leave. At the end every unscoped buffer is named; the arguments are read back as launched and each
  result as the array its region's pipeline leaves.
-/
import proofs.«156583_j59219009077774_1_alg».proof.Proof.K.Region0
import proofs.«156583_j59219009077774_1_alg».proof.Proof.K.Region1
import proofs.«156583_j59219009077774_1_alg».proof.Proof.K.Region2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the region boundaries -/

/-- Core `c`'s buffers at launch. -/
abbrev W0 : Dev nD → Valuation τ sig (Elt F) := fun c b => (s₀ m ρ).mem ((c : Dev nD), b)
/-- The same read at the TensorCore's references (what region 0's proof data take). -/
abbrev V0 : (c : Dev nD) → (b : Ref sig .tc) → Buf (Elt F) ((c : Thread nD τ).loc b) := fun c b => W0 m ρ c b

/-- After region 0: its windows' arrays at what the pipeline's write-backs leave, every other buffer as the region found it. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references. -/
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After region 1: its windows' arrays at what the pipeline's write-backs leave, every other buffer as the region found it. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
/-- The same read at the TensorCore's references. -/
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- After region 2: its windows' arrays at what the pipeline's write-backs leave, every other buffer as the region found it. -/
def W3 (c : Dev nD) : Valuation τ sig (Elt F) :=
  Pipeline.withArrays spec2 c (W2 m ρ c) fun w => (dat2 (V2 m ρ) c).arrAt w cfg2.N
theorem W3_arr (c : Dev nD) (w : Fin cfg2.W) :
    W3 m ρ c (Proc.devRef .tc (Pipeline.arrRef spec2 w)) = (dat2 (V2 m ρ) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m ρ c (Proc.devRef .tc b) = W2 m ρ c (Proc.devRef .tc b) := by
  unfold W3; exact Pipeline.withArrays_of_ne spec2 c _ _ b hb
/-- The same read at the TensorCore's references. -/
abbrev V3 : (c : Dev nD) → (b : Ref sig .tc) → Buf (Elt F) ((c : Thread nD τ).loc b) := fun c b => W3 m ρ c b
theorem hF2 (c : Dev nD) (w : Fin cfg2.W) : (dat2 (V2 m ρ) c).arrAt w cfg2.N = V3 m ρ c (Pipeline.arrRef spec2 w) :=
  (W3_arr m ρ c w).symm
theorem hrest2 (c : Dev nD) : ∀ b, b ∉ Finset.univ.image (Pipeline.arrRef spec2) → V3 m ρ c b = V2 m ρ c b :=
  fun b hb => W3_of_ne m ρ c b fun w e => hb (Finset.mem_image.mpr ⟨w, Finset.mem_univ _, e⟩)

/-! ## The proof-data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
  | ⟨2, _⟩ => fun c => dat2 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every region: the generator register at some state and the core's `owes`, at nothing. -/
abbrev R (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W3 m ρ c) ∗ ∃ r, prngReg c r)

/-! ## The regions as segments -/

-- a library lemma stated over the pinned configuration unifies with the printed one only when unification may unfold
-- plain definitions in a metavariable's type
set_option backward.isDefEq.respectTransparency.types false in
/-- Region 0 as a segment of @main: entered with every unscoped buffer at `W0`, left with them at `W1`. Its
    windows' arrays are split out of the unscoped buffers at entry and put back, at what the write-backs left, at exit;
    the generator register goes into the region's invariant and comes back; nothing is owed and the kernel has no
    semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ (Pipeline.ΦA spec0 c : sProp 𝕄)).trans (hin0 (V0 m ρ) c)
    unfold Pipeline.ΦA
    iintro ⟨Hp, -, Hr⟩
    isplitl [Hr]; · iexact Hr
    iexact Hp
  hout c := by
    rw [Pipeline.ownSems0_none]
    refine (hout0 (V0 m ρ) c).trans (?_ : (Pipeline.ΦA spec0 c : sProp 𝕄) ⊢ _)
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 as a segment of @main: entered with every unscoped buffer at `W1`, left with them at `W2`. Its
    windows' arrays are split out of the unscoped buffers at entry and put back, at what the write-backs left, at exit;
    the generator register goes into the region's invariant and comes back; nothing is owed and the kernel has no
    semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 2 as a segment of @main: entered with every unscoped buffer at `W2`, left with them at `W3`. Its
    windows' arrays are split out of the unscoped buffers at entry and put back, at what the write-backs left, at exit;
    the generator register goes into the region's invariant and comes back; nothing is owed and the kernel has no
    semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V2 m ρ) c).loose
  hwaits := Pipeline.hwaits_of_owed_zero _ _ _ _ L lv 2 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V2 m ρ c) (V3 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ), .region (reg1 m ρ), .region (reg2 m ρ) ]

theorem main_run (c : Dev nD) : main (F := F) c = Pipeline.Seg.run (segs m ρ) := (main_chain c).trans (by chain_rfl)

set_option backward.isDefEq.respectTransparency.types false in
/-- THE RUN: from any memory with zero counters every weakly fair execution of @main on the TensorCores terminates,
    nothing faulting, and at the end every unscoped buffer of every core holds what the last boundary names. -/
theorem run : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-! ## What the last boundary holds -/

end Cert.Kernel.Hand

end
-- ==== Proof.K.Final.lean ====
/-
  What the last boundary of the run holds: each argument array as launched (no region writes one: a region reads an
  argument through an input window or does not touch it), each result the array its region's pipeline leaves, and the
  contents the second and third regions find in the arrays they read.
-/
import proofs.«156583_j59219009077774_1_alg».proof.Proof.K.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arguments end as launched -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 1).trans (((dat1 (V1 m ρ) c).arrAt_in 1 rfl _).trans (A_eq1 (V1 m ρ) c 1))
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := (W3_arr m ρ c 2).trans (((dat2 (V2 m ρ) c).arrAt_in 2 rfl _).trans (A_eq2 (V2 m ρ) c 2))
    _ = W1 m ρ c (Proc.devRef .tc main_arg1) := W2_of_ne m ρ c main_arg1 (by decide)
    _ = W0 m ρ c (Proc.devRef .tc main_arg1) := (W1_arr m ρ c 1).trans (((dat0 (V0 m ρ) c).arrAt_in 1 rfl _).trans (A_eq0 (V0 m ρ) c 1))
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := (W1_arr m ρ c 2).trans (((dat0 (V0 m ρ) c).arrAt_in 2 rfl _).trans (A_eq0 (V0 m ρ) c 2))
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := (W2_arr m ρ c 0).trans (((dat1 (V1 m ρ) c).arrAt_in 0 rfl _).trans (A_eq1 (V1 m ρ) c 0))
    _ = W0 m ρ c (Proc.devRef .tc main_arg3) := W1_of_ne m ρ c main_arg3 (by decide)
    _ = m ((c : Thread nD τ).loc main_arg3) := rfl

theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := (W1_arr m ρ c 3).trans (((dat0 (V0 m ρ) c).arrAt_in 3 rfl _).trans (A_eq0 (V0 m ρ) c 3))
    _ = m ((c : Thread nD τ).loc main_arg4) := rfl

/-! ## What the later regions find -/

theorem V1_main_arg3 (c : Dev nD) : V1 m ρ c main_arg3 = m ((c : Thread nD τ).loc main_arg3) :=
  (W1_of_ne m ρ c main_arg3 (by decide)).trans rfl

theorem V1_main_arg0 (c : Dev nD) : V1 m ρ c main_arg0 = m ((c : Thread nD τ).loc main_arg0) :=
  ((W1_arr m ρ c 0).trans (((dat0 (V0 m ρ) c).arrAt_in 0 rfl _).trans (A_eq0 (V0 m ρ) c 0))).trans rfl

theorem V2_main_v0_2 (c : Dev nD) : V2 m ρ c main_v0_2 = (dat0 (V0 m ρ) c).arrAt 6 cfg0.N :=
  (W2_of_ne m ρ c main_v0_2 (by decide)).trans (W1_arr m ρ c 6)

theorem V2_main_v1 (c : Dev nD) : V2 m ρ c main_v1 = (dat1 (V1 m ρ) c).arrAt 2 cfg1.N :=
  W2_arr m ρ c 2

theorem V2_main_arg1 (c : Dev nD) : V2 m ρ c main_arg1 = m ((c : Thread nD τ).loc main_arg1) :=
  (W2_of_ne m ρ c main_arg1 (by decide)).trans
    (((W1_arr m ρ c 1).trans (((dat0 (V0 m ρ) c).arrAt_in 1 rfl _).trans (A_eq0 (V0 m ρ) c 1))).trans rfl)

/-! ## The results -/

theorem W3_main_v0_0 (c : Dev nD) : W3 m ρ c (Proc.devRef .tc main_v0_0) = (dat0 (V0 m ρ) c).arrAt 4 cfg0.N :=
  (W3_of_ne m ρ c main_v0_0 (by decide)).trans ((W2_of_ne m ρ c main_v0_0 (by decide)).trans (W1_arr m ρ c 4))

theorem W3_main_v0_1 (c : Dev nD) : W3 m ρ c (Proc.devRef .tc main_v0_1) = (dat0 (V0 m ρ) c).arrAt 5 cfg0.N :=
  (W3_of_ne m ρ c main_v0_1 (by decide)).trans ((W2_of_ne m ρ c main_v0_1 (by decide)).trans (W1_arr m ρ c 5))

theorem W3_main_v0_2 (c : Dev nD) : W3 m ρ c (Proc.devRef .tc main_v0_2) = (dat0 (V0 m ρ) c).arrAt 6 cfg0.N :=
  ((W3_arr m ρ c 0).trans (((dat2 (V2 m ρ) c).arrAt_in 0 rfl _).trans (A_eq2 (V2 m ρ) c 0))).trans (V2_main_v0_2 m ρ c)

theorem W3_main_v1 (c : Dev nD) : W3 m ρ c (Proc.devRef .tc main_v1) = (dat1 (V1 m ρ) c).arrAt 2 cfg1.N :=
  ((W3_arr m ρ c 1).trans (((dat2 (V2 m ρ) c).arrAt_in 1 rfl _).trans (A_eq2 (V2 m ρ) c 1))).trans (V2_main_v1 m ρ c)

theorem W3_main_v2 (c : Dev nD) : W3 m ρ c (Proc.devRef .tc main_v2) = (dat2 (V2 m ρ) c).arrAt 3 cfg2.N :=
  W3_arr m ρ c 3

/-! ## The frame -/

/-- Every weakly fair execution of @main terminates, nothing faulting, with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c)⟩) (run m ρ)

end Cert.Kernel.Hand

end
-- ==== Proof.KI.Region0Defs.lean ====
/-
  The first kernel region (the weighted input, the neuron update and the post-synaptic trace), its data. The grid is
  8 × 4: point t = 4·j + k works on output-neuron block j (512 neurons) and input block k (1024 inputs). A [512, 512]
  scratch carries the partial weighted input across the four k-steps of one j: at k = 0 it is first zeroed; every point
  adds the product of the point's in_spikes block and weight block (contracted over the 1024 inputs); at k = 3 the
  body also stores the three outputs' blocks, computed from the membrane block, the scratch and the trace block. At the
  other points the three outputs' buffers are left as found. Stated at a parameter V, the core's buffer contents when
  the region is entered.
-/
import proofs.«156583_j59219009077774_1_alg».proof.Proof.Gen.KernelIdeal.Launch
import proofs.«156583_j59219009077774_1_alg».proof.Proof.Gen.KernelIdeal.Skeleton
import proofs.«156583_j59219009077774_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The four input blocks at a point, at their literal types: in_spikes [512, 1024], weight [512, 1024] (512 output
    neurons by 1024 inputs), membrane [512, 512], trace_post [512, 512]. -/
abbrev xb0 (c : Dev nD) (t : Fin cfg0.N) : Vec F S512x1024 .f32 := iblk0 V c 0 t
abbrev wb0 (c : Dev nD) (t : Fin cfg0.N) : Vec F S512x1024 .f32 := iblk0 V c 1 t
abbrev mb0 (c : Dev nD) (t : Fin cfg0.N) : Vec F S512x512 .f32 := iblk0 V c 2 t
abbrev pb0 (c : Dev nD) (t : Fin cfg0.N) : Vec F S512x512 .f32 := iblk0 V c 3 t

/-! ## The scratch, point by point -/

/-- The scratch after the body at position `n`: at a first k-step the point's product added to zero, otherwise added
    to what the point before left. -/
def scAt0 (c : Dev nD) : (n : ℕ) → n < cfg0.N → Vec F S512x512 .f32
  | 0, hn => k0_pay2 (xb0 V c ⟨0, hn⟩) (wb0 V c ⟨0, hn⟩) (k0_pay1 (F := F))
  | n + 1, hn =>
    if (n + 1) % 4 = 0 then k0_pay2 (xb0 V c ⟨n + 1, hn⟩) (wb0 V c ⟨n + 1, hn⟩) (k0_pay1 (F := F))
    else k0_pay2 (xb0 V c ⟨n + 1, hn⟩) (wb0 V c ⟨n + 1, hn⟩) (scAt0 c n (Nat.lt_of_succ_lt hn))

/-- At a first k-step the scratch holds the point's product added to zero. -/
theorem scAt0_reset (c : Dev nD) (t : Fin cfg0.N) (h : t.val % 4 = 0) :
    scAt0 V c t.val t.isLt = k0_pay2 (xb0 V c t) (wb0 V c t) (k0_pay1 (F := F)) := by
  obtain ⟨n, hn⟩ := t
  cases n with
  | zero => rfl
  | succ n => exact if_pos h

/-- At any other point it holds the point's product added to what the point before left. -/
theorem scAt0_acc (c : Dev nD) (t : Fin cfg0.N) (h : ¬ t.val % 4 = 0) :
    scAt0 V c t.val t.isLt = k0_pay2 (xb0 V c t) (wb0 V c t) (scAt0 V c (t.val - 1) (Nat.lt_of_le_of_lt (Nat.sub_le _ _) t.isLt)) := by
  obtain ⟨n, hn⟩ := t
  cases n with
  | zero => exact absurd (Nat.zero_mod _) h
  | succ n => exact if_neg h

/-! ## The invariant that carries the scratch -/

/-- The scratch as a memref. -/
abbrev scM0 : Memref sig .tc .vmem S512x512 .f32 := Memref.whole cc0_scratch0

/-- The region invariant before position `n`: before the first point the class's (every scoped buffer that is no
    staging buffer of this region at anything, the generator register at some state); afterwards the scratch at what the
    point before left, the other such scoped buffers at anything, the generator register at some state. -/
def PhiS0 (c : Dev nD) : (n : ℕ) → n ≤ cfg0.N → sProp 𝕄
  | 0, _ => Pipeline.ΦA spec0 c
  | n + 1, hn => iprop(owns (c : Thread nD τ) scM0 fullShare (scAt0 V c n hn)
      ∗ Pipeline.scopedRestBut (Ix := Unit) (Name := ℕ) (U := UR sig nD τ) (Lvl := ℕ) (Val := Elt F) spec0 c [cc0_scratch0]
      ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(owns (c : Thread nD τ) scM0 fullShare (scAt0 V c n hn)
      ∗ Pipeline.scopedRestBut (Ix := Unit) (Name := ℕ) (U := UR sig nD τ) (Lvl := ℕ) (Val := Elt F) spec0 c [cc0_scratch0]
      ∗ (∃ r, prngReg c r)) := rfl

theorem PhiS0_pos (c : Dev nD) (n : ℕ) (h : n ≤ cfg0.N) (hz : n ≠ 0) :
    PhiS0 V c n h = iprop(owns (c : Thread nD τ) scM0 fullShare (scAt0 V c (n - 1) (by omega))
      ∗ Pipeline.scopedRestBut (Ix := Unit) (Name := ℕ) (U := UR sig nD τ) (Lvl := ℕ) (Val := Elt F) spec0 c [cc0_scratch0]
      ∗ (∃ r, prngReg c r)) := by
  cases n with
  | zero => exact absurd rfl hz
  | succ n => rfl

/-! ## The proof data -/

/-- The region's proof data on core `c`: the arrays as found; after the body each input's buffer at its block and each
    output's at its function of the membrane block, the scratch and the trace block (consulted only at the last k-step,
    where the body stores the outputs); the invariant carrying the scratch; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => k0_pay4 (mb0 V c t) (scAt0 V c t.val t.isLt)
    | ⟨5, _⟩ => k0_pay5 (mb0 V c t) (scAt0 V c t.val t.isLt)
    | ⟨6, _⟩ => k0_pay6 (mb0 V c t) (scAt0 V c t.val t.isLt) (pb0 V c t)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = k0_pay4 (mb0 V c t) (scAt0 V c t.val t.isLt) := by dsimp only [dat0]
theorem after0_5 (c : Dev nD) (t : Fin cfg0.N) :
    (dat0 V c).after 5 t = k0_pay5 (mb0 V c t) (scAt0 V c t.val t.isLt) := by dsimp only [dat0]
theorem after0_6 (c : Dev nD) (t : Fin cfg0.N) :
    (dat0 V c).after 6 t = k0_pay6 (mb0 V c t) (scAt0 V c t.val t.isLt) (pb0 V c t) := by dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

end Cert.KernelIdeal.Hand

end
-- ==== Proof.KI.Region0.lean ====
/-
  The first kernel region, its body obligation: at every grid point the body, handed the invariant's scratch and the
  windows' current buffers, leaves the scratch and the buffers as the proof data say.

  The body has two branches on the k-coordinate (zero the scratch at k = 0; store the three outputs at k = 3), so a
  point is in one of three cases. For each the body is run once on generic whole buffers, which finds the pieces its
  stores leave; each piece list is one whole-block store (at k = 0, the zeroing under the update), so what it leaves
  reads back as the stored payload. The obligation then follows point by point from the accumulation's two equations.
-/
import proofs.«156583_j59219009077774_1_alg».proof.Proof.KI.Region0Defs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's two branch conditions, in closed form over the grid -/

/-- The first branch's condition (the k-coordinate is 0), as the body computes it. -/
abbrev cond0_0 (i : grid0.Coords) : Prop :=
  (Scalar.cmpi .ne (Scalar.extui (Scalar.cmpi .eq (BitVec.ofNat 32 (i 1).val) 0#32)) 0#32) = 1#1
/-- It holds exactly at the first k-step of each j. -/
theorem hcond0_0 : ∀ t : Fin cfg0.N, cond0_0 (grid0.coords t) ↔ t.val % 4 = 0 :=
  (by decide +kernel : ∀ t : Fin grid0.N, cond0_0 (grid0.coords t) ↔ t.val % 4 = 0)

/-- The second branch's condition (the k-coordinate is 3). -/
abbrev cond0_1 (i : grid0.Coords) : Prop := k0_cond2 i = 1#1
/-- It holds exactly at the last k-step of each j. -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl

/-- Off the last k-step the three outputs are idle, -/
theorem idleAt0_4 : ∀ t : Fin cfg0.N, ¬ t.val % 4 = 3 → cfg0.idle 4 (grid0.coords t) = true :=
  (by decide +kernel : ∀ t : Fin grid0.N, ¬ t.val % 4 = 3 → cfg0.idle 4 (grid0.coords t) = true)
theorem idleAt0_5 : ∀ t : Fin cfg0.N, ¬ t.val % 4 = 3 → cfg0.idle 5 (grid0.coords t) = true :=
  (by decide +kernel : ∀ t : Fin grid0.N, ¬ t.val % 4 = 3 → cfg0.idle 5 (grid0.coords t) = true)
theorem idleAt0_6 : ∀ t : Fin cfg0.N, ¬ t.val % 4 = 3 → cfg0.idle 6 (grid0.coords t) = true :=
  (by decide +kernel : ∀ t : Fin grid0.N, ¬ t.val % 4 = 3 → cfg0.idle 6 (grid0.coords t) = true)
/-- and not written back; -/
theorem noFlush0_4 (t : Fin cfg0.N) (h : ¬ t.val % 4 = 3) : (cfg0.win 4).flush t = false :=
  Bool.eq_false_iff.mpr fun hf => h ((flush0_4 t).mp hf)
theorem noFlush0_5 (t : Fin cfg0.N) (h : ¬ t.val % 4 = 3) : (cfg0.win 5).flush t = false :=
  Bool.eq_false_iff.mpr fun hf => h ((flush0_5 t).mp hf)
theorem noFlush0_6 (t : Fin cfg0.N) (h : ¬ t.val % 4 = 3) : (cfg0.win 6).flush t = false :=
  Bool.eq_false_iff.mpr fun hf => h ((flush0_6 t).mp hf)
/-- at the last k-step they are live. -/
theorem liveAt0_4 : ∀ t : Fin cfg0.N, t.val % 4 = 3 → cfg0.idle 4 (grid0.coords t) = false :=
  (by decide +kernel : ∀ t : Fin grid0.N, t.val % 4 = 3 → cfg0.idle 4 (grid0.coords t) = false)
theorem liveAt0_5 : ∀ t : Fin cfg0.N, t.val % 4 = 3 → cfg0.idle 5 (grid0.coords t) = false :=
  (by decide +kernel : ∀ t : Fin grid0.N, t.val % 4 = 3 → cfg0.idle 5 (grid0.coords t) = false)
theorem liveAt0_6 : ∀ t : Fin cfg0.N, t.val % 4 = 3 → cfg0.idle 6 (grid0.coords t) = false :=
  (by decide +kernel : ∀ t : Fin grid0.N, t.val % 4 = 3 → cfg0.idle 6 (grid0.coords t) = false)

/-! ## The class invariant, split at the scratch -/

/-- The class invariant is the scratch at some contents, the other scoped buffers that are no staging buffer of this
    region at anything, and the generator register at some state. -/
theorem PhiA0_split (c : Dev nD) :
    (Pipeline.ΦA spec0 c : sProp 𝕄)
      = iprop((∃ d, owns (c : Thread nD τ) scM0 fullShare d)
          ∗ Pipeline.scopedRestBut (Ix := Unit) (Name := ℕ) (U := UR sig nD τ) (Lvl := ℕ) (Val := Elt F) spec0 c [cc0_scratch0]
          ∗ (∃ r, prngReg c r)) := by
  unfold Pipeline.ΦA
  rw [Pipeline.scopedRest_split_of_list spec0 c [cc0_scratch0] (by decide) (by decide)]
  simp only [bigSepL_singleton, scM0, owns_whole]
  exact BI.equiv_iff.mp ⟨sep_assoc, sep_assoc'⟩

/-! ## What the body finds in the inputs' buffers -/

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)

/-! ## The whole-block rectangles' offsets are zero -/

theorem hz512 : (![0, 0] : Fin S512x512.rank → Nat) = fun _ => 0 := by
  funext a; match a with | ⟨0, _⟩ => rfl | ⟨1, _⟩ => rfl
theorem hz1024 : (![0, 0] : Fin S512x1024.rank → Nat) = fun _ => 0 := by
  funext a; match a with | ⟨0, _⟩ => rfl | ⟨1, _⟩ => rfl

/-! ## The body's run at a first k-step (the first branch taken) -/

set_option maxHeartbeats 1000000 in
/-- At a first k-step the body, handed the two product operands' buffers at `x0`, `x1` and the scratch at anything,
    runs to the continuation with the operands as they were and the scratch with two whole-block pieces written (the
    zeroing, then the update); the pieces are found by running the body. -/
noncomputable def kernelRun0_A (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole)
    (hc0 : cond0_0 i) (hc1 : ¬cond0_1 i) (x0 x1 : Vec F S512x1024 .f32) :
    { LS : List (View.Piece (Elt F) S512x512 .f32) //
      ∀ (E : Set ℕ) (K : PUnit → sProp 𝕄),
        iprop(owns (c : Thread nD τ) arg2 fullShare x0 ∗ owns (c : Thread nD τ) arg3 fullShare x1 ∗ (∃ d, owns (c : Thread nD τ) arg9 fullShare d)
            ∗ (iprop(owns (c : Thread nD τ) arg2 fullShare x0 ∗ owns (c : Thread nD τ) arg3 fullShare x1
                ∗ (∃ f, arg9.view.loc (c : Thread nD τ) ↦[arg9.view.set]{fullShare} arg9.view.writes (Elt F) f LS)) -∗ K ⟨⟩))
          ⊢ wp frame (wpE (defs₀ (F := F)) Variants.none c none) E (cc0__kernel_a i arg2 harg2 arg3 harg3 arg4 harg4 arg5 harg5 arg6 harg6 arg7 harg7 arg8 harg8 arg9 harg9) K } := by
  refine ⟨?_, fun E K => ?run⟩
  case run =>
    simp only [cc0__kernel_a_eq_skeleton]; unfold cc0__kernel_a_skel
    unfold owns
    iintro ⟨⟨%f0, %hf0, H0⟩, ⟨%f1, %hf1, H1⟩, ⟨%ds, %fs, -, HS⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

/-- Its pieces cover the scratch. -/
theorem scover0_A (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole)
    (hc0 : cond0_0 i) (hc1 : ¬cond0_1 i) (x0 x1 : Vec F S512x1024 .f32) (y : S512x512.Idx) :
    ∃ pc ∈ (kernelRun0_A c i arg2 harg2 arg3 harg3 arg4 harg4 arg5 harg5 arg6 harg6 arg7 harg7 arg8 harg8 arg9 harg9 hc0 hc1 x0 x1).1, y ∈ pc.1.set :=
  View.cover_of_tiledL (kernelRun0_A c i arg2 harg2 arg3 harg3 arg4 harg4 arg5 harg5 arg6 harg6 arg7 harg7 arg8 harg8 arg9 harg9 hc0 hc1 x0 x1).1 S512x512.size (by sl_kernel_rfl) y

/-- The later piece covers, and is the point's product added to the zeros the earlier piece left. -/
theorem scanon0_A (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole)
    (hc0 : cond0_0 i) (hc1 : ¬cond0_1 i) (x0 x1 : Vec F S512x1024 .f32) :
    View.canon (kernelRun0_A c i arg2 harg2 arg3 harg3 arg4 harg4 arg5 harg5 arg6 harg6 arg7 harg7 arg8 harg8 arg9 harg9 hc0 hc1 x0 x1).1 = k0_pay2 x0 x1 (k0_pay1 (F := F)) := by
  unfold kernelRun0_A; dsimp only; sl_unfold_words
  rw [View.canon_cons_unit_zero (S := S512x512) hz512, View.readCov_unit_zero (S := S512x512) _ hz512]
  simp only [View.readAt_eq_ld, harg2.read_unread, harg3.read_unread, View.ld_unit_zero (S := S512x1024) hz1024]

/-! ## The body's run at a middle k-step (neither branch taken) -/

set_option maxHeartbeats 1000000 in
/-- At a point where neither branch is taken the body, handed the two product operands' buffers at `x0`, `x1` and the
    scratch at `xs`, runs to the continuation with the operands as they were and the scratch with one whole-block piece
    written; the piece is found by running the body. -/
noncomputable def kernelRun0_B (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole)
    (hc0 : ¬cond0_0 i) (hc1 : ¬cond0_1 i) (x0 x1 : Vec F S512x1024 .f32) (xs : Vec F S512x512 .f32) :
    { LS : List (View.Piece (Elt F) S512x512 .f32) //
      ∀ (E : Set ℕ) (K : PUnit → sProp 𝕄),
        iprop(owns (c : Thread nD τ) arg2 fullShare x0 ∗ owns (c : Thread nD τ) arg3 fullShare x1 ∗ owns (c : Thread nD τ) arg9 fullShare xs
            ∗ (iprop(owns (c : Thread nD τ) arg2 fullShare x0 ∗ owns (c : Thread nD τ) arg3 fullShare x1
                ∗ (∃ f, arg9.view.loc (c : Thread nD τ) ↦[arg9.view.set]{fullShare} arg9.view.writes (Elt F) f LS)) -∗ K ⟨⟩))
          ⊢ wp frame (wpE (defs₀ (F := F)) Variants.none c none) E (cc0__kernel_a i arg2 harg2 arg3 harg3 arg4 harg4 arg5 harg5 arg6 harg6 arg7 harg7 arg8 harg8 arg9 harg9) K } := by
  refine ⟨?_, fun E K => ?run⟩
  case run =>
    simp only [cc0__kernel_a_eq_skeleton]; unfold cc0__kernel_a_skel
    unfold owns
    iintro ⟨⟨%f0, %hf0, H0⟩, ⟨%f1, %hf1, H1⟩, ⟨%fs, %hfs, HS⟩, Hk⟩
    obtain rfl := harg2.eq_unread hf0; obtain rfl := harg3.eq_unread hf1; obtain rfl := harg9.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

/-- Its piece covers the scratch. -/
theorem scover0_B (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole)
    (hc0 : ¬cond0_0 i) (hc1 : ¬cond0_1 i) (x0 x1 : Vec F S512x1024 .f32) (xs : Vec F S512x512 .f32) (y : S512x512.Idx) :
    ∃ pc ∈ (kernelRun0_B c i arg2 harg2 arg3 harg3 arg4 harg4 arg5 harg5 arg6 harg6 arg7 harg7 arg8 harg8 arg9 harg9 hc0 hc1 x0 x1 xs).1, y ∈ pc.1.set :=
  View.cover_of_tiledL (kernelRun0_B c i arg2 harg2 arg3 harg3 arg4 harg4 arg5 harg5 arg6 harg6 arg7 harg7 arg8 harg8 arg9 harg9 hc0 hc1 x0 x1 xs).1 S512x512.size (by sl_kernel_rfl) y

/-- The piece is the point's product added to what the scratch held. -/
theorem scanon0_B (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole)
    (hc0 : ¬cond0_0 i) (hc1 : ¬cond0_1 i) (x0 x1 : Vec F S512x1024 .f32) (xs : Vec F S512x512 .f32) :
    View.canon (kernelRun0_B c i arg2 harg2 arg3 harg3 arg4 harg4 arg5 harg5 arg6 harg6 arg7 harg7 arg8 harg8 arg9 harg9 hc0 hc1 x0 x1 xs).1 = k0_pay2 x0 x1 xs := by
  unfold kernelRun0_B; dsimp only; sl_unfold_words
  rw [View.canon_unit_zero hz512]
  simp only [View.readAt_eq_ld, harg2.read_unread, harg3.read_unread, harg9.read_unread,
    View.ld_unit_zero (S := S512x1024) hz1024, View.ld_unit_zero (S := S512x512) hz512]

/-! ## The body's run at a last k-step (the second branch taken) -/

set_option maxHeartbeats 1000000 in
/-- At a last k-step the body, handed the four inputs' buffers at `x0` … `x3`, the three outputs' at anything and the
    scratch at `xs`, runs to the continuation with the inputs as they were and each output and the scratch with one
    whole-block piece written; the pieces are found by running the body. -/
noncomputable def kernelRun0_C (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole)
    (hc0 : ¬cond0_0 i) (hc1 : cond0_1 i) (x0 x1 : Vec F S512x1024 .f32) (x2 x3 xs : Vec F S512x512 .f32) :
    Σ' (L4 L5 L6 : List (View.Piece (Elt F) S512x512 .f32)), { LS : List (View.Piece (Elt F) S512x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6)
                ∗ (∃ f, arg9.view.loc (c : Thread nD τ) ↦[arg9.view.set]{fullShare} arg9.view.writes (Elt F) f LS)) -∗ K ⟨⟩))
          ⊢ wp frame (wpE (defs₀ (F := F)) Variants.none c none) E (cc0__kernel_a i arg2 harg2 arg3 harg3 arg4 harg4 arg5 harg5 arg6 harg6 arg7 harg7 arg8 harg8 arg9 harg9) K } := by
  refine ⟨?_, ?_, ?_, ?_, fun E K => ?run⟩
  case run =>
    simp only [cc0__kernel_a_eq_skeleton]; unfold cc0__kernel_a_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs, %hfs, HS⟩, Hk⟩
    obtain rfl := harg2.eq_unread hf0; obtain rfl := harg3.eq_unread hf1; obtain rfl := harg4.eq_unread hf2
    obtain rfl := harg5.eq_unread hf3; obtain rfl := harg9.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    iexists _; iexact HS

/-- Each of its piece lists covers its buffer. -/
theorem cover0_C_4 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole)
    (hc0 : ¬cond0_0 i) (hc1 : cond0_1 i) (x0 x1 : Vec F S512x1024 .f32) (x2 x3 xs : Vec F S512x512 .f32) (y : S512x512.Idx) : ∃ pc ∈ (kernelRun0_C c i arg2 harg2 arg3 harg3 arg4 harg4 arg5 harg5 arg6 harg6 arg7 harg7 arg8 harg8 arg9 harg9 hc0 hc1 x0 x1 x2 x3 xs).1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs).1 S512x512.size (by sl_kernel_rfl) y
theorem cover0_C_5 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole)
    (hc0 : ¬cond0_0 i) (hc1 : cond0_1 i) (x0 x1 : Vec F S512x1024 .f32) (x2 x3 xs : Vec F S512x512 .f32) (y : S512x512.Idx) : ∃ pc ∈ (kernelRun0_C c i arg2 harg2 arg3 harg3 arg4 harg4 arg5 harg5 arg6 harg6 arg7 harg7 arg8 harg8 arg9 harg9 hc0 hc1 x0 x1 x2 x3 xs).2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs).2.1 S512x512.size (by sl_kernel_rfl) y
theorem cover0_C_6 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole)
    (hc0 : ¬cond0_0 i) (hc1 : cond0_1 i) (x0 x1 : Vec F S512x1024 .f32) (x2 x3 xs : Vec F S512x512 .f32) (y : S512x512.Idx) : ∃ pc ∈ (kernelRun0_C c i arg2 harg2 arg3 harg3 arg4 harg4 arg5 harg5 arg6 harg6 arg7 harg7 arg8 harg8 arg9 harg9 hc0 hc1 x0 x1 x2 x3 xs).2.2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs).2.2.1 S512x512.size (by sl_kernel_rfl) y
theorem scover0_C (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole)
    (hc0 : ¬cond0_0 i) (hc1 : cond0_1 i) (x0 x1 : Vec F S512x1024 .f32) (x2 x3 xs : Vec F S512x512 .f32) (y : S512x512.Idx) : ∃ pc ∈ (kernelRun0_C c i arg2 harg2 arg3 harg3 arg4 harg4 arg5 harg5 arg6 harg6 arg7 harg7 arg8 harg8 arg9 harg9 hc0 hc1 x0 x1 x2 x3 xs).2.2.2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs).2.2.2.1 S512x512.size (by sl_kernel_rfl) y

/-- The scratch's piece is the point's product added to what the scratch held. -/
theorem scanon0_C (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole)
    (hc0 : ¬cond0_0 i) (hc1 : cond0_1 i) (x0 x1 : Vec F S512x1024 .f32) (x2 x3 xs : Vec F S512x512 .f32) : View.canon (kernelRun0_C c i arg2 harg2 arg3 harg3 arg4 harg4 arg5 harg5 arg6 harg6 arg7 harg7 arg8 harg8 arg9 harg9 hc0 hc1 x0 x1 x2 x3 xs).2.2.2.1 = k0_pay2 x0 x1 xs := by
  unfold kernelRun0_C; dsimp only; sl_unfold_words
  rw [View.canon_unit_zero hz512]
  simp only [View.readAt_eq_ld, harg2.read_unread, harg3.read_unread, harg9.read_unread,
    View.ld_unit_zero (S := S512x1024) hz1024, View.ld_unit_zero (S := S512x512) hz512]

/-- Each output's piece is its function of the membrane block, the scratch read back after its store, and the trace
    block. -/
theorem canon0_C_4 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole)
    (hc0 : ¬cond0_0 i) (hc1 : cond0_1 i) (x0 x1 : Vec F S512x1024 .f32) (x2 x3 xs : Vec F S512x512 .f32) : View.canon (kernelRun0_C c i arg2 harg2 arg3 harg3 arg4 harg4 arg5 harg5 arg6 harg6 arg7 harg7 arg8 harg8 arg9 harg9 hc0 hc1 x0 x1 x2 x3 xs).1 = k0_pay4 x2 (k0_pay2 x0 x1 xs) := by
  unfold kernelRun0_C; dsimp only; sl_unfold_words
  rw [View.canon_unit_zero hz512]
  simp only [View.readAt_eq_ld, harg2.read_unread, harg3.read_unread, harg4.read_unread, harg5.read_unread, harg9.read_unread,
    View.readCov_unit_zero (S := S512x512) _ hz512,
    View.ld_unit_zero (S := S512x1024) hz1024, View.ld_unit_zero (S := S512x512) hz512]
theorem canon0_C_5 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole)
    (hc0 : ¬cond0_0 i) (hc1 : cond0_1 i) (x0 x1 : Vec F S512x1024 .f32) (x2 x3 xs : Vec F S512x512 .f32) : View.canon (kernelRun0_C c i arg2 harg2 arg3 harg3 arg4 harg4 arg5 harg5 arg6 harg6 arg7 harg7 arg8 harg8 arg9 harg9 hc0 hc1 x0 x1 x2 x3 xs).2.1 = k0_pay5 x2 (k0_pay2 x0 x1 xs) := by
  unfold kernelRun0_C; dsimp only; sl_unfold_words
  rw [View.canon_unit_zero hz512]
  simp only [View.readAt_eq_ld, harg2.read_unread, harg3.read_unread, harg4.read_unread, harg5.read_unread, harg9.read_unread,
    View.readCov_unit_zero (S := S512x512) _ hz512,
    View.ld_unit_zero (S := S512x1024) hz1024, View.ld_unit_zero (S := S512x512) hz512]
theorem canon0_C_6 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole)
    (hc0 : ¬cond0_0 i) (hc1 : cond0_1 i) (x0 x1 : Vec F S512x1024 .f32) (x2 x3 xs : Vec F S512x512 .f32) : View.canon (kernelRun0_C c i arg2 harg2 arg3 harg3 arg4 harg4 arg5 harg5 arg6 harg6 arg7 harg7 arg8 harg8 arg9 harg9 hc0 hc1 x0 x1 x2 x3 xs).2.2.1 = k0_pay6 x2 (k0_pay2 x0 x1 xs) x3 := by
  unfold kernelRun0_C; dsimp only; sl_unfold_words
  rw [View.canon_unit_zero hz512]
  simp only [View.readAt_eq_ld, harg2.read_unread, harg3.read_unread, harg4.read_unread, harg5.read_unread, harg9.read_unread,
    View.readCov_unit_zero (S := S512x512) _ hz512,
    View.ld_unit_zero (S := S512x1024) hz1024, View.ld_unit_zero (S := S512x512) hz512]

/-! ## The three runs over the payloads -/

/-- A first k-step: the scratch is left at the point's product added to zero. -/
theorem run0_A (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole)
    (hc0 : cond0_0 i) (hc1 : ¬cond0_1 i) (x0 x1 : Vec F S512x1024 .f32) (E : Set ℕ) (K : PUnit → sProp 𝕄) :
    iprop(owns (c : Thread nD τ) arg2 fullShare x0 ∗ owns (c : Thread nD τ) arg3 fullShare x1 ∗ (∃ d, owns (c : Thread nD τ) arg9 fullShare d)
        ∗ (iprop(owns (c : Thread nD τ) arg2 fullShare x0 ∗ owns (c : Thread nD τ) arg3 fullShare x1
            ∗ owns (c : Thread nD τ) arg9 fullShare (k0_pay2 x0 x1 (k0_pay1 (F := F)))) -∗ K ⟨⟩))
      ⊢ wp frame (wpE (defs₀ (F := F)) Variants.none c none) E (cc0__kernel_a i arg2 harg2 arg3 harg3 arg4 harg4 arg5 harg5 arg6 harg6 arg7 harg7 arg8 harg8 arg9 harg9) K := by
  iintro ⟨H0, H1, HS, Hk⟩
  iapply ((kernelRun0_A c i arg2 harg2 arg3 harg3 arg4 harg4 arg5 harg5 arg6 harg6 arg7 harg7 arg8 harg8 arg9 harg9 hc0 hc1 x0 x1).2 E K)
  isplitl [H0]; · iexact H0
  isplitl [H1]; · iexact H1
  isplitl [HS]; · iexact HS
  iintro ⟨H0, H1, ⟨%es, HS⟩⟩
  iapply Hk
  isplitl [H0]; · iexact H0
  isplitl [H1]; · iexact H1
  unfold owns; iexists _; isplitr
  swap; · iexact HS
  ipureintro
  exact (View.read_writes_eq_canon _ _ _ (scover0_A c i arg2 harg2 arg3 harg3 arg4 harg4 arg5 harg5 arg6 harg6 arg7 harg7 arg8 harg8 arg9 harg9 hc0 hc1 x0 x1)).trans
    (scanon0_A c i arg2 harg2 arg3 harg3 arg4 harg4 arg5 harg5 arg6 harg6 arg7 harg7 arg8 harg8 arg9 harg9 hc0 hc1 x0 x1)

/-- A middle k-step: the scratch is left at the point's product added to what it held. -/
theorem run0_B (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole)
    (hc0 : ¬cond0_0 i) (hc1 : ¬cond0_1 i) (x0 x1 : Vec F S512x1024 .f32) (xs : Vec F S512x512 .f32) (E : Set ℕ) (K : PUnit → sProp 𝕄) :
    iprop(owns (c : Thread nD τ) arg2 fullShare x0 ∗ owns (c : Thread nD τ) arg3 fullShare x1 ∗ owns (c : Thread nD τ) arg9 fullShare xs
        ∗ (iprop(owns (c : Thread nD τ) arg2 fullShare x0 ∗ owns (c : Thread nD τ) arg3 fullShare x1
            ∗ owns (c : Thread nD τ) arg9 fullShare (k0_pay2 x0 x1 xs)) -∗ K ⟨⟩))
      ⊢ wp frame (wpE (defs₀ (F := F)) Variants.none c none) E (cc0__kernel_a i arg2 harg2 arg3 harg3 arg4 harg4 arg5 harg5 arg6 harg6 arg7 harg7 arg8 harg8 arg9 harg9) K := by
  iintro ⟨H0, H1, HS, Hk⟩
  iapply ((kernelRun0_B c i arg2 harg2 arg3 harg3 arg4 harg4 arg5 harg5 arg6 harg6 arg7 harg7 arg8 harg8 arg9 harg9 hc0 hc1 x0 x1 xs).2 E K)
  isplitl [H0]; · iexact H0
  isplitl [H1]; · iexact H1
  isplitl [HS]; · iexact HS
  iintro ⟨H0, H1, ⟨%es, HS⟩⟩
  iapply Hk
  isplitl [H0]; · iexact H0
  isplitl [H1]; · iexact H1
  unfold owns; iexists _; isplitr
  swap; · iexact HS
  ipureintro
  exact (View.read_writes_eq_canon _ _ _ (scover0_B c i arg2 harg2 arg3 harg3 arg4 harg4 arg5 harg5 arg6 harg6 arg7 harg7 arg8 harg8 arg9 harg9 hc0 hc1 x0 x1 xs)).trans
    (scanon0_B c i arg2 harg2 arg3 harg3 arg4 harg4 arg5 harg5 arg6 harg6 arg7 harg7 arg8 harg8 arg9 harg9 hc0 hc1 x0 x1 xs)

/-- A last k-step: the scratch as at a middle one, and the three outputs at their functions of the membrane block, the
    scratch as just left and the trace block. -/
theorem run0_C (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole)
    (hc0 : ¬cond0_0 i) (hc1 : cond0_1 i) (x0 x1 : Vec F S512x1024 .f32) (x2 x3 xs : Vec F S512x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k0_pay4 x2 (k0_pay2 x0 x1 xs))
            ∗ owns (c : Thread nD τ) arg7 fullShare (k0_pay5 x2 (k0_pay2 x0 x1 xs))
            ∗ owns (c : Thread nD τ) arg8 fullShare (k0_pay6 x2 (k0_pay2 x0 x1 xs) x3)
            ∗ owns (c : Thread nD τ) arg9 fullShare (k0_pay2 x0 x1 xs)) -∗ K ⟨⟩))
      ⊢ wp frame (wpE (defs₀ (F := F)) Variants.none c none) E (cc0__kernel_a i arg2 harg2 arg3 harg3 arg4 harg4 arg5 harg5 arg6 harg6 arg7 harg7 arg8 harg8 arg9 harg9) K := by
  iintro ⟨H0, H1, H2, H3, H4, H5, H6, HS, Hk⟩
  iapply ((kernelRun0_C c i arg2 harg2 arg3 harg3 arg4 harg4 arg5 harg5 arg6 harg6 arg7 harg7 arg8 harg8 arg9 harg9 hc0 hc1 x0 x1 x2 x3 xs).2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS]; · iexact HS
  iintro ⟨H0, H1, H2, H3, ⟨%e4, H4⟩, ⟨%e5, H5⟩, ⟨%e6, H6⟩, ⟨%es, HS⟩⟩
  iapply Hk
  isplitl [H0]; · iexact H0
  isplitl [H1]; · iexact H1
  isplitl [H2]; · iexact H2
  isplitl [H3]; · iexact H3
  isplitl [H4]
  · unfold owns; iexists _; isplitr
    swap; · iexact H4
    ipureintro
    exact (View.read_writes_eq_canon _ _ _ (cover0_C_4 c i arg2 harg2 arg3 harg3 arg4 harg4 arg5 harg5 arg6 harg6 arg7 harg7 arg8 harg8 arg9 harg9 hc0 hc1 x0 x1 x2 x3 xs)).trans
      (canon0_C_4 c i arg2 harg2 arg3 harg3 arg4 harg4 arg5 harg5 arg6 harg6 arg7 harg7 arg8 harg8 arg9 harg9 hc0 hc1 x0 x1 x2 x3 xs)
  isplitl [H5]
  · unfold owns; iexists _; isplitr
    swap; · iexact H5
    ipureintro
    exact (View.read_writes_eq_canon _ _ _ (cover0_C_5 c i arg2 harg2 arg3 harg3 arg4 harg4 arg5 harg5 arg6 harg6 arg7 harg7 arg8 harg8 arg9 harg9 hc0 hc1 x0 x1 x2 x3 xs)).trans
      (canon0_C_5 c i arg2 harg2 arg3 harg3 arg4 harg4 arg5 harg5 arg6 harg6 arg7 harg7 arg8 harg8 arg9 harg9 hc0 hc1 x0 x1 x2 x3 xs)
  isplitl [H6]
  · unfold owns; iexists _; isplitr
    swap; · iexact H6
    ipureintro
    exact (View.read_writes_eq_canon _ _ _ (cover0_C_6 c i arg2 harg2 arg3 harg3 arg4 harg4 arg5 harg5 arg6 harg6 arg7 harg7 arg8 harg8 arg9 harg9 hc0 hc1 x0 x1 x2 x3 xs)).trans
      (canon0_C_6 c i arg2 harg2 arg3 harg3 arg4 harg4 arg5 harg5 arg6 harg6 arg7 harg7 arg8 harg8 arg9 harg9 hc0 hc1 x0 x1 x2 x3 xs)
  unfold owns; iexists _; isplitr
  swap; · iexact HS
  ipureintro
  exact (View.read_writes_eq_canon _ _ _ (scover0_C c i arg2 harg2 arg3 harg3 arg4 harg4 arg5 harg5 arg6 harg6 arg7 harg7 arg8 harg8 arg9 harg9 hc0 hc1 x0 x1 x2 x3 xs)).trans
    (scanon0_C c i arg2 harg2 arg3 harg3 arg4 harg4 arg5 harg5 arg6 harg6 arg7 harg7 arg8 harg8 arg9 harg9 hc0 hc1 x0 x1 x2 x3 xs)

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 4800000 in
/-- The body at any point. The inputs' buffers hold their blocks. By the point's k-step: at a last one the invariant
    hands the scratch at what the point before left, the run stores the scratch and the three outputs, and the contents
    are the proof data's by the accumulation's equation; at a first one the scratch is at anything (the class's at the
    very first point, the previous j's total afterwards), the run zeroes and updates it, and the outputs, idle and not
    written back, go back as found; at a middle one the same without the zeroing. The other scoped buffers, the
    generator register and what the core owes pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (st0_0 t) fullShare ((dat0 V c).after 0 t) from by
      unfold Dat.leavesExact; rw [liveAt0_0 t], after0_0]
  rw [show (dat0 V c).leavesExact 1 t = owns (c : Thread nD τ) (st0_1 t) fullShare ((dat0 V c).after 1 t) from by
      unfold Dat.leavesExact; rw [liveAt0_1 t], after0_1]
  rw [show (dat0 V c).leavesExact 2 t = owns (c : Thread nD τ) (st0_2 t) fullShare ((dat0 V c).after 2 t) from by
      unfold Dat.leavesExact; rw [liveAt0_2 t], after0_2]
  rw [show (dat0 V c).leavesExact 3 t = owns (c : Thread nD τ) (st0_3 t) fullShare ((dat0 V c).after 3 t) from by
      unfold Dat.leavesExact; rw [liveAt0_3 t], after0_3]
  have hN : t.val < 32 := lt_of_lt_of_eq t.isLt (show cfg0.N = 32 from N_0)
  by_cases h3 : t.val % 4 = 3
  · have h0 : ¬ t.val % 4 = 0 := by omega
    have hz : t.val ≠ 0 := by omega
    rw [show (dat0 V c).leavesExact 4 t = owns (c : Thread nD τ) (st0_4 t) fullShare ((dat0 V c).after 4 t) from by
      unfold Dat.leavesExact; rw [liveAt0_4 t h3], after0_4]
    rw [show (dat0 V c).leavesExact 5 t = owns (c : Thread nD τ) (st0_5 t) fullShare ((dat0 V c).after 5 t) from by
      unfold Dat.leavesExact; rw [liveAt0_5 t h3], after0_5]
    rw [show (dat0 V c).leavesExact 6 t = owns (c : Thread nD τ) (st0_6 t) fullShare ((dat0 V c).after 6 t) from by
      unfold Dat.leavesExact; rw [liveAt0_6 t h3], after0_6]
    rw [scAt0_acc V c t h0]
    rw [PhiS0_castSucc V c t, PhiS0_pos V c _ _ hz]
    iintro ⟨⟨HS, Hr, Hg⟩, Ho, ⟨%d0, H0⟩, ⟨%d1, H1⟩, ⟨%d2, H2⟩, ⟨%d3, H3⟩, ⟨%d4, H4⟩, ⟨%d5, H5⟩, ⟨%d6, H6⟩⟩
    iapply (run0_C c (grid0.coords t) _ _ _ _ _ _ _ _ _ _ _ _ _ _ _ _ (fun h => h0 ((hcond0_0 t).mp h)) ((hcond0_1 t).mpr h3)
      (xb0 V c t) (wb0 V c t) (mb0 V c t) (pb0 V c t) (scAt0 V c (t.val - 1) _) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS]; · iexact HS
    iintro ⟨H0, H1, H2, H3, H4, H5, H6, HS⟩
    isplitl [HS Hr Hg]
    · isplitl [HS]; · iexact HS
      isplitl [Hr]; · iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [Dat.leavesExact_idle (dat0 V c) 4 t (idleAt0_4 t h3) (noFlush0_4 t h3),
      Dat.leavesExact_idle (dat0 V c) 5 t (idleAt0_5 t h3) (noFlush0_5 t h3),
      Dat.leavesExact_idle (dat0 V c) 6 t (idleAt0_6 t h3) (noFlush0_6 t h3)]
    by_cases h0 : t.val % 4 = 0
    · rw [scAt0_reset V c t h0]
      by_cases hz : t.val = 0
      · rw [PhiS0_castSucc V c t, PhiS0_zero V c _ _ hz, PhiA0_split]
        iintro ⟨⟨HS, Hr, Hg⟩, Ho, ⟨%d0, H0⟩, ⟨%d1, H1⟩, ⟨%d2, H2⟩, ⟨%d3, H3⟩, ⟨%d4, H4⟩, ⟨%d5, H5⟩, ⟨%d6, H6⟩⟩
        iapply (run0_A c (grid0.coords t) _ _ _ _ _ _ _ _ _ _ _ _ _ _ _ _ ((hcond0_0 t).mpr h0) (fun h => h3 ((hcond0_1 t).mp h))
          (xb0 V c t) (wb0 V c t) Set.univ _)
        isplitl [H0]; · iexact H0
        isplitl [H1]; · iexact H1
        isplitl [HS]; · iexact HS
        iintro ⟨H0, H1, HS⟩
        isplitl [HS Hr Hg]
        · isplitl [HS]; · iexact HS
          isplitl [Hr]; · iexact Hr
          iexact Hg
        isplitl [Ho]; · iexact Ho
        isplitl [H0]; · iexact H0
        isplitl [H1]; · iexact H1
        isplitl [H2]; · iexact H2
        isplitl [H3]; · iexact H3
        isplitl [H4]; · iexists _; iexact H4
        isplitl [H5]; · iexists _; iexact H5
        iexists _; iexact H6
      · rw [PhiS0_castSucc V c t, PhiS0_pos V c _ _ hz]
        iintro ⟨⟨HS, Hr, Hg⟩, Ho, ⟨%d0, H0⟩, ⟨%d1, H1⟩, ⟨%d2, H2⟩, ⟨%d3, H3⟩, ⟨%d4, H4⟩, ⟨%d5, H5⟩, ⟨%d6, H6⟩⟩
        iapply (run0_A c (grid0.coords t) _ _ _ _ _ _ _ _ _ _ _ _ _ _ _ _ ((hcond0_0 t).mpr h0) (fun h => h3 ((hcond0_1 t).mp h))
          (xb0 V c t) (wb0 V c t) Set.univ _)
        isplitl [H0]; · iexact H0
        isplitl [H1]; · iexact H1
        isplitl [HS]; · iexists _; iexact HS
        iintro ⟨H0, H1, HS⟩
        isplitl [HS Hr Hg]
        · isplitl [HS]; · iexact HS
          isplitl [Hr]; · iexact Hr
          iexact Hg
        isplitl [Ho]; · iexact Ho
        isplitl [H0]; · iexact H0
        isplitl [H1]; · iexact H1
        isplitl [H2]; · iexact H2
        isplitl [H3]; · iexact H3
        isplitl [H4]; · iexists _; iexact H4
        isplitl [H5]; · iexists _; iexact H5
        iexists _; iexact H6
    · have hz : t.val ≠ 0 := by omega
      rw [scAt0_acc V c t h0]
      rw [PhiS0_castSucc V c t, PhiS0_pos V c _ _ hz]
      iintro ⟨⟨HS, Hr, Hg⟩, Ho, ⟨%d0, H0⟩, ⟨%d1, H1⟩, ⟨%d2, H2⟩, ⟨%d3, H3⟩, ⟨%d4, H4⟩, ⟨%d5, H5⟩, ⟨%d6, H6⟩⟩
      iapply (run0_B c (grid0.coords t) _ _ _ _ _ _ _ _ _ _ _ _ _ _ _ _ (fun h => h0 ((hcond0_0 t).mp h)) (fun h => h3 ((hcond0_1 t).mp h))
        (xb0 V c t) (wb0 V c t) (scAt0 V c (t.val - 1) _) Set.univ _)
      isplitl [H0]; · iexact H0
      isplitl [H1]; · iexact H1
      isplitl [HS]; · iexact HS
      iintro ⟨H0, H1, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexists _; iexact H4
      isplitl [H5]; · iexists _; iexact H5
      iexists _; iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]

/-- After the last point the invariant gives the class's back: the scratch's contents are forgotten. -/
theorem hout0 (c : Dev nD) : (dat0 V c).Φ (Fin.last cfg0.N) ⊢ Pipeline.ΦA spec0 c := by
  have hN : cfg0.N = 32 := N_0
  rw [show (dat0 V c).Φ (Fin.last cfg0.N) = PhiS0 V c (Fin.last cfg0.N).val (Nat.le_of_lt_succ (Fin.last cfg0.N).isLt) from rfl,
    PhiS0_pos V c _ _ (by rw [Fin.val_last]; omega), PhiA0_split]
  iintro ⟨HS, Hr, Hg⟩
  isplitl [HS]
  · iexists _; iexact HS
  isplitl [Hr]
  · iexact Hr
  iexact Hg

end Cert.KernelIdeal.Hand

end
-- ==== Proof.KI.Region1.lean ====
/-
  The second kernel region (the pre-synaptic trace): a grid of 4 points along the input axis; at point t the body
  reads the t-th [512, 1024] column block of trace_pre and of in_spikes and stores tpre · δ + x over the whole of the
  output's block. Nothing is carried between points. Stated at a parameter V, the core's buffer contents when the
  region is entered.
-/
import proofs.«156583_j59219009077774_1_alg».proof.Proof.Gen.KernelIdeal.Launch
import proofs.«156583_j59219009077774_1_alg».proof.Proof.Gen.KernelIdeal.Skeleton
import proofs.«156583_j59219009077774_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input's current staging buffer holds its block at every point, for any proof data over `V` whose body leaves
    the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What the body leaves in the output's buffer -/

/-- The whole block, as a rectangle. -/
abbrev rc1 : Rect S512x1024 := Rect.unit (s := S512x1024) ![0, 0] S512x1024.size inb_S512x1024_S512x1024_0_0

/-- The output's buffer after the body: its one store, of the trace update of the two input blocks. -/
def out1_2 (x0 x1 : Vec F S512x1024 .f32) : Vec F S512x1024 .f32 :=
  View.canon [⟨rc1, k1_pay1 (View.ld x0 rc1) (View.ld x1 rc1)⟩]

theorem cover1_2 (p0 : Vec F S512x1024 .f32) (y : S512x1024.Idx) :
    ∃ pc ∈ ([⟨rc1, p0⟩] : List (View.Piece (Elt F) S512x1024 .f32)), y ∈ pc.1.set :=
  View.cover_of_tiled [⟨rc1, p0⟩] S512x1024.size (by rfl) y

/-- The store covers the block from its origin, so the buffer holds the stored value itself. -/
theorem out1_2_eq (x0 x1 : Vec F S512x1024 .f32) : out1_2 x0 x1 = k1_pay1 x0 x1 := by
  have hz : (![0, 0] : Fin S512x1024.rank → Nat) = fun _ => 0 := by funext a; match a with | ⟨0, _⟩ => rfl | ⟨1, _⟩ => rfl
  unfold out1_2
  rw [View.canon_unit_zero hz]
  simp only [View.ld_unit_zero (S := S512x1024) hz]

/-! ## The body's triple -/

set_option maxHeartbeats 1000000 in
/-- The body on whole staging memrefs, the inputs at `x0`, `x1` and the output at anything, runs to the continuation
    with the inputs as they were and the output at `out1_2 x0 x1`. -/
theorem sound_kernel1 (c : Dev nD) (E : Set ℕ) (i : grid1.Coords) (arg1 : Memref sig .tc .vmem S512x1024 .f32) (harg1 : arg1.IsWhole)
    (arg2 : Memref sig .tc .vmem S512x1024 .f32) (harg2 : arg2.IsWhole) (arg3 : Memref sig .tc .vmem S512x1024 .f32) (harg3 : arg3.IsWhole)
    (x0 x1 : Vec F S512x1024 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__kernel_tp i arg1 harg1 arg2 harg2 arg3 harg3) K := by
  simp only [cc1__kernel_tp_eq_skeleton]; unfold cc1__kernel_tp_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The proof data -/

/-- The region's proof data on core `c`: the arrays as found; after the body each input's buffer at its block and the
    output's at the trace update of the two blocks; the class invariant (nothing carried); nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Region2.lean ====
/-
  The third kernel region (the weight update): a 4 × 4 grid over [1024, 1024] blocks of the weight matrix; at point
  (j, i) the body reads column block j of the post-synaptic trace, column block i of the pre-synaptic trace (each
  [512, 1024]) and block (j, i) of the weights, contracts the two traces over the batch axis, scales by the zero
  learning-rate difference, adds the weights and clamps, storing over the whole of the output's block. Nothing is
  carried between points. Stated at a parameter V, the core's buffer contents when the region is entered.
-/
import proofs.«156583_j59219009077774_1_alg».proof.Proof.Gen.KernelIdeal.Launch
import proofs.«156583_j59219009077774_1_alg».proof.Proof.Gen.KernelIdeal.Skeleton
import proofs.«156583_j59219009077774_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input's current staging buffer holds its block at every point, fetched there or not, for any proof data over
    `V` whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## What the body leaves in the output's buffer -/

/-- The whole blocks, as rectangles. -/
abbrev rc2t : Rect S512x1024 := Rect.unit (s := S512x1024) ![0, 0] S512x1024.size inb_S512x1024_S512x1024_0_0
abbrev rc2w : Rect S1024x1024 := Rect.unit (s := S1024x1024) ![0, 0] S1024x1024.size inb_S1024x1024_S1024x1024_0_0

/-- The output's buffer after the body: its one store, of the clamped update of the three input blocks. -/
def out2_3 (x0 x1 : Vec F S512x1024 .f32) (x2 : Vec F S1024x1024 .f32) : Vec F S1024x1024 .f32 :=
  View.canon [⟨rc2w, k2_pay1 (View.ld x0 rc2t) (View.ld x1 rc2t) (View.ld x2 rc2w)⟩]

theorem cover2_3 (p0 : Vec F S1024x1024 .f32) (y : S1024x1024.Idx) :
    ∃ pc ∈ ([⟨rc2w, p0⟩] : List (View.Piece (Elt F) S1024x1024 .f32)), y ∈ pc.1.set :=
  View.cover_of_tiled [⟨rc2w, p0⟩] S1024x1024.size (by rfl) y

/-- The store covers the block from its origin, so the buffer holds the stored value itself. -/
theorem out2_3_eq (x0 x1 : Vec F S512x1024 .f32) (x2 : Vec F S1024x1024 .f32) : out2_3 x0 x1 x2 = k2_pay1 x0 x1 x2 := by
  have hzt : (![0, 0] : Fin S512x1024.rank → Nat) = fun _ => 0 := by funext a; match a with | ⟨0, _⟩ => rfl | ⟨1, _⟩ => rfl
  have hzw : (![0, 0] : Fin S1024x1024.rank → Nat) = fun _ => 0 := by funext a; match a with | ⟨0, _⟩ => rfl | ⟨1, _⟩ => rfl
  unfold out2_3
  rw [View.canon_unit_zero hzw]
  simp only [View.ld_unit_zero (S := S512x1024) hzt, View.ld_unit_zero (S := S1024x1024) hzw]

/-! ## The body's triple -/

set_option maxHeartbeats 1000000 in
/-- The body on whole staging memrefs, the inputs at `x0`, `x1`, `x2` and the output at anything, runs to the
    continuation with the inputs as they were and the output at `out2_3 x0 x1 x2`. -/
theorem sound_kernel2 (c : Dev nD) (E : Set ℕ) (i : grid2.Coords) (arg2 : Memref sig .tc .vmem S512x1024 .f32) (harg2 : arg2.IsWhole)
    (arg3 : Memref sig .tc .vmem S512x1024 .f32) (harg3 : arg3.IsWhole) (arg4 : Memref sig .tc .vmem S1024x1024 .f32) (harg4 : arg4.IsWhole)
    (arg5 : Memref sig .tc .vmem S1024x1024 .f32) (harg5 : arg5.IsWhole)
    (x0 x1 : Vec F S512x1024 .f32) (x2 : Vec F S1024x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out2_3 x0 x1 x2)) -∗ K ⟨⟩))
      ⊢ wp frame (wpE (defs₀ (F := F)) Variants.none c none) E (cc2__kernel_b i arg2 harg2 arg3 harg3 arg4 harg4 arg5 harg5) K := by
  simp only [cc2__kernel_b_eq_skeleton]; unfold cc2__kernel_b_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The proof data -/

/-- The region's proof data on core `c`: the arrays as found; after the body each input's buffer at its block and the
    output's at the clamped update of the three blocks; the class invariant (nothing carried); nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Run.lean ====
/-
  The run of @main: three kernel regions in a row, no host operation between them. The core's unscoped buffers are
  followed from the launch memory through the regions: each region changes only its output windows' arrays, to what
  its write-backs leave. At the end every unscoped buffer is named; the arguments are read back as launched and each
  result as the array its region's pipeline leaves.
-/
import proofs.«156583_j59219009077774_1_alg».proof.Proof.KI.Region0
import proofs.«156583_j59219009077774_1_alg».proof.Proof.KI.Region1
import proofs.«156583_j59219009077774_1_alg».proof.Proof.KI.Region2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the region boundaries -/

/-- Core `c`'s buffers at launch. -/
abbrev W0 : Dev nD → Valuation τ sig (Elt F) := fun c b => (s₀ m ρ).mem ((c : Dev nD), b)
/-- The same read at the TensorCore's references (what region 0's proof data take). -/
abbrev V0 : (c : Dev nD) → (b : Ref sig .tc) → Buf (Elt F) ((c : Thread nD τ).loc b) := fun c b => W0 m ρ c b

/-- After region 0: its windows' arrays at what the pipeline's write-backs leave, every other buffer as the region found it. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references. -/
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After region 1: its windows' arrays at what the pipeline's write-backs leave, every other buffer as the region found it. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
/-- The same read at the TensorCore's references. -/
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- After region 2: its windows' arrays at what the pipeline's write-backs leave, every other buffer as the region found it. -/
def W3 (c : Dev nD) : Valuation τ sig (Elt F) :=
  Pipeline.withArrays spec2 c (W2 m ρ c) fun w => (dat2 (V2 m ρ) c).arrAt w cfg2.N
theorem W3_arr (c : Dev nD) (w : Fin cfg2.W) :
    W3 m ρ c (Proc.devRef .tc (Pipeline.arrRef spec2 w)) = (dat2 (V2 m ρ) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m ρ c (Proc.devRef .tc b) = W2 m ρ c (Proc.devRef .tc b) := by
  unfold W3; exact Pipeline.withArrays_of_ne spec2 c _ _ b hb
/-- The same read at the TensorCore's references. -/
abbrev V3 : (c : Dev nD) → (b : Ref sig .tc) → Buf (Elt F) ((c : Thread nD τ).loc b) := fun c b => W3 m ρ c b
theorem hF2 (c : Dev nD) (w : Fin cfg2.W) : (dat2 (V2 m ρ) c).arrAt w cfg2.N = V3 m ρ c (Pipeline.arrRef spec2 w) :=
  (W3_arr m ρ c w).symm
theorem hrest2 (c : Dev nD) : ∀ b, b ∉ Finset.univ.image (Pipeline.arrRef spec2) → V3 m ρ c b = V2 m ρ c b :=
  fun b hb => W3_of_ne m ρ c b fun w e => hb (Finset.mem_image.mpr ⟨w, Finset.mem_univ _, e⟩)

/-! ## The proof-data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
  | ⟨2, _⟩ => fun c => dat2 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every region: the generator register at some state and the core's `owes`, at nothing. -/
abbrev R (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W3 m ρ c) ∗ ∃ r, prngReg c r)

/-! ## The regions as segments -/

-- a library lemma stated over the pinned configuration unifies with the printed one only when unification may unfold
-- plain definitions in a metavariable's type
set_option backward.isDefEq.respectTransparency.types false in
/-- Region 0 as a segment of @main: entered with every unscoped buffer at `W0`, left with them at `W1`. Its
    windows' arrays are split out of the unscoped buffers at entry and put back, at what the write-backs left, at exit;
    the generator register goes into the region's invariant and comes back; nothing is owed and the kernel has no
    semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ (Pipeline.ΦA spec0 c : sProp 𝕄)).trans (hin0 (V0 m ρ) c)
    unfold Pipeline.ΦA
    iintro ⟨Hp, -, Hr⟩
    isplitl [Hr]; · iexact Hr
    iexact Hp
  hout c := by
    rw [Pipeline.ownSems0_none]
    refine (hout0 (V0 m ρ) c).trans (?_ : (Pipeline.ΦA spec0 c : sProp 𝕄) ⊢ _)
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 as a segment of @main: entered with every unscoped buffer at `W1`, left with them at `W2`. Its
    windows' arrays are split out of the unscoped buffers at entry and put back, at what the write-backs left, at exit;
    the generator register goes into the region's invariant and comes back; nothing is owed and the kernel has no
    semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 2 as a segment of @main: entered with every unscoped buffer at `W2`, left with them at `W3`. Its
    windows' arrays are split out of the unscoped buffers at entry and put back, at what the write-backs left, at exit;
    the generator register goes into the region's invariant and comes back; nothing is owed and the kernel has no
    semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V2 m ρ) c).loose
  hwaits := Pipeline.hwaits_of_owed_zero _ _ _ _ L lv 2 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V2 m ρ c) (V3 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ), .region (reg1 m ρ), .region (reg2 m ρ) ]

theorem main_run (c : Dev nD) : main (F := F) c = Pipeline.Seg.run (segs m ρ) := (main_chain c).trans (by chain_rfl)

set_option backward.isDefEq.respectTransparency.types false in
/-- THE RUN: from any memory with zero counters every weakly fair execution of @main on the TensorCores terminates,
    nothing faulting, and at the end every unscoped buffer of every core holds what the last boundary names. -/
theorem run : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-! ## What the last boundary holds -/

end Cert.KernelIdeal.Hand

end
-- ==== Proof.KI.Final.lean ====
/-
  What the last boundary of the run holds: each argument array as launched (no region writes one: a region reads an
  argument through an input window or does not touch it), each result the array its region's pipeline leaves, and the
  contents the second and third regions find in the arrays they read.
-/
import proofs.«156583_j59219009077774_1_alg».proof.Proof.KI.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arguments end as launched -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 1).trans (((dat1 (V1 m ρ) c).arrAt_in 1 rfl _).trans (A_eq1 (V1 m ρ) c 1))
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := (W3_arr m ρ c 2).trans (((dat2 (V2 m ρ) c).arrAt_in 2 rfl _).trans (A_eq2 (V2 m ρ) c 2))
    _ = W1 m ρ c (Proc.devRef .tc main_arg1) := W2_of_ne m ρ c main_arg1 (by decide)
    _ = W0 m ρ c (Proc.devRef .tc main_arg1) := (W1_arr m ρ c 1).trans (((dat0 (V0 m ρ) c).arrAt_in 1 rfl _).trans (A_eq0 (V0 m ρ) c 1))
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := (W1_arr m ρ c 2).trans (((dat0 (V0 m ρ) c).arrAt_in 2 rfl _).trans (A_eq0 (V0 m ρ) c 2))
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := (W2_arr m ρ c 0).trans (((dat1 (V1 m ρ) c).arrAt_in 0 rfl _).trans (A_eq1 (V1 m ρ) c 0))
    _ = W0 m ρ c (Proc.devRef .tc main_arg3) := W1_of_ne m ρ c main_arg3 (by decide)
    _ = m ((c : Thread nD τ).loc main_arg3) := rfl

theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := (W1_arr m ρ c 3).trans (((dat0 (V0 m ρ) c).arrAt_in 3 rfl _).trans (A_eq0 (V0 m ρ) c 3))
    _ = m ((c : Thread nD τ).loc main_arg4) := rfl

/-! ## What the later regions find -/

theorem V1_main_arg3 (c : Dev nD) : V1 m ρ c main_arg3 = m ((c : Thread nD τ).loc main_arg3) :=
  (W1_of_ne m ρ c main_arg3 (by decide)).trans rfl

theorem V1_main_arg0 (c : Dev nD) : V1 m ρ c main_arg0 = m ((c : Thread nD τ).loc main_arg0) :=
  ((W1_arr m ρ c 0).trans (((dat0 (V0 m ρ) c).arrAt_in 0 rfl _).trans (A_eq0 (V0 m ρ) c 0))).trans rfl

theorem V2_main_v0_2 (c : Dev nD) : V2 m ρ c main_v0_2 = (dat0 (V0 m ρ) c).arrAt 6 cfg0.N :=
  (W2_of_ne m ρ c main_v0_2 (by decide)).trans (W1_arr m ρ c 6)

theorem V2_main_v1 (c : Dev nD) : V2 m ρ c main_v1 = (dat1 (V1 m ρ) c).arrAt 2 cfg1.N :=
  W2_arr m ρ c 2

theorem V2_main_arg1 (c : Dev nD) : V2 m ρ c main_arg1 = m ((c : Thread nD τ).loc main_arg1) :=
  (W2_of_ne m ρ c main_arg1 (by decide)).trans
    (((W1_arr m ρ c 1).trans (((dat0 (V0 m ρ) c).arrAt_in 1 rfl _).trans (A_eq0 (V0 m ρ) c 1))).trans rfl)

/-! ## The results -/

theorem W3_main_v0_0 (c : Dev nD) : W3 m ρ c (Proc.devRef .tc main_v0_0) = (dat0 (V0 m ρ) c).arrAt 4 cfg0.N :=
  (W3_of_ne m ρ c main_v0_0 (by decide)).trans ((W2_of_ne m ρ c main_v0_0 (by decide)).trans (W1_arr m ρ c 4))

theorem W3_main_v0_1 (c : Dev nD) : W3 m ρ c (Proc.devRef .tc main_v0_1) = (dat0 (V0 m ρ) c).arrAt 5 cfg0.N :=
  (W3_of_ne m ρ c main_v0_1 (by decide)).trans ((W2_of_ne m ρ c main_v0_1 (by decide)).trans (W1_arr m ρ c 5))

theorem W3_main_v0_2 (c : Dev nD) : W3 m ρ c (Proc.devRef .tc main_v0_2) = (dat0 (V0 m ρ) c).arrAt 6 cfg0.N :=
  ((W3_arr m ρ c 0).trans (((dat2 (V2 m ρ) c).arrAt_in 0 rfl _).trans (A_eq2 (V2 m ρ) c 0))).trans (V2_main_v0_2 m ρ c)

theorem W3_main_v1 (c : Dev nD) : W3 m ρ c (Proc.devRef .tc main_v1) = (dat1 (V1 m ρ) c).arrAt 2 cfg1.N :=
  ((W3_arr m ρ c 1).trans (((dat2 (V2 m ρ) c).arrAt_in 1 rfl _).trans (A_eq2 (V2 m ρ) c 1))).trans (V2_main_v1 m ρ c)

theorem W3_main_v2 (c : Dev nD) : W3 m ρ c (Proc.devRef .tc main_v2) = (dat2 (V2 m ρ) c).arrAt 3 cfg2.N :=
  W3_arr m ρ c 3

/-! ## The frame -/

/-- Every weakly fair execution of @main terminates, nothing faulting, with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c)⟩) (run m ρ)

end Cert.KernelIdeal.Hand

end
-- ==== Proof.Spec.lean ====
/-
  The mathematics both programs compute, as functions of the five argument arrays, element by element on the
  extended reals. Nothing here mentions either program.

  Write x = in_spikes [512, 4096], w = weight [4096, 4096], mem = membrane, tpre = trace_pre, tpost = trace_post
  (each [512, 4096]). With the shared binary constants β = f32 0.99, θ = 1, ρ = f32 0.8, δ = f32 0.9, ±γ = f32 ±0.1:

    v[b, o]        = mem[b, o] · β + Σ_i x[b, i] · w[o, i]          the membrane after the weighted input
    spikes[b, o]   = 1 if v[b, o] > θ else 0
    newmem[b, o]   = v[b, o] − ρ if spikes[b, o] > 0 else v[b, o]
    tq[b, o]       = tpost[b, o] · δ + spikes[b, o]
    tp[b, i]       = tpre[b, i] · δ + x[b, i]
    neww[o, i]     = min(γ, max(−γ, w[o, i] + 0 · Σ_b tq[b, o] · tp[b, i]))

  The zero factor is the programs' own (the difference of two equal learning rates); it is kept as a product, since on
  the extended reals 0 · s is not rewritten away here.
-/
import Idealize.ShloMosaic.PureOps.Ideal
import Idealize.ShloMosaic.Lib.ValueIdx

noncomputable section

open scoped BigOperators

namespace Cert.Spec

open Idealize.ShloMosaic Idealize.ShloMosaic.ValueIdx

/-- A [512, 4096] array of extended reals. -/
abbrev ArrBO : Type := (⟨2, ![512, 4096]⟩ : Shape).Idx → Ideal .f32
/-- A [4096, 4096] array of extended reals. -/
abbrev ArrOI : Type := (⟨2, ![4096, 4096]⟩ : Shape).Idx → Ideal .f32

/-! ## One element -/

/-- The membrane after the weighted input `s`: `mem · β + s`. -/
def memE (mem s : Ideal .f32) : Ideal .f32 := mem * Ideal.ofBits .f32 0x3F7D70A4#32 + s

/-- The spike: `1` where the membrane exceeds the threshold `1`, else `0` (the comparison's bit read unsigned). -/
def spikeE (v : Ideal .f32) : Ideal .f32 :=
  FloatOps.uitofp (F := Ideal) .f32 (FloatOps.cmpf .ogt v (Ideal.ofBits .f32 0x3F800000#32))

/-- The membrane after the reset: `v − ρ` where the neuron spiked, else `v`. -/
def newmemE (v : Ideal .f32) : Ideal .f32 :=
  Scalar.select (FloatOps.cmpf .ogt (spikeE v) (Ideal.ofBits .f32 0x00000000#32)) (v - Ideal.ofBits .f32 0x3F4CCCCD#32) v

/-- The post-synaptic trace: `tpost · δ + spike`. -/
def tqE (tpost v : Ideal .f32) : Ideal .f32 := tpost * Ideal.ofBits .f32 0x3F666666#32 + spikeE v

/-- The pre-synaptic trace: `tpre · δ + x`. -/
def tpE (tpre x : Ideal .f32) : Ideal .f32 := tpre * Ideal.ofBits .f32 0x3F666666#32 + x

/-- The clamped weight: `min(γ, max(−γ, w + 0 · s))`. -/
def newwE (w s : Ideal .f32) : Ideal .f32 :=
  min (Ideal.ofBits .f32 0x3DCCCCCD#32) (max (Ideal.ofBits .f32 0xBDCCCCCD#32) (w + Ideal.ofBits .f32 0x00000000#32 * s))

/-! ## The arrays -/

/-- The weighted input: `Σ_i x[b, i] · w[o, i]`. -/
def wsum (x : ArrBO) (w : ArrOI) (b : Fin 512) (o : Fin 4096) : Ideal .f32 :=
  ∑ i : Fin 4096, x (ix2 b i) * w (ix2 o i)

/-- The membrane after the weighted input, at every neuron. -/
def memG (x : ArrBO) (w : ArrOI) (mem : ArrBO) : ArrBO :=
  fun j => memE (mem j) (wsum x w ⟨(j 0).val, idx2_lt0 j⟩ ⟨(j 1).val, idx2_lt1 j⟩)

/-- The spikes. -/
def spikesG (x : ArrBO) (w : ArrOI) (mem : ArrBO) : ArrBO := fun j => spikeE (memG x w mem j)

/-- The membrane after the reset. -/
def newmemG (x : ArrBO) (w : ArrOI) (mem : ArrBO) : ArrBO := fun j => newmemE (memG x w mem j)

/-- The post-synaptic trace. -/
def tqG (x : ArrBO) (w : ArrOI) (mem tpost : ArrBO) : ArrBO := fun j => tqE (tpost j) (memG x w mem j)

/-- The pre-synaptic trace. -/
def tpG (tpre x : ArrBO) : ArrBO := fun j => tpE (tpre j) (x j)

/-- The correlation of the two traces over the batch: `Σ_b tq[b, o] · tp[b, i]`. -/
def dsum (tq tp : ArrBO) (o i : Fin 4096) : Ideal .f32 :=
  ∑ b : Fin 512, tq (ix2 b o) * tp (ix2 b i)

/-- The clamped weights. -/
def newwG (tq tp : ArrBO) (w : ArrOI) : ArrOI :=
  fun j => newwE (w j) (dsum tq tp ⟨(j 0).val, idx2_lt0 j⟩ ⟨(j 1).val, idx2_lt1 j⟩)

theorem memG_ix2 (x : ArrBO) (w : ArrOI) (mem : ArrBO) (b : Fin 512) (o : Fin 4096) :
    memG x w mem (ix2 b o) = memE (mem (ix2 b o)) (wsum x w b o) := rfl

theorem newwG_ix2 (tq tp : ArrBO) (w : ArrOI) (o i : Fin 4096) :
    newwG tq tp w (ix2 o i) = newwE (w (ix2 o i)) (dsum tq tp o i) := rfl

end Cert.Spec

end
-- ==== Proof.Val.Val0Alg.lean ====
/-
  The algebra behind the first region's value, free of any program. A sum over the 4096 inputs is the sum of its four
  runs of 1024 (a finite sum regrouped in a commutative monoid: no finiteness of the terms is asked). The comparison's
  bit, zero-extended to 32 bits and read signed, is the bit read unsigned: both are 0 or 1.
-/
import proofs.«156583_j59219009077774_1_alg».proof.Proof.Spec
import Mathlib.Algebra.BigOperators.Fin
import Mathlib.Data.Fintype.BigOperators
import Mathlib.Logic.Equiv.Fin.Basic

noncomputable section

open scoped BigOperators

namespace Cert.Spec

open Idealize.ShloMosaic Idealize.ShloMosaic.ValueIdx

/-- The 4096 inputs as four runs of 1024: input `1024 k + i` is the `i`-th of run `k`. -/
def runEquiv : Fin 4 × Fin 1024 ≃ Fin 4096 :=
  (finProdFinEquiv (m := 4) (n := 1024)).trans (finCongr (by norm_num))

theorem runEquiv_val (k : Fin 4) (i : Fin 1024) : (runEquiv (k, i)).val = 1024 * k.val + i.val := by
  simp [runEquiv, finProdFinEquiv]; omega

/-- A sum over the 4096 inputs, run by run. -/
theorem sum_runs {M : Type*} [AddCommMonoid M] (f : Fin 4096 → M) :
    ∑ i : Fin 4096, f i = ∑ k : Fin 4, ∑ i : Fin 1024, f (runEquiv (k, i)) := by
  rw [← Equiv.sum_comp runEquiv f, Fintype.sum_prod_type]

/-- The same with the four runs written out and added, in order, onto zero: the order in which the four k-steps of
    one output block leave them in the accumulator. -/
theorem sum_runs_four {M : Type*} [AddCommMonoid M] (f : Fin 4096 → M) (g : Fin 4 → Fin 1024 → M)
    (h : ∀ k i, g k i = f (runEquiv (k, i))) :
    (((0 + ∑ i, g 0 i) + ∑ i, g 1 i) + ∑ i, g 2 i) + ∑ i, g 3 i = ∑ i : Fin 4096, f i := by
  rw [sum_runs, Fin.sum_univ_four, zero_add]
  simp only [h]

/-- The comparison's bit, widened to 32 bits and converted as a signed integer, is the bit converted unsigned. -/
theorem sitofp_setWidth_bit (b : BitVec 1) :
    FloatOps.sitofp (F := Ideal) .f32 (b.setWidth 32) = FloatOps.uitofp (F := Ideal) .f32 b := by
  rcases BitVec.eq_zero_or_eq_one b with h | h <;> subst h <;> rfl

end Cert.Spec

end
-- ==== Proof.Val.Val0Scratch.lean ====
/-
  The first region's scratch in closed form. One k-step adds to the accumulator, element (b, o'), the sum over the
  point's 1024 inputs of x[b, i] · w[o', i] (the matmul contracts axis 1 of both blocks); the accumulator starts at zero
  at the first k-step of an output block. So after the fourth k-step of output block j it holds, at (b, o'), the four runs
  of 1024 inputs added in order onto zero, which is the whole weighted input Σ_{i < 4096} x[b, i] · w[512 j + o', i].
  The three outputs' payloads are, element by element, the spike, the reset membrane and the post-synaptic trace of the
  membrane after that weighted input.
-/
import proofs.«156583_j59219009077774_1_alg».proof.Proof.KI.Region0Defs
import proofs.«156583_j59219009077774_1_alg».proof.Proof.Spec
import proofs.«156583_j59219009077774_1_alg».proof.Proof.Val.Val0Alg
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

/-! ## The matmul's operand indices -/

theorem lhs_dot0_0 (j : S512x512.Idx) (q : dot_S512x1024_S512x1024_S512x512_1_1_0_0_n_n.contr.Idx) :
    (dot_S512x1024_S512x1024_S512x512_1_1_0_0_n_n.lhsIdx j q 0).val = (j 0).val := by
  unfold DotDims.lhsIdx
  rw [dif_neg (show ¬(0 : Fin S512x1024.rank) ∈ dot_S512x1024_S512x1024_S512x512_1_1_0_0_n_n.lhsBatch by decide), dif_pos (show (0 : Fin S512x1024.rank) ∈ dot_S512x1024_S512x1024_S512x512_1_1_0_0_n_n.lhsNonContracting by decide)]
  rfl
theorem lhs_dot0_1 (j : S512x512.Idx) (q : dot_S512x1024_S512x1024_S512x512_1_1_0_0_n_n.contr.Idx) :
    (dot_S512x1024_S512x1024_S512x512_1_1_0_0_n_n.lhsIdx j q 1).val = (q ⟨0, by decide⟩).val :=
  dot_S512x1024_S512x1024_S512x512_1_1_0_0_n_n.lhsIdx_val_of_single rfl j q
theorem rhs_dot0_0 (j : S512x512.Idx) (q : dot_S512x1024_S512x1024_S512x512_1_1_0_0_n_n.contr.Idx) :
    (dot_S512x1024_S512x1024_S512x512_1_1_0_0_n_n.rhsIdx j q 0).val = (j 1).val := by
  unfold DotDims.rhsIdx
  rw [dif_neg (show ¬(0 : Fin S512x1024.rank) ∈ dot_S512x1024_S512x1024_S512x512_1_1_0_0_n_n.rhsBatch by decide), dif_pos (show (0 : Fin S512x1024.rank) ∈ dot_S512x1024_S512x1024_S512x512_1_1_0_0_n_n.rhsNonContracting by decide)]
  rfl
theorem rhs_dot0_1 (j : S512x512.Idx) (q : dot_S512x1024_S512x1024_S512x512_1_1_0_0_n_n.contr.Idx) :
    (dot_S512x1024_S512x1024_S512x512_1_1_0_0_n_n.rhsIdx j q 1).val = (q ⟨0, by decide⟩).val :=
  dot_S512x1024_S512x1024_S512x512_1_1_0_0_n_n.rhsIdx_val_of_single rfl j q

/-! ## The payloads at an element -/

/-- The product of two [512, 1024] blocks contracted over their 1024 inputs, into zero, at an element. -/
theorem matmul0_apply (x0 w0 : FVec Ideal S512x1024 .bf16) (p q : Fin 512) :
    matmul dot_S512x1024_S512x1024_S512x512_1_1_0_0_n_n none x0 w0 (constant (F := Ideal) S512x512 .f32 0x00000000#32) (ix2 p q)
      = ∑ i : Fin 1024, x0 (ix2 p i) * w0 (ix2 q i) := by
  simp only [matmul]
  rw [Ideal.matmul_constant_zero_apply, ← Equiv.sum_comp (ValueIdx.contrEquiv1 dot_S512x1024_S512x1024_S512x512_1_1_0_0_n_n 1024 rfl rfl).symm]
  refine Finset.sum_congr rfl fun k _ => ?_
  have hk := ValueIdx.contrEquiv1_symm_val dot_S512x1024_S512x1024_S512x512_1_1_0_0_n_n 1024 rfl rfl k
  have el : dot_S512x1024_S512x1024_S512x512_1_1_0_0_n_n.lhsIdx (ix2 p q) ((ValueIdx.contrEquiv1 dot_S512x1024_S512x1024_S512x512_1_1_0_0_n_n 1024 rfl rfl).symm k) = ix2 p k := funext fun a => Fin.ext (by
    match a with
    | ⟨0, _⟩ => exact lhs_dot0_0 _ _
    | ⟨1, _⟩ => exact (lhs_dot0_1 _ _).trans hk)
  have er : dot_S512x1024_S512x1024_S512x512_1_1_0_0_n_n.rhsIdx (ix2 p q) ((ValueIdx.contrEquiv1 dot_S512x1024_S512x1024_S512x512_1_1_0_0_n_n 1024 rfl rfl).symm k) = ix2 q k := funext fun a => Fin.ext (by
    match a with
    | ⟨0, _⟩ => exact rhs_dot0_0 _ _
    | ⟨1, _⟩ => exact (rhs_dot0_1 _ _).trans hk)
  rw [el, er]

/-- The accumulator's first contents: zero everywhere. -/
theorem pay1_apply (i : S512x512.Idx) : (k0_pay1 (F := Ideal)) i = 0 := by
  unfold k0_pay1
  rw [shapeCast_self]
  exact Ideal.ofBits_zero_f32

/-- One k-step: the accumulator plus the product of the point's two blocks. -/
theorem pay2_apply (x0 w0 : Vec Ideal S512x1024 .f32) (s0 : Vec Ideal S512x512 .f32) (p q : Fin 512) :
    k0_pay2 x0 w0 s0 (ix2 p q) = s0 (ix2 p q) + ∑ i : Fin 1024, x0 (ix2 p i) * w0 (ix2 q i) := by
  unfold k0_pay2
  rw [shapeCast_self, addf_apply, matmul0_apply]
  rfl

/-- The membrane after the weighted input the accumulator holds. -/
theorem pay3_apply (mem sc : Vec Ideal S512x512 .f32) (i : S512x512.Idx) :
    k0_pay3 mem sc i = Cert.Spec.memE (mem i) (sc i) := rfl

/-- The spike: the comparison's bit is widened and converted signed by the kernel, unsigned by the specification. -/
theorem pay4_apply (mem sc : Vec Ideal S512x512 .f32) (i : S512x512.Idx) :
    k0_pay4 mem sc i = Cert.Spec.spikeE (Cert.Spec.memE (mem i) (sc i)) := by
  unfold k0_pay4
  exact Cert.Spec.sitofp_setWidth_bit _

/-- The membrane after the reset. -/
theorem pay5_apply (mem sc : Vec Ideal S512x512 .f32) (i : S512x512.Idx) :
    k0_pay5 mem sc i = Cert.Spec.newmemE (Cert.Spec.memE (mem i) (sc i)) := by
  unfold k0_pay5
  rw [select_apply, cmpf_apply, pay4_apply, subf_apply, pay3_apply]
  rfl

/-- The post-synaptic trace. -/
theorem pay6_apply (mem sc tp : Vec Ideal S512x512 .f32) (i : S512x512.Idx) :
    k0_pay6 mem sc tp i = Cert.Spec.tqE (tp i) (Cert.Spec.memE (mem i) (sc i)) := by
  unfold k0_pay6
  rw [addf_apply, pay4_apply]
  rfl

/-! ## The printed index maps over the grid -/

/-- Point t = 4 j + k: the in_spikes block is column block k; the weight block is (j, k); the membrane, trace and the
    three outputs' blocks are column block j. -/
theorem idx0 : ∀ t : Fin cfg0.N,
    win0_0.index t (0 : Fin 2) = 0 ∧ win0_0.index t (1 : Fin 2) = t.val % 4
    ∧ win0_1.index t (0 : Fin 2) = t.val / 4 ∧ win0_1.index t (1 : Fin 2) = t.val % 4
    ∧ win0_2.index t (0 : Fin 2) = 0 ∧ win0_2.index t (1 : Fin 2) = t.val / 4
    ∧ win0_3.index t (0 : Fin 2) = 0 ∧ win0_3.index t (1 : Fin 2) = t.val / 4
    ∧ win0_4.index t (0 : Fin 2) = 0 ∧ win0_4.index t (1 : Fin 2) = t.val / 4
    ∧ win0_5.index t (0 : Fin 2) = 0 ∧ win0_5.index t (1 : Fin 2) = t.val / 4
    ∧ win0_6.index t (0 : Fin 2) = 0 ∧ win0_6.index t (1 : Fin 2) = t.val / 4 :=
  (by decide +kernel : ∀ t : Fin grid0.N, _)

variable (V : (c : Dev nD) → (b : Ref sig .tc) → Buf (Elt Ideal) ((c : Thread nD τ).loc b))

/-! ## The argument arrays as the region finds them, at their literal types -/

/-- in_spikes [512, 4096]. -/
abbrev xA (c : Dev nD) : Cert.Spec.ArrBO := V c main_arg0
/-- weight [4096, 4096], indexed [output neuron, input]. -/
abbrev wA (c : Dev nD) : Cert.Spec.ArrOI := V c main_arg1
/-- membrane [512, 4096]. -/
abbrev memA (c : Dev nD) : Cert.Spec.ArrBO := V c main_arg2
/-- trace_post [512, 4096]. -/
abbrev tpostA (c : Dev nD) : Cert.Spec.ArrBO := V c main_arg4

/-! ## The input blocks as parts of the arrays -/

/-- The in_spikes block at point t: rows as they are, inputs 1024 (t % 4) + i. -/
theorem xb0_apply (c : Dev nD) (t : Fin cfg0.N) (p : Fin 512) (i : Fin 1024) (r : Fin 4096)
    (hr : r.val = 1024 * (t.val % 4) + i.val) :
    xb0 V c t (ix2 p i) = xA V c (ix2 p r) := by
  obtain ⟨e0, e1, -⟩ := idx0 t
  show iblk0 V c 0 t (ix2 p i) = _
  unfold iblk0
  rw [View.read_apply]
  show V c main_arg0 _ = V c main_arg0 _
  congr 1
  funext a
  apply Fin.ext
  match a with
  | ⟨0, _⟩ => show win0_0.index t (0 : Fin 2) * 512 + 1 * p.val = p.val; rw [e0]; omega
  | ⟨1, _⟩ => show win0_0.index t (1 : Fin 2) * 1024 + 1 * i.val = r.val; rw [e1, hr]; omega

/-- The weight block at point t: output neurons 512 (t / 4) + o', inputs 1024 (t % 4) + i. -/
theorem wb0_apply (c : Dev nD) (t : Fin cfg0.N) (q : Fin 512) (i : Fin 1024) (o r : Fin 4096)
    (ho : o.val = 512 * (t.val / 4) + q.val) (hr : r.val = 1024 * (t.val % 4) + i.val) :
    wb0 V c t (ix2 q i) = wA V c (ix2 o r) := by
  obtain ⟨-, -, e0, e1, -⟩ := idx0 t
  show iblk0 V c 1 t (ix2 q i) = _
  unfold iblk0
  rw [View.read_apply]
  show V c main_arg1 _ = V c main_arg1 _
  congr 1
  funext a
  apply Fin.ext
  match a with
  | ⟨0, _⟩ => show win0_1.index t (0 : Fin 2) * 512 + 1 * q.val = o.val; rw [e0, ho]; omega
  | ⟨1, _⟩ => show win0_1.index t (1 : Fin 2) * 1024 + 1 * i.val = r.val; rw [e1, hr]; omega

/-- The membrane block at point t: rows as they are, neurons 512 (t / 4) + o'. -/
theorem mb0_apply (c : Dev nD) (t : Fin cfg0.N) (p q : Fin 512) (o : Fin 4096)
    (ho : o.val = 512 * (t.val / 4) + q.val) :
    mb0 V c t (ix2 p q) = memA V c (ix2 p o) := by
  obtain ⟨-, -, -, -, e0, e1, -⟩ := idx0 t
  show iblk0 V c 2 t (ix2 p q) = _
  unfold iblk0
  rw [View.read_apply]
  show V c main_arg2 _ = V c main_arg2 _
  congr 1
  funext a
  apply Fin.ext
  match a with
  | ⟨0, _⟩ => show win0_2.index t (0 : Fin 2) * 512 + 1 * p.val = p.val; rw [e0]; omega
  | ⟨1, _⟩ => show win0_2.index t (1 : Fin 2) * 512 + 1 * q.val = o.val; rw [e1, ho]; omega

/-- The trace block at point t: the same part of trace_post. -/
theorem pb0_apply (c : Dev nD) (t : Fin cfg0.N) (p q : Fin 512) (o : Fin 4096)
    (ho : o.val = 512 * (t.val / 4) + q.val) :
    pb0 V c t (ix2 p q) = tpostA V c (ix2 p o) := by
  obtain ⟨-, -, -, -, -, -, e0, e1, -⟩ := idx0 t
  show iblk0 V c 3 t (ix2 p q) = _
  unfold iblk0
  rw [View.read_apply]
  show V c main_arg4 _ = V c main_arg4 _
  congr 1
  funext a
  apply Fin.ext
  match a with
  | ⟨0, _⟩ => show win0_3.index t (0 : Fin 2) * 512 + 1 * p.val = p.val; rw [e0]; omega
  | ⟨1, _⟩ => show win0_3.index t (1 : Fin 2) * 512 + 1 * q.val = o.val; rw [e1, ho]; omega

/-! ## The accumulator over the four k-steps of an output block -/

/-- What one point adds to the accumulator at (b, o'): its 1024 inputs' products. -/
def part0 (c : Dev nD) (t : Fin cfg0.N) (p q : Fin 512) : Ideal .f32 :=
  ∑ i : Fin 1024, xb0 V c t (ix2 p i) * wb0 V c t (ix2 q i)

/-- After the last k-step of an output block (first point n, n % 4 = 0) the accumulator holds the four points' products
    added in order onto zero. -/
theorem scratch_run (c : Dev nD) (n : ℕ) (h3 : n + 3 < cfg0.N) (hn : n % 4 = 0) (p q : Fin 512) :
    scAt0 V c (n + 3) h3 (ix2 p q)
      = (((0 + part0 V c ⟨n, by omega⟩ p q) + part0 V c ⟨n + 1, by omega⟩ p q) + part0 V c ⟨n + 2, by omega⟩ p q)
          + part0 V c ⟨n + 3, h3⟩ p q := by
  have s3 : scAt0 V c (n + 3) h3 = k0_pay2 (xb0 V c ⟨n + 3, h3⟩) (wb0 V c ⟨n + 3, h3⟩) (scAt0 V c (n + 2) (by omega)) :=
    if_neg (by omega)
  have s2 : scAt0 V c (n + 2) (by omega) = k0_pay2 (xb0 V c ⟨n + 2, by omega⟩) (wb0 V c ⟨n + 2, by omega⟩) (scAt0 V c (n + 1) (by omega)) :=
    if_neg (by omega)
  have s1 : scAt0 V c (n + 1) (by omega) = k0_pay2 (xb0 V c ⟨n + 1, by omega⟩) (wb0 V c ⟨n + 1, by omega⟩) (scAt0 V c n (by omega)) :=
    if_neg (by omega)
  have s0 : scAt0 V c n (by omega) = k0_pay2 (xb0 V c ⟨n, by omega⟩) (wb0 V c ⟨n, by omega⟩) (k0_pay1 (F := Ideal)) :=
    scAt0_reset V c ⟨n, by omega⟩ hn
  rw [s3, pay2_apply, s2, pay2_apply, s1, pay2_apply, s0, pay2_apply, pay1_apply]
  rfl

/-- A point's products as products of the arrays' elements: the point's 1024 inputs are run k = t % 4 of the 4096. -/
theorem part0_run (c : Dev nD) (t : Fin cfg0.N) (k : Fin 4) (hk : t.val % 4 = k.val) (p q : Fin 512) (o : Fin 4096)
    (ho : o.val = 512 * (t.val / 4) + q.val) :
    part0 V c t p q
      = ∑ i : Fin 1024, xA V c (ix2 p (Cert.Spec.runEquiv (k, i)))
          * wA V c (ix2 o (Cert.Spec.runEquiv (k, i))) := by
  unfold part0
  refine Finset.sum_congr rfl fun i _ => ?_
  have hr : (Cert.Spec.runEquiv (k, i)).val = 1024 * (t.val % 4) + i.val := by rw [Cert.Spec.runEquiv_val, hk]
  rw [xb0_apply V c t p i _ hr, wb0_apply V c t q i o _ ho hr]

/-- At a point that writes back (t % 4 = 3) the accumulator holds, at (b, o'), the whole weighted input of neuron
    512 (t / 4) + o'. -/
theorem scratch_last (c : Dev nD) (t : Fin cfg0.N) (ht : t.val % 4 = 3) (p q : Fin 512) (o : Fin 4096)
    (ho : o.val = 512 * (t.val / 4) + q.val) :
    scAt0 V c t.val t.isLt (ix2 p q) = Cert.Spec.wsum (xA V c) (wA V c) p o := by
  obtain ⟨tv, tlt⟩ := t
  obtain ⟨n, rfl⟩ : ∃ n, tv = n + 3 := ⟨tv - 3, by have : tv % 4 = 3 := ht; omega⟩
  have hn : n % 4 = 0 := by have : (n + 3) % 4 = 3 := ht; omega
  have ho' : o.val = 512 * ((n + 3) / 4) + q.val := ho
  show scAt0 V c (n + 3) tlt (ix2 p q) = _
  rw [scratch_run V c n tlt hn p q,
    part0_run V c ⟨n, by omega⟩ 0 (by show n % 4 = 0; omega) p q o (by show o.val = 512 * (n / 4) + q.val; omega),
    part0_run V c ⟨n + 1, by omega⟩ 1 (by show (n + 1) % 4 = 1; omega) p q o (by show o.val = 512 * ((n + 1) / 4) + q.val; omega),
    part0_run V c ⟨n + 2, by omega⟩ 2 (by show (n + 2) % 4 = 2; omega) p q o (by show o.val = 512 * ((n + 2) / 4) + q.val; omega),
    part0_run V c ⟨n + 3, tlt⟩ 3 (by show (n + 3) % 4 = 3; omega) p q o ho']
  exact Cert.Spec.sum_runs_four
    (fun i => xA V c (ix2 p i) * wA V c (ix2 o i))
    (fun k i => xA V c (ix2 p (Cert.Spec.runEquiv (k, i)))
      * wA V c (ix2 o (Cert.Spec.runEquiv (k, i))))
    (fun _ _ => rfl)

end Cert.KernelIdeal.Hand

end
-- ==== Proof.Val.Val0.lean ====
/-
  What the first region leaves in its three output arrays. At the last of the four k-steps of output block j the scratch
  holds Σ_{k < 4} Σ_{i < 1024} x[b, 1024 k + i] · w[512 j + o', 1024 k + i], which is the whole weighted input
  Σ_{i < 4096} x[b, i] · w[512 j + o', i] (a finite sum regrouped in a commutative monoid); the three outputs' blocks are
  the spike, the reset membrane and the post-synaptic trace of that, element by element; the eight column blocks tile
  each array.
-/
import proofs.«156583_j59219009077774_1_alg».proof.Proof.KI.Region0Defs
import proofs.«156583_j59219009077774_1_alg».proof.Proof.Spec
import proofs.«156583_j59219009077774_1_alg».proof.Proof.Val.Val0Scratch
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

/-! ## From a block to the array: the three output windows -/

/-- Window 4's write-back at point t, for a [512, 512] block that is column block t / 4 of a whole-array function. -/
theorem blk4_eq (t : Fin cfg0.N) (f : S512x512.Idx → Ideal .f32) (G : Cert.Spec.ArrBO)
    (h : ∀ (p q : Fin 512) (o : Fin 4096), o.val = 512 * (t.val / 4) + q.val → f (ix2 p q) = G (ix2 p o)) :
    (cfg0.win 4).cut (grid0.coords t) f = ((cfg0.win 4).blk t).view.read (Elt Ideal) G := by
  obtain ⟨-, -, -, -, -, -, -, -, e0, e1, -⟩ := idx0 t
  have hN : cfg0.N = 32 := Gen.N_0
  funext y
  rw [View.read_apply]
  have h0 : (y 0).val < 512 := (y 0).isLt
  have h1 : (y 1).val < 512 := (y 1).isLt
  have hx : (cfg0.win 4).xinj (grid0.coords t) y = ix2 (⟨(y 0).val, h0⟩ : Fin 512) (⟨(y 1).val, h1⟩ : Fin 512) :=
    funext fun a => match a with | ⟨0, _⟩ => rfl | ⟨1, _⟩ => rfl
  have ho : 512 * (t.val / 4) + (y 1).val < 4096 := by have := t.isLt; omega
  show f ((cfg0.win 4).xinj (grid0.coords t) y) = G (((cfg0.win 4).blk t).view.emb y)
  rw [hx, h ⟨(y 0).val, h0⟩ ⟨(y 1).val, h1⟩ ⟨512 * (t.val / 4) + (y 1).val, ho⟩ rfl]
  congr 1
  funext a
  apply Fin.ext
  match a with
  | ⟨0, _⟩ => show (y 0).val = win0_4.index t (0 : Fin 2) * 512 + 1 * (y 0).val; rw [e0]; omega
  | ⟨1, _⟩ => show 512 * (t.val / 4) + (y 1).val = win0_4.index t (1 : Fin 2) * 512 + 1 * (y 1).val; rw [e1]; omega

/-- An index of the array is in point t's block of window 4 iff each coordinate is in the block's range on its axis. -/
theorem mem_blk4 (t : Fin cfg0.N) (i : S512x4096.Idx) :
    i ∈ ((cfg0.win 4).blk t).view.set ↔ ∀ a : Fin 2, win0_4.index t a * S512x512.size a ≤ (i a).val ∧ (i a).val < win0_4.index t a * S512x512.size a + S512x512.size a := by
  show i ∈ ((View.whole main_v0_0).slice (win0_4.rect t)).set ↔ _
  rw [View.set_slice_whole, Rect.mem_set_unit]
  exact Iff.rfl

/-- Every index of window 4's array is in the block of a point that writes back: column o is covered by the last k-step of
    output block o / 512. -/
theorem cover4 (i : S512x4096.Idx) :
    ∃ t : Fin cfg0.N, (cfg0.win 4).flush t = true ∧ i ∈ ((cfg0.win 4).blk t).view.set := by
  have hN : cfg0.N = 32 := Gen.N_0
  have hi0 : (i 0).val < 512 := (i 0).isLt
  have hi1 : (i 1).val < 4096 := (i 1).isLt
  have ht : 4 * ((i 1).val / 512) + 3 < cfg0.N := by omega
  obtain ⟨-, -, -, -, -, -, -, -, e0, e1, -⟩ := idx0 ⟨4 * ((i 1).val / 512) + 3, ht⟩
  have e1' : win0_4.index ⟨4 * ((i 1).val / 512) + 3, ht⟩ (1 : Fin 2) = (4 * ((i 1).val / 512) + 3) / 4 := e1
  refine ⟨⟨4 * ((i 1).val / 512) + 3, ht⟩, (flush0_4 _).mpr (by show (4 * ((i 1).val / 512) + 3) % 4 = 3; omega), ?_⟩
  rw [mem_blk4]
  intro a
  match a with
  | ⟨0, _⟩ =>
    show win0_4.index ⟨4 * ((i 1).val / 512) + 3, ht⟩ (0 : Fin 2) * 512 ≤ (i 0).val ∧ (i 0).val < win0_4.index ⟨4 * ((i 1).val / 512) + 3, ht⟩ (0 : Fin 2) * 512 + 512
    rw [e0]; omega
  | ⟨1, _⟩ =>
    show win0_4.index ⟨4 * ((i 1).val / 512) + 3, ht⟩ (1 : Fin 2) * 512 ≤ (i 1).val ∧ (i 1).val < win0_4.index ⟨4 * ((i 1).val / 512) + 3, ht⟩ (1 : Fin 2) * 512 + 512
    rw [e1']; omega

/-- Window 5's write-back at point t, for a [512, 512] block that is column block t / 4 of a whole-array function. -/
theorem blk5_eq (t : Fin cfg0.N) (f : S512x512.Idx → Ideal .f32) (G : Cert.Spec.ArrBO)
    (h : ∀ (p q : Fin 512) (o : Fin 4096), o.val = 512 * (t.val / 4) + q.val → f (ix2 p q) = G (ix2 p o)) :
    (cfg0.win 5).cut (grid0.coords t) f = ((cfg0.win 5).blk t).view.read (Elt Ideal) G := by
  obtain ⟨-, -, -, -, -, -, -, -, -, -, e0, e1, -⟩ := idx0 t
  have hN : cfg0.N = 32 := Gen.N_0
  funext y
  rw [View.read_apply]
  have h0 : (y 0).val < 512 := (y 0).isLt
  have h1 : (y 1).val < 512 := (y 1).isLt
  have hx : (cfg0.win 5).xinj (grid0.coords t) y = ix2 (⟨(y 0).val, h0⟩ : Fin 512) (⟨(y 1).val, h1⟩ : Fin 512) :=
    funext fun a => match a with | ⟨0, _⟩ => rfl | ⟨1, _⟩ => rfl
  have ho : 512 * (t.val / 4) + (y 1).val < 4096 := by have := t.isLt; omega
  show f ((cfg0.win 5).xinj (grid0.coords t) y) = G (((cfg0.win 5).blk t).view.emb y)
  rw [hx, h ⟨(y 0).val, h0⟩ ⟨(y 1).val, h1⟩ ⟨512 * (t.val / 4) + (y 1).val, ho⟩ rfl]
  congr 1
  funext a
  apply Fin.ext
  match a with
  | ⟨0, _⟩ => show (y 0).val = win0_5.index t (0 : Fin 2) * 512 + 1 * (y 0).val; rw [e0]; omega
  | ⟨1, _⟩ => show 512 * (t.val / 4) + (y 1).val = win0_5.index t (1 : Fin 2) * 512 + 1 * (y 1).val; rw [e1]; omega

/-- An index of the array is in point t's block of window 5 iff each coordinate is in the block's range on its axis. -/
theorem mem_blk5 (t : Fin cfg0.N) (i : S512x4096.Idx) :
    i ∈ ((cfg0.win 5).blk t).view.set ↔ ∀ a : Fin 2, win0_5.index t a * S512x512.size a ≤ (i a).val ∧ (i a).val < win0_5.index t a * S512x512.size a + S512x512.size a := by
  show i ∈ ((View.whole main_v0_1).slice (win0_5.rect t)).set ↔ _
  rw [View.set_slice_whole, Rect.mem_set_unit]
  exact Iff.rfl

/-- Every index of window 5's array is in the block of a point that writes back: column o is covered by the last k-step of
    output block o / 512. -/
theorem cover5 (i : S512x4096.Idx) :
    ∃ t : Fin cfg0.N, (cfg0.win 5).flush t = true ∧ i ∈ ((cfg0.win 5).blk t).view.set := by
  have hN : cfg0.N = 32 := Gen.N_0
  have hi0 : (i 0).val < 512 := (i 0).isLt
  have hi1 : (i 1).val < 4096 := (i 1).isLt
  have ht : 4 * ((i 1).val / 512) + 3 < cfg0.N := by omega
  obtain ⟨-, -, -, -, -, -, -, -, -, -, e0, e1, -⟩ := idx0 ⟨4 * ((i 1).val / 512) + 3, ht⟩
  have e1' : win0_5.index ⟨4 * ((i 1).val / 512) + 3, ht⟩ (1 : Fin 2) = (4 * ((i 1).val / 512) + 3) / 4 := e1
  refine ⟨⟨4 * ((i 1).val / 512) + 3, ht⟩, (flush0_5 _).mpr (by show (4 * ((i 1).val / 512) + 3) % 4 = 3; omega), ?_⟩
  rw [mem_blk5]
  intro a
  match a with
  | ⟨0, _⟩ =>
    show win0_5.index ⟨4 * ((i 1).val / 512) + 3, ht⟩ (0 : Fin 2) * 512 ≤ (i 0).val ∧ (i 0).val < win0_5.index ⟨4 * ((i 1).val / 512) + 3, ht⟩ (0 : Fin 2) * 512 + 512
    rw [e0]; omega
  | ⟨1, _⟩ =>
    show win0_5.index ⟨4 * ((i 1).val / 512) + 3, ht⟩ (1 : Fin 2) * 512 ≤ (i 1).val ∧ (i 1).val < win0_5.index ⟨4 * ((i 1).val / 512) + 3, ht⟩ (1 : Fin 2) * 512 + 512
    rw [e1']; omega

/-- Window 6's write-back at point t, for a [512, 512] block that is column block t / 4 of a whole-array function. -/
theorem blk6_eq (t : Fin cfg0.N) (f : S512x512.Idx → Ideal .f32) (G : Cert.Spec.ArrBO)
    (h : ∀ (p q : Fin 512) (o : Fin 4096), o.val = 512 * (t.val / 4) + q.val → f (ix2 p q) = G (ix2 p o)) :
    (cfg0.win 6).cut (grid0.coords t) f = ((cfg0.win 6).blk t).view.read (Elt Ideal) G := by
  obtain ⟨-, -, -, -, -, -, -, -, -, -, -, -, e0, e1⟩ := idx0 t
  have hN : cfg0.N = 32 := Gen.N_0
  funext y
  rw [View.read_apply]
  have h0 : (y 0).val < 512 := (y 0).isLt
  have h1 : (y 1).val < 512 := (y 1).isLt
  have hx : (cfg0.win 6).xinj (grid0.coords t) y = ix2 (⟨(y 0).val, h0⟩ : Fin 512) (⟨(y 1).val, h1⟩ : Fin 512) :=
    funext fun a => match a with | ⟨0, _⟩ => rfl | ⟨1, _⟩ => rfl
  have ho : 512 * (t.val / 4) + (y 1).val < 4096 := by have := t.isLt; omega
  show f ((cfg0.win 6).xinj (grid0.coords t) y) = G (((cfg0.win 6).blk t).view.emb y)
  rw [hx, h ⟨(y 0).val, h0⟩ ⟨(y 1).val, h1⟩ ⟨512 * (t.val / 4) + (y 1).val, ho⟩ rfl]
  congr 1
  funext a
  apply Fin.ext
  match a with
  | ⟨0, _⟩ => show (y 0).val = win0_6.index t (0 : Fin 2) * 512 + 1 * (y 0).val; rw [e0]; omega
  | ⟨1, _⟩ => show 512 * (t.val / 4) + (y 1).val = win0_6.index t (1 : Fin 2) * 512 + 1 * (y 1).val; rw [e1]; omega

/-- An index of the array is in point t's block of window 6 iff each coordinate is in the block's range on its axis. -/
theorem mem_blk6 (t : Fin cfg0.N) (i : S512x4096.Idx) :
    i ∈ ((cfg0.win 6).blk t).view.set ↔ ∀ a : Fin 2, win0_6.index t a * S512x512.size a ≤ (i a).val ∧ (i a).val < win0_6.index t a * S512x512.size a + S512x512.size a := by
  show i ∈ ((View.whole main_v0_2).slice (win0_6.rect t)).set ↔ _
  rw [View.set_slice_whole, Rect.mem_set_unit]
  exact Iff.rfl

/-- Every index of window 6's array is in the block of a point that writes back: column o is covered by the last k-step of
    output block o / 512. -/
theorem cover6 (i : S512x4096.Idx) :
    ∃ t : Fin cfg0.N, (cfg0.win 6).flush t = true ∧ i ∈ ((cfg0.win 6).blk t).view.set := by
  have hN : cfg0.N = 32 := Gen.N_0
  have hi0 : (i 0).val < 512 := (i 0).isLt
  have hi1 : (i 1).val < 4096 := (i 1).isLt
  have ht : 4 * ((i 1).val / 512) + 3 < cfg0.N := by omega
  obtain ⟨-, -, -, -, -, -, -, -, -, -, -, -, e0, e1⟩ := idx0 ⟨4 * ((i 1).val / 512) + 3, ht⟩
  have e1' : win0_6.index ⟨4 * ((i 1).val / 512) + 3, ht⟩ (1 : Fin 2) = (4 * ((i 1).val / 512) + 3) / 4 := e1
  refine ⟨⟨4 * ((i 1).val / 512) + 3, ht⟩, (flush0_6 _).mpr (by show (4 * ((i 1).val / 512) + 3) % 4 = 3; omega), ?_⟩
  rw [mem_blk6]
  intro a
  match a with
  | ⟨0, _⟩ =>
    show win0_6.index ⟨4 * ((i 1).val / 512) + 3, ht⟩ (0 : Fin 2) * 512 ≤ (i 0).val ∧ (i 0).val < win0_6.index ⟨4 * ((i 1).val / 512) + 3, ht⟩ (0 : Fin 2) * 512 + 512
    rw [e0]; omega
  | ⟨1, _⟩ =>
    show win0_6.index ⟨4 * ((i 1).val / 512) + 3, ht⟩ (1 : Fin 2) * 512 ≤ (i 1).val ∧ (i 1).val < win0_6.index ⟨4 * ((i 1).val / 512) + 3, ht⟩ (1 : Fin 2) * 512 + 512
    rw [e1']; omega

variable (V : (c : Dev nD) → (b : Ref sig .tc) → Buf (Elt Ideal) ((c : Thread nD τ).loc b))

/-! ## What a point that writes back stores, element by element -/

/-- The spikes' block at (b, o') is the spike of neuron 512 (t / 4) + o'. -/
theorem spikes_elem (c : Dev nD) (t : Fin cfg0.N) (ht : t.val % 4 = 3) (p q : Fin 512) (o : Fin 4096)
    (ho : o.val = 512 * (t.val / 4) + q.val) :
    k0_pay4 (mb0 V c t) (scAt0 V c t.val t.isLt) (ix2 p q)
      = Cert.Spec.spikesG (xA V c) (wA V c) (memA V c) (ix2 p o) := by
  rw [pay4_apply, mb0_apply V c t p q o ho, scratch_last V c t ht p q o ho]
  rfl

/-- The new membrane's block at (b, o') is the reset membrane of neuron 512 (t / 4) + o'. -/
theorem newmem_elem (c : Dev nD) (t : Fin cfg0.N) (ht : t.val % 4 = 3) (p q : Fin 512) (o : Fin 4096)
    (ho : o.val = 512 * (t.val / 4) + q.val) :
    k0_pay5 (mb0 V c t) (scAt0 V c t.val t.isLt) (ix2 p q)
      = Cert.Spec.newmemG (xA V c) (wA V c) (memA V c) (ix2 p o) := by
  rw [pay5_apply, mb0_apply V c t p q o ho, scratch_last V c t ht p q o ho]
  rfl

/-- The trace's block at (b, o') is the post-synaptic trace of neuron 512 (t / 4) + o'. -/
theorem tq_elem (c : Dev nD) (t : Fin cfg0.N) (ht : t.val % 4 = 3) (p q : Fin 512) (o : Fin 4096)
    (ho : o.val = 512 * (t.val / 4) + q.val) :
    k0_pay6 (mb0 V c t) (scAt0 V c t.val t.isLt) (pb0 V c t) (ix2 p q)
      = Cert.Spec.tqG (xA V c) (wA V c) (memA V c) (tpostA V c) (ix2 p o) := by
  rw [pay6_apply, mb0_apply V c t p q o ho, pb0_apply V c t p q o ho, scratch_last V c t ht p q o ho]
  rfl

/-! ## What a point that writes back writes is its block of the whole-array function -/

theorem spikes_flushed (c : Dev nD) (t : Fin cfg0.N) (hf : (cfg0.win 4).flush t = true) :
    (dat0 (F := Ideal) V c).flushed 4 t
      = ((cfg0.win 4).blk t).view.read (Elt Ideal) (Cert.Spec.spikesG (xA V c) (wA V c) (memA V c)) := by
  show (cfg0.win 4).cut (grid0.coords t) ((dat0 (F := Ideal) V c).after 4 t) = _
  rw [after0_4]
  exact blk4_eq t _ _ fun p q o ho => spikes_elem V c t ((flush0_4 t).mp hf) p q o ho

theorem newmem_flushed (c : Dev nD) (t : Fin cfg0.N) (hf : (cfg0.win 5).flush t = true) :
    (dat0 (F := Ideal) V c).flushed 5 t
      = ((cfg0.win 5).blk t).view.read (Elt Ideal) (Cert.Spec.newmemG (xA V c) (wA V c) (memA V c)) := by
  show (cfg0.win 5).cut (grid0.coords t) ((dat0 (F := Ideal) V c).after 5 t) = _
  rw [after0_5]
  exact blk5_eq t _ _ fun p q o ho => newmem_elem V c t ((flush0_5 t).mp hf) p q o ho

theorem tq_flushed (c : Dev nD) (t : Fin cfg0.N) (hf : (cfg0.win 6).flush t = true) :
    (dat0 (F := Ideal) V c).flushed 6 t
      = ((cfg0.win 6).blk t).view.read (Elt Ideal) (Cert.Spec.tqG (xA V c) (wA V c) (memA V c) (tpostA V c)) := by
  show (cfg0.win 6).cut (grid0.coords t) ((dat0 (F := Ideal) V c).after 6 t) = _
  rw [after0_6]
  exact blk6_eq t _ _ fun p q o ho => tq_elem V c t ((flush0_6 t).mp hf) p q o ho

/-! ## The three arrays -/

/-- The spikes. -/
theorem spikes_array (c : Dev nD) :
    (dat0 (F := Ideal) V c).arrAt 4 cfg0.N = Cert.Spec.spikesG (V c main_arg0) (V c main_arg1) (V c main_arg2) :=
  (dat0 (F := Ideal) V c).arrAt_eq_of_cover 4 (Cert.Spec.spikesG (xA V c) (wA V c) (memA V c))
    (fun t hf => spikes_flushed V c t hf) cover4

/-- The membrane after the reset. -/
theorem newmem_array (c : Dev nD) :
    (dat0 (F := Ideal) V c).arrAt 5 cfg0.N = Cert.Spec.newmemG (V c main_arg0) (V c main_arg1) (V c main_arg2) :=
  (dat0 (F := Ideal) V c).arrAt_eq_of_cover 5 (Cert.Spec.newmemG (xA V c) (wA V c) (memA V c))
    (fun t hf => newmem_flushed V c t hf) cover5

/-- The post-synaptic trace. -/
theorem tq_array (c : Dev nD) :
    (dat0 (F := Ideal) V c).arrAt 6 cfg0.N = Cert.Spec.tqG (V c main_arg0) (V c main_arg1) (V c main_arg2) (V c main_arg4) :=
  (dat0 (F := Ideal) V c).arrAt_eq_of_cover 6 (Cert.Spec.tqG (xA V c) (wA V c) (memA V c) (tpostA V c))
    (fun t hf => tq_flushed V c t hf) cover6

end Cert.KernelIdeal.Hand

end
-- ==== Proof.Val.Val1.lean ====
/-
  The pre-synaptic trace the second region leaves: every element of the output array is tpre · δ + x of the same
  element of the two input arrays (the four column blocks tile the array; each block is the pointwise update of the
  two input blocks at the same place).
-/
import proofs.«156583_j59219009077774_1_alg».proof.Proof.KI.Region1
import proofs.«156583_j59219009077774_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

variable (V : (c : Dev nD) → (b : Ref sig .tc) → Buf (Elt Ideal) ((c : Thread nD τ).loc b))

/-- The body's arithmetic at an element: tpre · δ + x of the two loaded elements. -/
private theorem k1_pay1_apply (x0 x1 : Vec Ideal S512x1024 .f32) (j : S512x1024.Idx) :
    k1_pay1 x0 x1 j = Cert.Spec.tpE (x0 j) (x1 j) := by
  unfold k1_pay1 Cert.Spec.tpE
  rfl

/-- The three windows' index maps, decided over the four points: each input's block sits where the output's block
    sits, and that is column block t. -/
private theorem tp_index_facts : ∀ t : Fin cfg1.N,
    win1_0.index t (0 : Fin 2) = win1_2.index t (0 : Fin 2)
    ∧ win1_0.index t (1 : Fin 2) = win1_2.index t (1 : Fin 2)
    ∧ win1_1.index t (0 : Fin 2) = win1_2.index t (0 : Fin 2)
    ∧ win1_1.index t (1 : Fin 2) = win1_2.index t (1 : Fin 2)
    ∧ win1_2.index t (0 : Fin 2) = 0
    ∧ win1_2.index t (1 : Fin 2) = t.val :=
  (by decide +kernel : ∀ t : Fin grid1.N, _)

/-- What point t writes back is block t of the trace array of the two input arrays. -/
private theorem tp_flushed (c : Dev nD) (t : Fin cfg1.N) :
    (dat1 (F := Ideal) V c).flushed 2 t
      = ((cfg1.win 2).blk t).view.read (Elt Ideal) (Cert.Spec.tpG (V c main_arg3) (V c main_arg0)) := by
  show (cfg1.win 2).cut (grid1.coords t) ((dat1 (F := Ideal) V c).after 2 t) = _
  rw [after1_2, out1_2_eq]
  obtain ⟨e0, e1, e2, e3, -, -⟩ := tp_index_facts t
  funext j
  refine (k1_pay1_apply _ _ _).trans ?_
  show Cert.Spec.tpE (V c main_arg3 (((cfg1.win 0).blk t).view.emb j)) (V c main_arg0 (((cfg1.win 1).blk t).view.emb j))
    = Cert.Spec.tpE (V c main_arg3 (((cfg1.win 2).blk t).view.emb j)) (V c main_arg0 (((cfg1.win 2).blk t).view.emb j))
  have h0 : ((cfg1.win 0).blk t).view.emb j = ((cfg1.win 2).blk t).view.emb j := by
    funext a; apply Fin.ext
    match a with
    | ⟨0, _⟩ => show win1_0.index t (0 : Fin 2) * 512 + 1 * (j 0).val = win1_2.index t (0 : Fin 2) * 512 + 1 * (j 0).val; omega
    | ⟨1, _⟩ => show win1_0.index t (1 : Fin 2) * 1024 + 1 * (j 1).val = win1_2.index t (1 : Fin 2) * 1024 + 1 * (j 1).val; omega
  have h1 : ((cfg1.win 1).blk t).view.emb j = ((cfg1.win 2).blk t).view.emb j := by
    funext a; apply Fin.ext
    match a with
    | ⟨0, _⟩ => show win1_1.index t (0 : Fin 2) * 512 + 1 * (j 0).val = win1_2.index t (0 : Fin 2) * 512 + 1 * (j 0).val; omega
    | ⟨1, _⟩ => show win1_1.index t (1 : Fin 2) * 1024 + 1 * (j 1).val = win1_2.index t (1 : Fin 2) * 1024 + 1 * (j 1).val; omega
  rw [h0, h1]

/-- An index of the array is in point t's block iff each coordinate is in the block's range on its axis. -/
private theorem tp_mem_blk (t : Fin cfg1.N) (i : S512x4096.Idx) :
    i ∈ ((cfg1.win 2).blk t).view.set ↔ ∀ a : Fin 2, win1_2.index t a * S512x1024.size a ≤ (i a).val
      ∧ (i a).val < win1_2.index t a * S512x1024.size a + S512x1024.size a := by
  show i ∈ ((View.whole main_v1).slice (win1_2.rect t)).set ↔ _
  rw [View.set_slice_whole, Rect.mem_set_unit]
  exact Iff.rfl

/-- The four column blocks tile the array: column r lies in the block of point r / 1024, and every point writes back. -/
private theorem tp_cover (i : S512x4096.Idx) :
    ∃ t : Fin cfg1.N, (cfg1.win 2).flush t = true ∧ i ∈ ((cfg1.win 2).blk t).view.set := by
  have hi0 : (i 0).val < 512 := (i 0).isLt
  have hi1 : (i 1).val < 4096 := (i 1).isLt
  have hlt : (i 1).val / 1024 < cfg1.N := by rw [show cfg1.N = 4 from N_1]; omega
  obtain ⟨-, -, -, -, q0, q1⟩ := tp_index_facts ⟨(i 1).val / 1024, hlt⟩
  have q1' : win1_2.index ⟨(i 1).val / 1024, hlt⟩ (1 : Fin 2) = (i 1).val / 1024 := q1
  refine ⟨⟨(i 1).val / 1024, hlt⟩, flush1_2 _, ?_⟩
  rw [tp_mem_blk]
  intro a
  match a with
  | ⟨0, _⟩ =>
    show win1_2.index ⟨(i 1).val / 1024, hlt⟩ (0 : Fin 2) * 512 ≤ (i 0).val
      ∧ (i 0).val < win1_2.index ⟨(i 1).val / 1024, hlt⟩ (0 : Fin 2) * 512 + 512
    omega
  | ⟨1, _⟩ =>
    show win1_2.index ⟨(i 1).val / 1024, hlt⟩ (1 : Fin 2) * 1024 ≤ (i 1).val
      ∧ (i 1).val < win1_2.index ⟨(i 1).val / 1024, hlt⟩ (1 : Fin 2) * 1024 + 1024
    omega

/-- The array the second region leaves in its output window: the pre-synaptic trace of trace_pre and in_spikes. -/
theorem tp_array (c : Dev nD) :
    (dat1 (F := Ideal) V c).arrAt 2 cfg1.N = Cert.Spec.tpG (V c main_arg3) (V c main_arg0) :=
  (dat1 (F := Ideal) V c).arrAt_eq_of_cover 2 (Cert.Spec.tpG (V c main_arg3) (V c main_arg0))
    (fun t _ => tp_flushed V c t) tp_cover

end Cert.KernelIdeal.Hand

end
-- ==== Proof.Val.Val2.lean ====
/-
  The weights the third region leaves: element (o, i) of the output array is the clamp of w[o, i] plus zero times the
  correlation Σ_b tq[b, o] · tp[b, i] of the two trace arrays the region finds (the sixteen [1024, 1024] blocks tile the
  array; block (j, i) contracts column block j of tq with column block i of tp over the whole batch axis).
-/
import proofs.«156583_j59219009077774_1_alg».proof.Proof.KI.Region2
import proofs.«156583_j59219009077774_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

variable (V : (c : Dev nD) → (b : Ref sig .tc) → Buf (Elt Ideal) ((c : Thread nD τ).loc b))

/-! ## The contraction over the batch axis, read at an index -/

private theorem lhs_corr_0 (i : S1024x1024.Idx) (q : dot_S512x1024_S512x1024_S1024x1024_0_0_1_1_n_n.contr.Idx) :
    (dot_S512x1024_S512x1024_S1024x1024_0_0_1_1_n_n.lhsIdx i q 0).val = (q ⟨0, by decide⟩).val :=
  dot_S512x1024_S512x1024_S1024x1024_0_0_1_1_n_n.lhsIdx_val_of_single rfl i q
private theorem lhs_corr_1 (i : S1024x1024.Idx) (q : dot_S512x1024_S512x1024_S1024x1024_0_0_1_1_n_n.contr.Idx) :
    (dot_S512x1024_S512x1024_S1024x1024_0_0_1_1_n_n.lhsIdx i q 1).val = (i 0).val := by
  unfold DotDims.lhsIdx
  rw [dif_neg (show ¬(1 : Fin S512x1024.rank) ∈ dot_S512x1024_S512x1024_S1024x1024_0_0_1_1_n_n.lhsBatch by decide), dif_pos (show (1 : Fin S512x1024.rank) ∈ dot_S512x1024_S512x1024_S1024x1024_0_0_1_1_n_n.lhsNonContracting by decide)]
  rfl
private theorem rhs_corr_0 (i : S1024x1024.Idx) (q : dot_S512x1024_S512x1024_S1024x1024_0_0_1_1_n_n.contr.Idx) :
    (dot_S512x1024_S512x1024_S1024x1024_0_0_1_1_n_n.rhsIdx i q 0).val = (q ⟨0, by decide⟩).val :=
  dot_S512x1024_S512x1024_S1024x1024_0_0_1_1_n_n.rhsIdx_val_of_single rfl i q
private theorem rhs_corr_1 (i : S1024x1024.Idx) (q : dot_S512x1024_S512x1024_S1024x1024_0_0_1_1_n_n.contr.Idx) :
    (dot_S512x1024_S512x1024_S1024x1024_0_0_1_1_n_n.rhsIdx i q 1).val = (i 1).val := by
  unfold DotDims.rhsIdx
  rw [dif_neg (show ¬(1 : Fin S512x1024.rank) ∈ dot_S512x1024_S512x1024_S1024x1024_0_0_1_1_n_n.rhsBatch by decide), dif_pos (show (1 : Fin S512x1024.rank) ∈ dot_S512x1024_S512x1024_S1024x1024_0_0_1_1_n_n.rhsNonContracting by decide)]
  rfl

/-- Element (p, q) of the product of two [512, 1024] blocks contracted over their first axis, accumulated into zero:
    the sum over the batch of the left block's column p times the right block's column q. -/
private theorem corr_apply (l r : FVec Ideal S512x1024 .bf16) (p q : Fin 1024) :
    matmul dot_S512x1024_S512x1024_S1024x1024_0_0_1_1_n_n none l r (constant (F := Ideal) S1024x1024 .f32 0x00000000#32) (ix2 p q)
      = ∑ b : Fin 512, l (ix2 b p) * r (ix2 b q) := by
  simp only [matmul]
  rw [Ideal.matmul_constant_zero_apply, ← Equiv.sum_comp (ValueIdx.contrEquiv1 dot_S512x1024_S512x1024_S1024x1024_0_0_1_1_n_n 512 rfl rfl).symm]
  refine Finset.sum_congr rfl fun k _ => ?_
  have hk := ValueIdx.contrEquiv1_symm_val dot_S512x1024_S512x1024_S1024x1024_0_0_1_1_n_n 512 rfl rfl k
  have el : dot_S512x1024_S512x1024_S1024x1024_0_0_1_1_n_n.lhsIdx (ix2 p q) ((ValueIdx.contrEquiv1 dot_S512x1024_S512x1024_S1024x1024_0_0_1_1_n_n 512 rfl rfl).symm k) = ix2 k p := funext fun a => Fin.ext (by
    match a with
    | ⟨0, _⟩ => exact (lhs_corr_0 _ _).trans hk
    | ⟨1, _⟩ => exact lhs_corr_1 _ _)
  have er : dot_S512x1024_S512x1024_S1024x1024_0_0_1_1_n_n.rhsIdx (ix2 p q) ((ValueIdx.contrEquiv1 dot_S512x1024_S512x1024_S1024x1024_0_0_1_1_n_n 512 rfl rfl).symm k) = ix2 k q := funext fun a => Fin.ext (by
    match a with
    | ⟨0, _⟩ => exact (rhs_corr_0 _ _).trans hk
    | ⟨1, _⟩ => exact rhs_corr_1 _ _)
  rw [el, er]

/-! ## The body's stored value at an index -/

/-- Element (p, q) of what the body stores: the clamp of the weight block's element plus zero times the correlation
    of column p of the first trace block with column q of the second. -/
private theorem neww_block_apply (x0 x1 : Vec Ideal S512x1024 .f32) (x2 : Vec Ideal S1024x1024 .f32) (p q : Fin 1024) :
    k2_pay1 x0 x1 x2 (ix2 p q) = Cert.Spec.newwE (x2 (ix2 p q)) (∑ b : Fin 512, x0 (ix2 b p) * x1 (ix2 b q)) := by
  unfold k2_pay1 Cert.Spec.newwE
  rw [minimumf_apply, maximumf_apply, addf_apply, mulf_apply, broadcast_apply, broadcast_apply, broadcast_apply, corr_apply]
  simp only [truncf_apply, shapeCast_self]
  rfl

/-- Element (p, q) of what the body stores, when column p of the first block is column o of the post-synaptic trace,
    column q of the second is column i of the pre-synaptic trace, and the weight block's element is the weights' (o, i). -/
private theorem neww_block_of (x0 x1 : Vec Ideal S512x1024 .f32) (x2 : Vec Ideal S1024x1024 .f32)
    (tq tp : Cert.Spec.ArrBO) (w : Cert.Spec.ArrOI) (o i : Fin 4096) (p q : Fin 1024)
    (h0 : ∀ b : Fin 512, x0 (ix2 b p) = tq (ix2 b o))
    (h1 : ∀ b : Fin 512, x1 (ix2 b q) = tp (ix2 b i))
    (h2 : x2 (ix2 p q) = w (ix2 o i)) :
    k2_pay1 x0 x1 x2 (ix2 p q) = Cert.Spec.newwG tq tp w (ix2 o i) := by
  rw [neww_block_apply, Cert.Spec.newwG_ix2, h2]
  unfold Cert.Spec.dsum
  exact congrArg _ (Finset.sum_congr rfl fun b _ => by rw [h0 b, h1 b])

/-! ## From the blocks to the array -/

/-- The printed index maps over the grid: both trace windows sit at row block 0; the first trace's column block is the
    output's row block, the second's is the output's column block; the weights' block is the output's; and the output's
    block indices are below 4. -/
private theorem blocks_at : ∀ t : Fin cfg2.N, win2_0.index t (0 : Fin 2) = 0
    ∧ win2_0.index t (1 : Fin 2) = win2_3.index t (0 : Fin 2)
    ∧ win2_1.index t (0 : Fin 2) = 0
    ∧ win2_1.index t (1 : Fin 2) = win2_3.index t (1 : Fin 2)
    ∧ win2_2.index t (0 : Fin 2) = win2_3.index t (0 : Fin 2)
    ∧ win2_2.index t (1 : Fin 2) = win2_3.index t (1 : Fin 2)
    ∧ win2_3.index t (0 : Fin 2) ≤ 3 ∧ win2_3.index t (1 : Fin 2) ≤ 3 :=
  (by decide +kernel : ∀ t : Fin grid2.N, _)

/-- Every one of the sixteen blocks of the weights is some point's. -/
private theorem blocks_onto : ∀ (q0 q1 : Fin 4), ∃ t : Fin cfg2.N, win2_3.index t = ![q0.val, q1.val] :=
  (by decide +kernel : ∀ (q0 q1 : Fin 4), ∃ t : Fin grid2.N, win2_3.index t = ![q0.val, q1.val])

/-- What point t writes back is its block of the clamped weights of the whole arrays. -/
private theorem neww_flushed (c : Dev nD) (t : Fin cfg2.N) :
    (dat2 (F := Ideal) V c).flushed 3 t
      = ((cfg2.win 3).blk t).view.read (Elt Ideal) (Cert.Spec.newwG (V c main_v0_2) (V c main_v1) (V c main_arg1)) := by
  show (cfg2.win 3).cut (grid2.coords t) ((dat2 (F := Ideal) V c).after 3 t) = _
  rw [after2_3, out2_3_eq]
  obtain ⟨e00, e01, e10, e11, e20, e21, b0, b1⟩ := blocks_at t
  funext j
  have hj0 : (j 0).val < 1024 := (j 0).isLt
  have hj1 : (j 1).val < 1024 := (j 1).isLt
  show k2_pay1 (iblk2 V c 0 t) (iblk2 V c 1 t) (iblk2 V c 2 t) j
    = Cert.Spec.newwG (V c main_v0_2) (V c main_v1) (V c main_arg1) (((cfg2.win 3).blk t).view.emb j)
  refine (congrArg _ (eq_ix2 (n0 := 1024) (n1 := 1024) j)).trans
    ((neww_block_of _ _ _ _ _ _ ⟨win2_3.index t (0 : Fin 2) * 1024 + (j 0).val, by omega⟩
      ⟨win2_3.index t (1 : Fin 2) * 1024 + (j 1).val, by omega⟩ ⟨(j 0).val, hj0⟩ ⟨(j 1).val, hj1⟩ ?_ ?_ ?_).trans (congrArg _ ?_))
  · intro b
    show V c main_v0_2 (((cfg2.win 0).blk t).view.emb (ix2 b ⟨(j 0).val, hj0⟩)) = V c main_v0_2 _
    refine congrArg _ (funext fun a => Fin.ext ?_)
    match a with
    | ⟨0, _⟩ => show win2_0.index t (0 : Fin 2) * 512 + 1 * b.val = b.val; omega
    | ⟨1, _⟩ => show win2_0.index t (1 : Fin 2) * 1024 + 1 * (j 0).val = win2_3.index t (0 : Fin 2) * 1024 + (j 0).val; omega
  · intro b
    show V c main_v1 (((cfg2.win 1).blk t).view.emb (ix2 b ⟨(j 1).val, hj1⟩)) = V c main_v1 _
    refine congrArg _ (funext fun a => Fin.ext ?_)
    match a with
    | ⟨0, _⟩ => show win2_1.index t (0 : Fin 2) * 512 + 1 * b.val = b.val; omega
    | ⟨1, _⟩ => show win2_1.index t (1 : Fin 2) * 1024 + 1 * (j 1).val = win2_3.index t (1 : Fin 2) * 1024 + (j 1).val; omega
  · show V c main_arg1 (((cfg2.win 2).blk t).view.emb (ix2 ⟨(j 0).val, hj0⟩ ⟨(j 1).val, hj1⟩)) = V c main_arg1 _
    refine congrArg _ (funext fun a => Fin.ext ?_)
    match a with
    | ⟨0, _⟩ => show win2_2.index t (0 : Fin 2) * 1024 + 1 * (j 0).val = win2_3.index t (0 : Fin 2) * 1024 + (j 0).val; omega
    | ⟨1, _⟩ => show win2_2.index t (1 : Fin 2) * 1024 + 1 * (j 1).val = win2_3.index t (1 : Fin 2) * 1024 + (j 1).val; omega
  · funext a; apply Fin.ext
    match a with
    | ⟨0, _⟩ => show win2_3.index t (0 : Fin 2) * 1024 + (j 0).val = win2_3.index t (0 : Fin 2) * 1024 + 1 * (j 0).val; omega
    | ⟨1, _⟩ => show win2_3.index t (1 : Fin 2) * 1024 + (j 1).val = win2_3.index t (1 : Fin 2) * 1024 + 1 * (j 1).val; omega

/-- An index of the weights is in point t's block iff each coordinate is in the block's range on its axis. -/
private theorem mem_neww_blk (t : Fin cfg2.N) (i : S4096x4096.Idx) :
    i ∈ ((cfg2.win 3).blk t).view.set ↔ ∀ a : Fin 2, win2_3.index t a * S1024x1024.size a ≤ (i a).val ∧ (i a).val < win2_3.index t a * S1024x1024.size a + S1024x1024.size a := by
  show i ∈ ((View.whole main_v2).slice (win2_3.rect t)).set ↔ _
  rw [View.set_slice_whole, Rect.mem_set_unit]
  exact Iff.rfl

/-- Every index of the weights lies in the block of the point at (row / 1024, column / 1024). -/
private theorem neww_cover (i : S4096x4096.Idx) :
    ∃ t : Fin cfg2.N, (cfg2.win 3).flush t = true ∧ i ∈ ((cfg2.win 3).blk t).view.set := by
  have hi0 : (i 0).val < 4096 := (i 0).isLt
  have hi1 : (i 1).val < 4096 := (i 1).isLt
  obtain ⟨t, ht⟩ := blocks_onto ⟨(i 0).val / 1024, by omega⟩ ⟨(i 1).val / 1024, by omega⟩
  have q0 : win2_3.index t (0 : Fin 2) = (i 0).val / 1024 := congrFun ht 0
  have q1 : win2_3.index t (1 : Fin 2) = (i 1).val / 1024 := congrFun ht 1
  refine ⟨t, flush2_3 t, ?_⟩
  rw [mem_neww_blk]
  intro a
  match a with
  | ⟨0, _⟩ => show win2_3.index t (0 : Fin 2) * 1024 ≤ (i 0).val ∧ (i 0).val < win2_3.index t (0 : Fin 2) * 1024 + 1024; omega
  | ⟨1, _⟩ => show win2_3.index t (1 : Fin 2) * 1024 ≤ (i 1).val ∧ (i 1).val < win2_3.index t (1 : Fin 2) * 1024 + 1024; omega

/-- The array the third region leaves in its output window: the clamped weights of the two traces and the weights it finds. -/
theorem neww_array (c : Dev nD) :
    (dat2 (F := Ideal) V c).arrAt 3 cfg2.N = Cert.Spec.newwG (V c main_v0_2) (V c main_v1) (V c main_arg1) := by
  exact (dat2 (F := Ideal) V c).arrAt_eq_of_cover 3 (Cert.Spec.newwG (V c main_v0_2) (V c main_v1) (V c main_arg1))
    (fun t _ => neww_flushed V c t) neww_cover

end Cert.KernelIdeal.Hand

end
-- ==== Proof.Val.KernelVal.lean ====
/-
  The idealized kernel program's run with its five results named: the spikes, the reset membrane, the clamped weights,
  the pre-synaptic trace and the post-synaptic trace, each the specification's function of the five arguments. The
  third region reads the traces the first two leave, so its array is the specification's weights of those traces.
-/
import proofs.«156583_j59219009077774_1_alg».proof.Proof.KI.Final
import proofs.«156583_j59219009077774_1_alg».proof.Proof.Val.Val0
import proofs.«156583_j59219009077774_1_alg».proof.Proof.Val.Val1
import proofs.«156583_j59219009077774_1_alg».proof.Proof.Val.Val2

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)

variable (m : (ℓ : Loc nD τ sig) → Buf (Elt Ideal) ℓ) (ρ : Dev nD → PrngReg)

/-- The pre-synaptic trace the second region leaves, of the launch contents. -/
theorem tp_val (c : Dev nD) :
    (dat1 (F := Ideal) (V1 m ρ) c).arrAt 2 cfg1.N = Cert.Spec.tpG (m ((c.tc : Thread nD τ).loc main_arg3)) (m ((c.tc : Thread nD τ).loc main_arg0)) :=
  (tp_array (V1 m ρ) c).trans (congrArg₂ Cert.Spec.tpG (V1_main_arg3 m ρ c) (V1_main_arg0 m ρ c))

/-- The post-synaptic trace the first region leaves, of the launch contents. -/
theorem tq_val (c : Dev nD) :
    (dat0 (F := Ideal) (V0 m ρ) c).arrAt 6 cfg0.N = Cert.Spec.tqG (m ((c.tc : Thread nD τ).loc main_arg0)) (m ((c.tc : Thread nD τ).loc main_arg1)) (m ((c.tc : Thread nD τ).loc main_arg2)) (m ((c.tc : Thread nD τ).loc main_arg4)) :=
  tq_array (V0 m ρ) c

/-- The weights the third region leaves: of the two traces the earlier regions left and the launch weights. -/
theorem neww_val (c : Dev nD) :
    (dat2 (F := Ideal) (V2 m ρ) c).arrAt 3 cfg2.N
      = Cert.Spec.newwG (Cert.Spec.tqG (m ((c.tc : Thread nD τ).loc main_arg0)) (m ((c.tc : Thread nD τ).loc main_arg1)) (m ((c.tc : Thread nD τ).loc main_arg2)) (m ((c.tc : Thread nD τ).loc main_arg4))) (Cert.Spec.tpG (m ((c.tc : Thread nD τ).loc main_arg3)) (m ((c.tc : Thread nD τ).loc main_arg0))) (m ((c.tc : Thread nD τ).loc main_arg1)) := by
  have e0 : V2 m ρ c main_v0_2 = Cert.Spec.tqG (m ((c.tc : Thread nD τ).loc main_arg0)) (m ((c.tc : Thread nD τ).loc main_arg1)) (m ((c.tc : Thread nD τ).loc main_arg2)) (m ((c.tc : Thread nD τ).loc main_arg4)) := (V2_main_v0_2 m ρ c).trans (tq_val m ρ c)
  have e1 : V2 m ρ c main_v1 = Cert.Spec.tpG (m ((c.tc : Thread nD τ).loc main_arg3)) (m ((c.tc : Thread nD τ).loc main_arg0)) := (V2_main_v1 m ρ c).trans (tp_val m ρ c)
  have e2 : V2 m ρ c main_arg1 = (m ((c.tc : Thread nD τ).loc main_arg1)) := V2_main_arg1 m ρ c
  exact (neww_array (V2 m ρ) c).trans (congr (congr (congrArg Cert.Spec.newwG e0) e1) e2)

/-- THE VALUE RUN of the idealized kernel program. -/
theorem kernel_run : θ_run (defs (F := Ideal)) (onTc (τ := τ) (main (F := Ideal))) ⟨m, fun _ => 0, ρ⟩ (fun r => ∀ c : Dev nD,
      r.2.mem ((c.tc : Thread nD τ).loc main_v0_0) = Cert.Spec.spikesG (m ((c.tc : Thread nD τ).loc main_arg0)) (m ((c.tc : Thread nD τ).loc main_arg1)) (m ((c.tc : Thread nD τ).loc main_arg2))
      ∧ r.2.mem ((c.tc : Thread nD τ).loc main_v0_1) = Cert.Spec.newmemG (m ((c.tc : Thread nD τ).loc main_arg0)) (m ((c.tc : Thread nD τ).loc main_arg1)) (m ((c.tc : Thread nD τ).loc main_arg2))
      ∧ r.2.mem ((c.tc : Thread nD τ).loc main_v2) = Cert.Spec.newwG (Cert.Spec.tqG (m ((c.tc : Thread nD τ).loc main_arg0)) (m ((c.tc : Thread nD τ).loc main_arg1)) (m ((c.tc : Thread nD τ).loc main_arg2)) (m ((c.tc : Thread nD τ).loc main_arg4))) (Cert.Spec.tpG (m ((c.tc : Thread nD τ).loc main_arg3)) (m ((c.tc : Thread nD τ).loc main_arg0))) (m ((c.tc : Thread nD τ).loc main_arg1))
      ∧ r.2.mem ((c.tc : Thread nD τ).loc main_v1) = Cert.Spec.tpG (m ((c.tc : Thread nD τ).loc main_arg3)) (m ((c.tc : Thread nD τ).loc main_arg0))
      ∧ r.2.mem ((c.tc : Thread nD τ).loc main_v0_2) = Cert.Spec.tqG (m ((c.tc : Thread nD τ).loc main_arg0)) (m ((c.tc : Thread nD τ).loc main_arg1)) (m ((c.tc : Thread nD τ).loc main_arg2)) (m ((c.tc : Thread nD τ).loc main_arg4))
      ∧ r.2.mem ((c.tc : Thread nD τ).loc main_arg0) = (m ((c.tc : Thread nD τ).loc main_arg0))
      ∧ r.2.mem ((c.tc : Thread nD τ).loc main_arg1) = (m ((c.tc : Thread nD τ).loc main_arg1))
      ∧ r.2.mem ((c.tc : Thread nD τ).loc main_arg2) = (m ((c.tc : Thread nD τ).loc main_arg2))
      ∧ r.2.mem ((c.tc : Thread nD τ).loc main_arg3) = (m ((c.tc : Thread nD τ).loc main_arg3))
      ∧ r.2.mem ((c.tc : Thread nD τ).loc main_arg4) = (m ((c.tc : Thread nD τ).loc main_arg4))) :=
  (θ_run defs _ _).mono (fun _ h c =>
    ⟨((h c _ (mem_uc main_v0_0 (by decide))).trans (W3_main_v0_0 m ρ c)).trans (spikes_array (V0 m ρ) c),
     ((h c _ (mem_uc main_v0_1 (by decide))).trans (W3_main_v0_1 m ρ c)).trans (newmem_array (V0 m ρ) c),
     ((h c _ (mem_uc main_v2 (by decide))).trans (W3_main_v2 m ρ c)).trans (neww_val m ρ c),
     ((h c _ (mem_uc main_v1 (by decide))).trans (W3_main_v1 m ρ c)).trans (tp_val m ρ c),
     ((h c _ (mem_uc main_v0_2 (by decide))).trans (W3_main_v0_2 m ρ c)).trans (tq_val m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c)⟩) (run m ρ)

end Cert.KernelIdeal.Hand

end
-- ==== Proof.Val.RefVal.lean ====
/-
  The reference program's results, as the specification's functions of its arguments: its run, one operation at a
  time, read at an index — the transposed weights inside the first contraction read back as w[o, i], the two
  contractions as the sums over the inputs and over the batch, everything else element by element.
-/
import proofs.«156583_j59219009077774_1_alg».proof.Proof.RefRead
import proofs.«156583_j59219009077774_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefVal

open Cert.ReferenceIdeal Cert.ReferenceIdeal.Gen
open Idealize.ShloMosaic Idealize.ShloMosaic.TcCoe Idealize.ShloMosaic.ValueIdx Idealize.SL.Sem
open scoped BigOperators

/-! ## The index maps of the two contractions and of the transpose, by coordinates -/

/-- The first contraction reads the spikes at row `b`, input `k`. -/
private theorem lidx_v1 (b : Fin 512) (o k : Fin 4096) : ReadP.lidx_main_v1 (ix2 b o) k = ix2 b k :=
  funext fun a => Fin.ext (by match a with | ⟨0, _⟩ => rfl | ⟨1, _⟩ => rfl)

/-- The first contraction reads the transposed weights at `[k, o]`, which is the weights at `[o, k]`. -/
private theorem ridx_v1 (b : Fin 512) (o k : Fin 4096) :
    ReadP.idx_main_v0 (ReadP.ridx_main_v1 (ix2 b o) k) = ix2 o k :=
  funext fun a => Fin.ext (by match a with | ⟨0, _⟩ => rfl | ⟨1, _⟩ => rfl)

/-- The second contraction reads the post-synaptic trace at batch row `k`, neuron `o`. -/
private theorem lidx_v19 (o i : Fin 4096) (k : Fin 512) : ReadP.lidx_main_v19 (ix2 o i) k = ix2 k o :=
  funext fun a => Fin.ext (by match a with | ⟨0, _⟩ => rfl | ⟨1, _⟩ => rfl)

/-- The second contraction reads the pre-synaptic trace at batch row `k`, input `i`. -/
private theorem ridx_v19 (o i : Fin 4096) (k : Fin 512) : ReadP.ridx_main_v19 (ix2 o i) k = ix2 k i :=
  funext fun a => Fin.ext (by match a with | ⟨0, _⟩ => rfl | ⟨1, _⟩ => rfl)

/-! ## The stages, as the specification's functions -/

section
variable (x0 : (⟨S512x4096, .f32⟩ : BufTy).Contents (Elt Ideal)) (x1 : (⟨S4096x4096, .f32⟩ : BufTy).Contents (Elt Ideal))
  (x2 x3 x4 : (⟨S512x4096, .f32⟩ : BufTy).Contents (Elt Ideal))

/-- The membrane after the weighted input, at one neuron: `mem · β` plus the sum over the inputs of spike times weight,
    the transposed weights read back as `w[o, i]`. -/
theorem v4_ix2 (b : Fin 512) (o : Fin 4096) :
    ReadP.val_main_v4 (F := Ideal) x0 x1 x2 (ix2 b o) = Cert.Spec.memE (x2 (ix2 b o)) (Cert.Spec.wsum x0 x1 b o) := by
  rw [ReadP.val_main_v4_apply, ReadP.val_main_v3_apply, ReadP.val_main_v2_apply, ReadP.val_main_cst_apply,
    ReadP.val_main_v1_apply]
  unfold Cert.Spec.memE Cert.Spec.wsum
  simp only [Ideal.addf_def, Ideal.mulf_def, Ideal.ofBits_def]
  congr 1
  refine Finset.sum_congr rfl fun k _ => ?_
  rw [ReadP.val_main_v0_apply, lidx_v1, ridx_v1]

/-- The spike at one neuron. -/
theorem v7_ix2 (b : Fin 512) (o : Fin 4096) :
    ReadP.val_main_v7 (F := Ideal) x0 x1 x2 (ix2 b o)
      = Cert.Spec.spikeE (Cert.Spec.memE (x2 (ix2 b o)) (Cert.Spec.wsum x0 x1 b o)) := by
  rw [ReadP.val_main_v7_apply, ReadP.val_main_v6_apply, ReadP.val_main_v5_apply, ReadP.val_main_cst_0_apply, v4_ix2]
  rfl

/-- The spikes. -/
theorem v7_eq : ReadP.val_main_v7 (F := Ideal) x0 x1 x2 = Cert.Spec.spikesG x0 x1 x2 := by
  funext i
  obtain ⟨b, o, rfl⟩ : ∃ (b : Fin 512) (o : Fin 4096), i = ix2 b o := ⟨i 0, i 1, eq_ix2 i⟩
  rw [v7_ix2]
  rfl

/-- The membrane after the reset. -/
theorem v12_eq : ReadP.val_main_v12 (F := Ideal) x0 x1 x2 = Cert.Spec.newmemG x0 x1 x2 := by
  funext i
  obtain ⟨b, o, rfl⟩ : ∃ (b : Fin 512) (o : Fin 4096), i = ix2 b o := ⟨i 0, i 1, eq_ix2 i⟩
  rw [ReadP.val_main_v12_apply, ReadP.val_main_v9_apply, ReadP.val_main_v8_apply, ReadP.val_main_cst_1_apply,
    ReadP.val_main_v11_apply, ReadP.val_main_v10_apply, ReadP.val_main_cst_2_apply, v7_ix2, v4_ix2]
  rfl

/-- The pre-synaptic trace. -/
theorem v15_eq : ReadP.val_main_v15 (F := Ideal) x0 x3 = Cert.Spec.tpG x3 x0 := by
  funext i
  rw [ReadP.val_main_v15_apply, ReadP.val_main_v14_apply, ReadP.val_main_v13_apply, ReadP.val_main_cst_3_apply]
  rfl

/-- The post-synaptic trace. -/
theorem v18_eq : ReadP.val_main_v18 (F := Ideal) x0 x1 x2 x4 = Cert.Spec.tqG x0 x1 x2 x4 := by
  funext i
  obtain ⟨b, o, rfl⟩ : ∃ (b : Fin 512) (o : Fin 4096), i = ix2 b o := ⟨i 0, i 1, eq_ix2 i⟩
  rw [ReadP.val_main_v18_apply, ReadP.val_main_v17_apply, ReadP.val_main_v16_apply, ReadP.val_main_cst_4_apply, v7_ix2]
  rfl

/-- The clamped weights: the weight plus the zero factor times the correlation of the two traces over the batch, between
    the two bounds. -/
theorem v23_eq :
    ReadP.val_main_v23 (F := Ideal) x0 x1 x2 x3 x4
      = Cert.Spec.newwG (Cert.Spec.tqG x0 x1 x2 x4) (Cert.Spec.tpG x3 x0) x1 := by
  funext j
  obtain ⟨o, i, rfl⟩ : ∃ (o : Fin 4096) (i : Fin 4096), j = ix2 o i := ⟨j 0, j 1, eq_ix2 j⟩
  rw [ReadP.val_main_v23_apply, ReadP.val_main_call1_v4_apply, ReadP.val_main_call1_v3_apply, ReadP.val_main_cst_7_apply,
    ReadP.val_main_call1_v2_apply, ReadP.val_main_call1_v1_apply, ReadP.val_main_call1_v0_apply,
    ReadP.val_main_cst_6_apply, ReadP.val_main_v22_apply, ReadP.val_main_v21_apply, ReadP.val_main_v20_apply,
    ReadP.val_main_cst_5_apply, ReadP.val_main_v19_apply, v18_eq, v15_eq, Cert.Spec.newwG_ix2]
  unfold Cert.Spec.newwE Cert.Spec.dsum
  simp only [Ideal.addf_def, Ideal.mulf_def, Ideal.ofBits_def, Ideal.minimumf_def, Ideal.maximumf_def, lidx_v19, ridx_v19]

end

/-- The reference's run at the ideal instance: each result is the specification's function of the arguments, and the
    arguments end unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v7)
        = Cert.Spec.spikesG (m ((c.tc : Thread nD τ).loc main_arg0)) (m ((c.tc : Thread nD τ).loc main_arg1)) (m ((c.tc : Thread nD τ).loc main_arg2))
      ∧ r.2.mem ((c.tc : Thread nD τ).loc main_v12)
        = Cert.Spec.newmemG (m ((c.tc : Thread nD τ).loc main_arg0)) (m ((c.tc : Thread nD τ).loc main_arg1)) (m ((c.tc : Thread nD τ).loc main_arg2))
      ∧ r.2.mem ((c.tc : Thread nD τ).loc main_v23)
        = Cert.Spec.newwG
            (Cert.Spec.tqG (m ((c.tc : Thread nD τ).loc main_arg0)) (m ((c.tc : Thread nD τ).loc main_arg1)) (m ((c.tc : Thread nD τ).loc main_arg2)) (m ((c.tc : Thread nD τ).loc main_arg4)))
            (Cert.Spec.tpG (m ((c.tc : Thread nD τ).loc main_arg3)) (m ((c.tc : Thread nD τ).loc main_arg0)))
            (m ((c.tc : Thread nD τ).loc main_arg1))
      ∧ r.2.mem ((c.tc : Thread nD τ).loc main_v15)
        = Cert.Spec.tpG (m ((c.tc : Thread nD τ).loc main_arg3)) (m ((c.tc : Thread nD τ).loc main_arg0))
      ∧ r.2.mem ((c.tc : Thread nD τ).loc main_v18)
        = Cert.Spec.tqG (m ((c.tc : Thread nD τ).loc main_arg0)) (m ((c.tc : Thread nD τ).loc main_arg1)) (m ((c.tc : Thread nD τ).loc main_arg2)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run (defs (F := Ideal)) _ _).mono (fun _ h c =>
      ⟨(h c).1.trans ((ReadP.val_main_v7_eq _ _ _).trans (v7_eq _ _ _)),
        (h c).2.1.trans ((ReadP.val_main_v12_eq _ _ _).trans (v12_eq _ _ _)),
        (h c).2.2.1.trans ((ReadP.val_main_v23_eq _ _ _ _ _).trans (v23_eq _ _ _ _ _)),
        (h c).2.2.2.1.trans ((ReadP.val_main_v15_eq _ _).trans (v15_eq _ _)),
        (h c).2.2.2.2.1.trans ((ReadP.val_main_v18_eq _ _ _ _).trans (v18_eq _ _ _ _)),
        (h c).2.2.2.2.2⟩)
    (Cert.ReferenceIdeal.ValueP.run (F := Ideal) m ρ)

end Cert.ReferenceIdeal.RefVal

end
-- ==== Proof.lean ====
/-
  A spiking layer's update step: the weighted input x · wᵀ, the leaky integrate-and-fire update of the membrane (spike
  where it exceeds the threshold, reset where it spiked), the two decaying traces, and the clamped weight update whose
  learning-rate difference is zero. The kernel program computes it in three grid kernels (the weighted input
  accumulated over four blocks of the input axis in a scratch, with the neuron update at the last block; the
  pre-synaptic trace block by block; the weight update over sixteen blocks, each contracting the two traces over the
  whole batch); the reference in one pass of whole-array operations. On the extended reals the two compute the same
  function of the arguments, element by element: the same literal constants in the same operand order, a change of float
  format the identity, and the blocked accumulation a regrouping of one finite sum — no finiteness of the inputs is
  used.

  The three frames: both kernel programs run their three regions in order, each region changing only its output
  windows' arrays, so every argument array ends as launched (Proof/K for the word-level program, Proof/KI for the
  idealized one); the reference's frame is its run with the results dropped. The idealization rewrote nothing, so
  `preserves` has nothing to state. `algebraic`: both runs end with each result at the specification's function of
  arguments that agree.
-/
import proofs.«156583_j59219009077774_1_alg».proof.Defs
import proofs.«156583_j59219009077774_1_alg».proof.Proof.Gen.Kernel
import proofs.«156583_j59219009077774_1_alg».proof.Proof.Gen.KernelIdeal
import proofs.«156583_j59219009077774_1_alg».proof.Proof.Gen.ReferenceIdeal
import proofs.«156583_j59219009077774_1_alg».proof.Proof.Gen.Pre_finite_inputs
import proofs.«156583_j59219009077774_1_alg».proof.Proof.K.Final
import proofs.«156583_j59219009077774_1_alg».proof.Proof.Val.KernelVal
import proofs.«156583_j59219009077774_1_alg».proof.Proof.Val.RefVal

noncomputable section

namespace Cert.Proof

open Idealize.ShloMosaic Idealize.SL.Sem

theorem frame_k : @Cert.frame_Kernel Cert.Kernel.Gen.facts Cert.Pre_finite_inputs.Gen.facts :=
  fun m ρ _ => Cert.Kernel.Hand.frame m ρ

theorem frame_ki : @Cert.frame_KernelIdeal Cert.KernelIdeal.Gen.facts Cert.Pre_finite_inputs.Gen.facts :=
  fun m ρ _ => Cert.KernelIdeal.Hand.frame m ρ

/-- The reference's frame: its run with the results dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2.2.2.2.2)
    (Cert.ReferenceIdeal.RefVal.ref_run m ρ)

/-- Both idealized programs end with each result at the specification's function of the arguments, which agree. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.Spec.spikesG (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    fun c => Cert.Spec.newmemG (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    fun c => Cert.Spec.newwG (Cert.Spec.tqG (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4))) (Cert.Spec.tpG (m ((c.tc : Thread Cert.KernelIdeal.nD Cert.KernelIdeal.τ).loc Cert.KernelIdeal.main_arg3)) (m ((c.tc : Thread Cert.KernelIdeal.nD Cert.KernelIdeal.τ).loc Cert.KernelIdeal.main_arg0))) (m ((c.tc : Thread Cert.KernelIdeal.nD Cert.KernelIdeal.τ).loc Cert.KernelIdeal.main_arg1)),
    fun c => Cert.Spec.tpG (m ((c.tc : Thread Cert.KernelIdeal.nD Cert.KernelIdeal.τ).loc Cert.KernelIdeal.main_arg3)) (m ((c.tc : Thread Cert.KernelIdeal.nD Cert.KernelIdeal.τ).loc Cert.KernelIdeal.main_arg0)),
    fun c => Cert.Spec.tqG (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)),
    Cert.KernelIdeal.Hand.kernel_run m ρ, ?_⟩
  refine (θ_run Cert.ReferenceIdeal.defs _ _).mono (fun _ h c => ?_) (Cert.ReferenceIdeal.RefVal.ref_run m' ρ')
  obtain ⟨e0, e1, e2, e3, e4⟩ := hagree c
  obtain ⟨h7, h12, h23, h15, h18, hargs⟩ := h c
  refine ⟨?_, ?_, ?_, ?_, ?_, hargs⟩
  · rw [h7, e0, e1, e2]
  · rw [h12, e0, e1, e2]
  · rw [h23, e0, e1, e2, e3, e4]
  · rw [h15, e0, e3]
  · rw [h18, e0, e1, e2, e4]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
